-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Pre_finite_inputs_ReferenceIdeal.lean ====
abbrev S2048x256 : Shape := ⟨2, ![2048, 256]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel

variable [Facts]

def fn {F : FTy → Type} [FloatOps F] (main_arg0 : FVec F S2048x256 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  main_v3
-- ==== Kernel.lean ====
abbrev S512x256 : Shape := ⟨2, ![512, 256]⟩
abbrev S1x256 : Shape := ⟨2, ![1, 256]⟩
abbrev S4x1x256 : Shape := ⟨3, ![4, 1, 256]⟩
abbrev S3 : Shape := ⟨1, ![3]⟩
abbrev S_ : Shape := ⟨0, ![]⟩
abbrev S256 : Shape := ⟨1, ![256]⟩
abbrev S1x1x256 : Shape := ⟨3, ![1, 1, 256]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S512x256, .f32⟩
  | .hbm, ⟨1, _⟩ => ⟨S1x256, .f32⟩
  | .local _ .vmem, ⟨0, _⟩ => ⟨S512x256, .f32⟩
  | .local _ .vmem, ⟨1, _⟩ => ⟨S1x256, .f32⟩
  | .local _ .vmem, ⟨2, _⟩ => ⟨S4x1x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_17 : BitVec 32 := 2#32
  let v23 : BitVec 32 := Scalar.addi v2 c2_i32_17
  let c4_i32_18 : BitVec 32 := 4#32
  let v24 : BitVec 32 := Scalar.remsi v23 c4_i32_18
  let c1_i32_23 : BitVec 32 := 1#32
  let v25 : BitVec 32 := Scalar.muli v24 c1_i32_23
  let v26 : BitVec 32 := Scalar.addi c0_i32_24 v25
  v26.toNat
def k0_dev5 (d0 : Dev nD) : Nat :=
  let c0_i32_36 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_29 : BitVec 32 := 1#32
  let v35 : BitVec 32 := Scalar.addi v2 c1_i32_29
  let c4_i32_30 : BitVec 32 := 4#32
  let v36 : BitVec 32 := Scalar.remsi v35 c4_i32_30
  let c1_i32_35 : BitVec 32 := 1#32
  let v37 : BitVec 32 := Scalar.muli v36 c1_i32_35
  let v38 : BitVec 32 := Scalar.addi c0_i32_36 v37
  v38.toNat
def k0_dev6 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_41 : BitVec 32 := 3#32
  let v47 : BitVec 32 := Scalar.addi v2 c3_i32_41
  let c4_i32_42 : BitVec 32 := 4#32
  let v48 : BitVec 32 := Scalar.remsi v47 c4_i32_42
  let c1_i32_47 : BitVec 32 := 1#32
  let v49 : BitVec 32 := Scalar.muli v48 c1_i32_47
  let v50 : BitVec 32 := Scalar.addi c0_i32_48 v49
  v50.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S512x256_S256 : S512x256.Reduces [0] S256
  shapeCasts_S256_S1x256 : S256.ShapeCasts S1x256
  inb_S4x1x256_S1x1x256_0_0_0 : ∀ a, (![0, 0, 0] : Fin 3 → Nat) a + S1x1x256.size a ≤ S4x1x256.size a
  h_S1x1x256 : 0 < S1x1x256.numel
  shapeCasts_S1x1x256_S1x256 : S1x1x256.ShapeCasts S1x256
  shapeCasts_S1x256_S1x1x256 : S1x256.ShapeCasts S1x1x256
  hamt_3 : (3#32 : BitVec 32).msb = false
  inb_S3_S1_1 : ∀ a, (![1] : Fin 1 → Nat) a + S1.size a ≤ S3.size a
  squeezes_S1_S_ : S1.Squeezes S_
  inb_S4x1x256_S1x1x256_2_0_0 : ∀ a, (![2, 0, 0] : Fin 3 → Nat) a + S1x1x256.size a ≤ S4x1x256.size a
  squeezes_S1x1x256_S1x256 : S1x1x256.Squeezes S1x256
  inb_S3_S1_0 : ∀ a, (![0] : Fin 1 → Nat) a + S1.size a ≤ S3.size a
  inb_S4x1x256_S1x1x256_1_0_0 : ∀ a, (![1, 0, 0] : Fin 3 → Nat) a + S1x1x256.size a ≤ S4x1x256.size a
  inb_S3_S1_2 : ∀ a, (![2] : Fin 1 → Nat) a + S1.size a ≤ S3.size a
  inb_S4x1x256_S1x1x256_3_0_0 : ∀ a, (![3, 0, 0] : Fin 3 → Nat) a + S1x1x256.size a ≤ S4x1x256.size a
  inb_S1x256_S1x256_0_0 : ∀ a, (![0, 0] : Fin 2 → Nat) a + S1x256.size a ≤ S1x256.size a
  h_S1x256 : 0 < S1x256.numel
  hcc0_scratch1 : 2 + S3.numel ≤ 8
  hcc0_scratch2 : 5 + S3.numel ≤ 8
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  hstage0_0 : ∀ j, (stage0_0 j).IsWhole
  hstage0_1 : ∀ j, (stage0_1 j).IsWhole

variable [Facts₀]

abbrev cc0_scratch1 : DmaSems sig S3 := SemArray.consecutive 2 S3 hcc0_scratch1
abbrev cc0_scratch2 : DmaSems sig S3 := SemArray.consecutive 5 S3 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x256 : Shape := ⟨2, ![2048, 256]⟩
abbrev S_ : Shape := ⟨0, ![]⟩
abbrev S256 : Shape := ⟨1, ![256]⟩
abbrev S1x256 : Shape := ⟨2, ![1, 256]⟩

abbrev nBuf : Space → Nat
  | .hbm => 4
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S_, .f32⟩
  | .hbm, ⟨2, _⟩ => ⟨S256, .f32⟩
  | .hbm, ⟨3, _⟩ => ⟨S1x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S2048x256_S256_d0 : S2048x256.ReducesTo [0] S256
  h_S_ : 0 < S_.numel
  bcast_S256_S1x256_1 : S256.BroadcastsInDim S1x256 (![1] : Fin 1 → Fin S1x256.rank)

variable [Facts₀]

class Facts : Prop extends Facts₀ where

variable [Facts]
-- ==== Proof.Ideal.Sched.lean ====
/-
  A four-device all-to-all maximum, read as a protocol.

  Each device reduces its own 512 rows to one row of column maxima (slot 0 of a four-slot scratch buffer), tells the
  three other devices — one unit each on their barrier semaphore — that it has entered, waits for its own three
  units, and then copies its row into slot `d` of the device `d` places after it (`d = 1, 2, 3`), so that slot `d` of a
  device ends holding the row of the device `d` places BEFORE it. The result is the maximum of the four slots.

  This module fixes the vocabulary every other module is stated in: the shifts on the ring of four, the slot views
  and the cells, what each slot holds at the end (`comm`), the schedule of duties with each landing's contents, what a
  device owes at entry, and the levels that order the waits.
-/
import proofs.«900926_g7700000000000927_dist_max_ax0_shard0_i_m512_n256_v7x_i4_bf16_1_alg».proof.Proof.Gen.KernelIdeal
import proofs.«900926_g7700000000000927_dist_max_ax0_shard0_i_m512_n256_v7x_i4_bf16_1_alg».proof.Proof.Gen.KernelIdeal.Skeleton
import proofs.«900926_g7700000000000927_dist_max_ax0_shard0_i_m512_n256_v7x_i4_bf16_1_alg».proof.Proof.Gen.KernelIdeal.Launch
import proofs.«900926_g7700000000000927_dist_max_ax0_shard0_i_m512_n256_v7x_i4_bf16_1_alg».proof.Proof.Gen.KernelIdeal.Points
import proofs.«900926_g7700000000000927_dist_max_ax0_shard0_i_m512_n256_v7x_i4_bf16_1_alg».proof.Proof.Gen.KernelIdeal.Frame
import Idealize.ShloMosaic.Lib.Pipeline.Launch
import Idealize.ShloMosaic.Lib.Pipeline.Kit
import Idealize.ShloMosaic.Lib.Transfers
import Idealize.ShloMosaic.Lib.ValueIdx
import Idealize.ShloMosaic.Lib.Tactic

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own copy beside the protocol's (duties named by `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def st0 : MemSt nD τ sig (Elt F) := ⟨m, fun _ => 0, ρ⟩

/-! ## The ring of four -/

/-- The device `k` places after `c`. -/
def sh (k : ℕ) (c : Dev nD) : Dev nD := ⟨(c.val + k) % 4, Nat.mod_lt _ (by decide)⟩

theorem sh_sh (j k : ℕ) (c : Dev nD) : sh j (sh k c) = sh (j + k) c := by
  apply Fin.ext; show ((c.val + k) % 4 + j) % 4 = (c.val + (j + k)) % 4; omega
theorem sh_four (c : Dev nD) : sh 4 c = c := by revert c; decide
theorem sh_zero (c : Dev nD) : sh 0 c = c := by revert c; decide
theorem sh_inj (k : ℕ) {a b : Dev nD} (h : sh k a = sh k b) : a = b := by
  have ha : a.val < 4 := a.isLt
  have hb : b.val < 4 := b.isLt
  have := congrArg Fin.val h; apply Fin.ext; simp only [sh] at this; omega

/-- The three signals go 1, 2 and 3 places on; the three copies 2, 1 and 3 places on (the order they are issued). -/
theorem dev1_eq (c : Dev nD) : (⟨k0_dev1 c, k0_dev1_lt c⟩ : Dev nD) = sh 1 c := Fin.ext (k0_dev1_eq c)
theorem dev2_eq (c : Dev nD) : (⟨k0_dev2 c, k0_dev2_lt c⟩ : Dev nD) = sh 2 c := Fin.ext (k0_dev2_eq c)
theorem dev3_eq (c : Dev nD) : (⟨k0_dev3 c, k0_dev3_lt c⟩ : Dev nD) = sh 3 c := Fin.ext (k0_dev3_eq c)
theorem dev4_eq (c : Dev nD) : (⟨k0_dev4 c, k0_dev4_lt c⟩ : Dev nD) = sh 2 c := Fin.ext (k0_dev4_eq c)
theorem dev5_eq (c : Dev nD) : (⟨k0_dev5 c, k0_dev5_lt c⟩ : Dev nD) = sh 1 c := Fin.ext (k0_dev5_eq c)
theorem dev6_eq (c : Dev nD) : (⟨k0_dev6 c, k0_dev6_lt c⟩ : Dev nD) = sh 3 c := Fin.ext (k0_dev6_eq c)

/-! ## The buffers, the four slots, the semaphores and the cells -/

abbrev xM : Memref sig .tc .vmem S512x256 .f32 := Memref.whole cc0_stg0_0
abbrev oM : Memref sig .tc .vmem S1x256 .f32 := Memref.whole cc0_stg1_0
abbrev cM : Memref sig .tc .vmem S4x1x256 .f32 := Memref.whole cc0_scratch0

/-- Row `d` of the scratch buffer as a rectangle of it; -/
abbrev rslot : Fin 4 → Rect S4x1x256 := fun
  | 0 => Rect.unit (s := S4x1x256) ![0, 0, 0] S1x1x256.size inb_S4x1x256_S1x1x256_0_0_0
  | 1 => Rect.unit (s := S4x1x256) ![1, 0, 0] S1x1x256.size inb_S4x1x256_S1x1x256_1_0_0
  | 2 => Rect.unit (s := S4x1x256) ![2, 0, 0] S1x1x256.size inb_S4x1x256_S1x1x256_2_0_0
  | 3 => Rect.unit (s := S4x1x256) ![3, 0, 0] S1x1x256.size inb_S4x1x256_S1x1x256_3_0_0
  | ⟨_ + 4, h⟩ => absurd h (Nat.not_lt.2 (Nat.le_add_left _ _))
/-- and as the one-row memref a copy reads or writes. -/
abbrev slot : Fin 4 → Memref sig .tc .vmem S1x256 .f32 := fun
  | 0 => ((cM.slice (Rect.unit (s := S4x1x256) ![0, 0, 0] S1x1x256.size inb_S4x1x256_S1x1x256_0_0_0) (fun _ => rfl) : Memref sig .tc .vmem S1x1x256 .f32)).squeeze S1x256 squeezes_S1x1x256_S1x256
  | 1 => ((cM.slice (Rect.unit (s := S4x1x256) ![1, 0, 0] S1x1x256.size inb_S4x1x256_S1x1x256_1_0_0) (fun _ => rfl) : Memref sig .tc .vmem S1x1x256 .f32)).squeeze S1x256 squeezes_S1x1x256_S1x256
  | 2 => ((cM.slice (Rect.unit (s := S4x1x256) ![2, 0, 0] S1x1x256.size inb_S4x1x256_S1x1x256_2_0_0) (fun _ => rfl) : Memref sig .tc .vmem S1x1x256 .f32)).squeeze S1x256 squeezes_S1x1x256_S1x256
  | 3 => ((cM.slice (Rect.unit (s := S4x1x256) ![3, 0, 0] S1x1x256.size inb_S4x1x256_S1x1x256_3_0_0) (fun _ => rfl) : Memref sig .tc .vmem S1x1x256 .f32)).squeeze S1x256 squeezes_S1x1x256_S1x256
  | ⟨_ + 4, h⟩ => absurd h (Nat.not_lt.2 (Nat.le_add_left _ _))

/-- The elements of the scratch buffer that row `d` covers. -/
abbrev slotSet : Fin 4 → Finset (S4x1x256.Idx) := fun
  | 0 => (slot 0).view.set
  | 1 => (slot 1).view.set
  | 2 => (slot 2).view.set
  | 3 => (slot 3).view.set
  | ⟨_ + 4, h⟩ => absurd h (Nat.not_lt.2 (Nat.le_add_left _ _))

/-- The runtime's barrier semaphore; the send and the receive semaphore of the copy `j + 1` places on. -/
abbrev barS : Sem sig := (SemArray.scalar (sig.barrier 0 rfl) : Sems sig S_).sem
abbrev sS : Fin 3 → DmaSems sig S_ := fun
  | 0 => (cc0_scratch1.slice (Rect.unit (s := S3) ![0] S1.size inb_S3_S1_0)).squeeze S_ squeezes_S1_S_
  | 1 => (cc0_scratch1.slice (Rect.unit (s := S3) ![1] S1.size inb_S3_S1_1)).squeeze S_ squeezes_S1_S_
  | 2 => (cc0_scratch1.slice (Rect.unit (s := S3) ![2] S1.size inb_S3_S1_2)).squeeze S_ squeezes_S1_S_
  | ⟨_ + 3, h⟩ => absurd h (Nat.not_lt.2 (Nat.le_add_left _ _))
abbrev rS : Fin 3 → DmaSems sig S_ := fun
  | 0 => (cc0_scratch2.slice (Rect.unit (s := S3) ![0] S1.size inb_S3_S1_0)).squeeze S_ squeezes_S1_S_
  | 1 => (cc0_scratch2.slice (Rect.unit (s := S3) ![1] S1.size inb_S3_S1_1)).squeeze S_ squeezes_S1_S_
  | 2 => (cc0_scratch2.slice (Rect.unit (s := S3) ![2] S1.size inb_S3_S1_2)).squeeze S_ squeezes_S1_S_
  | ⟨_ + 3, h⟩ => absurd h (Nat.not_lt.2 (Nat.le_add_left _ _))

abbrev barCell (c : Dev nD) : GSem nD τ sig := ((c : Thread nD τ), .reg barS)
abbrev sendCell (c : Dev nD) (j : Fin 3) : GSem nD τ sig := ((c : Thread nD τ), .dma (sS j).sem)
abbrev recvCell (c : Dev nD) (j : Fin 3) : GSem nD τ sig := ((c : Thread nD τ), .dma (rS j).sem)

/-- The kernel's OWN (scoped) semaphores, as the launch indexes them: the three send, then the three receive; -/
abbrev osem : Fin 6 → SemLoc sig := fun
  | 0 => .dma (sS 0).sem | 1 => .dma (sS 1).sem | 2 => .dma (sS 2).sem
  | 3 => .dma (rS 0).sem | 4 => .dma (rS 1).sem | 5 => .dma (rS 2).sem
  | ⟨_ + 6, h⟩ => absurd h (Nat.not_lt.2 (Nat.le_add_left _ _))
/-- all seven of the protocol's: the barrier first. -/
abbrev csem : Fin 7 → SemLoc sig := fun
  | 0 => .reg barS
  | 1 => .dma (sS 0).sem | 2 => .dma (sS 1).sem | 3 => .dma (sS 2).sem
  | 4 => .dma (rS 0).sem | 5 => .dma (rS 1).sem | 6 => .dma (rS 2).sem
  | ⟨_ + 7, h⟩ => absurd h (Nat.not_lt.2 (Nat.le_add_left _ _))
abbrev kcell (ck : Dev nD × Fin 7) : GSem nD τ sig := ((ck.1 : Thread nD τ), csem ck.2)

/-- The credit of one row's copy. -/
abbrev N : ℕ := (slot 1).view.dmaCredit

/-! ## Contents -/

/-- Device `c`'s block of `x`, as its staging buffer holds it. -/
def xblk (c : Dev nD) : (cc0_stg0_0 : Ref sig .tc).ty.Contents (Elt F) :=
  (win0_0.blk (0 : Fin 1)).view.read (Elt F) (m ((c : Thread nD τ).loc main_arg0))

/-- The column maxima of device `c`'s block: one row. -/
def lmax (c : Dev nD) : FVec F S1x1x256 .f32 := k0_pay1 (xblk m c)

/-- What device `c`'s scratch buffer holds once everything has landed: row `d` is the row of the device `d` places
    before `c` (`4 - d` places after it; row 0 its own). -/
def comm (c : Dev nD) : (cc0_scratch0 : Ref sig .tc).ty.Contents (Elt F) :=
  fun i => lmax m (sh (4 - (i 0).val) c) (ValueIdx.ix3 (0 : Fin 1) (i 1) (i 2))

/-- The kernel's result on device `c`: the maximum of rows 0, 1, 3 and 2 in the order the body folds them. -/
def outVal (c : Dev nD) : (cc0_stg1_0 : Ref sig .tc).ty.Contents (Elt F) :=
  k0_pay3 (k0_pay2 (lmax m c) (lmax m (sh 3 c))) (lmax m (sh 1 c)) (lmax m (sh 2 c))

/-- Rows `S` of device `c`'s scratch buffer at share `q` and contents `f`. -/
abbrev scr (c : Dev nD) (S : Finset (S4x1x256.Idx)) (q : PosShare TreeShare) (f : Buf (Elt F) ((c : Thread nD τ).loc cc0_scratch0)) : sProp 𝕄 :=
  ((c : Thread nD τ).loc cc0_scratch0) ↦[S]{q} f

/-! ## The schedule: one round -/

/-- What the device `e + 1` places after `c` hands `c` with its barrier unit (duty `e` of `c`'s barrier cell): its own
    row `e + 1`, where `c`'s copy lands, and that it stands at round 0 of the receive cell that copy completes on. -/
def barPay (c : Dev nD) (e : Fin 3) : sProp 𝕄 :=
  iprop((∃ f, scr (F := F) (sh (e.val + 1) c) (slotSet e.succ) fullShare f) ∗ reached ER (recvCell (sh (e.val + 1) c) e) 0)
/-- What the landing of the copy from `j + 1` places before hands `c`: its row `j + 1`, at the final contents. -/
def recvPay (c : Dev nD) (j : Fin 3) : sProp 𝕄 := scr c (slotSet j.succ) fullShare (comm m c)
/-- What the send side of `c`'s copy `j + 1` places on hands back: the read share of row 0 that copy was lent. -/
def sendPay (c : Dev nD) (j : Fin 3) : sProp 𝕄 := scr c (slotSet 0) (Transfers.shareTok fullShare 3 j) (comm m c)

abbrev IsBar (g : GSem nD τ sig) : Prop := g.1.2 = .tc ∧ g.2 = .reg barS
abbrev IsXfer (g : GSem nD τ sig) : Prop := g.1.2 = .tc ∧ ∃ j : Fin 3, g.2 = .dma (sS j).sem ∨ g.2 = .dma (rS j).sem

/-- Round 0 only. A barrier cell has three duties of one unit, duty `e` paid by the device `e + 1` places on; a send or
    a receive cell has the one duty `0` of a row's credit. -/
def Rd : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay g.1.1 d
    else if g.2 = .dma (rS 0).sem then recvPay m g.1.1 0
    else if g.2 = .dma (rS 1).sem then recvPay m g.1.1 1
    else if g.2 = .dma (rS 2).sem then recvPay m g.1.1 2
    else if g.2 = .dma (sS 0).sem then sendPay m g.1.1 0
    else if g.2 = .dma (sS 1).sem then sendPay m g.1.1 1
    else if g.2 = .dma (sS 2).sem then sendPay m g.1.1 2
    else iprop(emp)
  amount_pos g _ _ _ := by
    by_cases h : g.2 = .reg barS
    · rw [if_pos h]; exact Nat.one_pos
    · rw [if_neg h]; exact View.dmaCredit_pos _ (by decide)

/-! ## What a device owes at entry, and the levels -/

/-- Device `c` owes three receive credits and three barrier units, summed so that each signal and then each copy,
    in program order, peels the last summand. -/
def O₃ (c : Dev nD) : CellTallies nD τ sig Unit :=
  tallyAt (recvCell (sh 3 c) 2) () N + tallyAt (recvCell (sh 1 c) 0) () N + tallyAt (recvCell (sh 2 c) 1) () N
def O₂ (c : Dev nD) : CellTallies nD τ sig Unit := O₃ c + tallyAt (barCell (sh 3 c)) () 1
def O₁ (c : Dev nD) : CellTallies nD τ sig Unit := O₂ c + tallyAt (barCell (sh 2 c)) () 1
def O₀ (c : Dev nD) : CellTallies nD τ sig Unit := O₁ c + tallyAt (barCell (sh 1 c)) () 1

def L (g : GSem nD τ sig) : Finset Unit := if g.1.2 = .tc then {()} else ∅
/-- Barrier cells at 1, receive cells at 2, everything else (staging, send) at 0. -/
def lv (g : GSem nD τ sig) (_ : Unit) : ℕ :=
  if g.2 = .reg barS then 1 else if g.2 = .dma (rS 0).sem ∨ g.2 = .dma (rS 1).sem ∨ g.2 = .dma (rS 2).sem then 2 else 0

end Cert.KernelIdeal.Coll

end
-- ==== Proof.Ideal.Data.lean ====
/-
  What one device's body starts from and ends with.

  A device opens thirteen cell invariants: its own seven, the barrier cells of the three others (it signals them) and,
  of the device `j + 1` places on, the receive cell `j` (its copy lands there). It pays nine duties: one on each other
  device's barrier cell, one on each of those receive cells, and the send duty of each of its own three copies.
-/
import proofs.«900926_g7700000000000927_dist_max_ax0_shard0_i_m512_n256_v7x_i4_bf16_1_alg».proof.Proof.Ideal.Sched

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The ghost state of one device -/

def invs (K : Dev nD × Fin 7 → ℕ) (c : Dev nD) : sProp 𝕄 :=
  iprop(cellInv ER (Rd m) (K (c, 0)) (barCell c)
    ∗ cellInv ER (Rd m) (K (c, 1)) (sendCell c 0) ∗ cellInv ER (Rd m) (K (c, 2)) (sendCell c 1) ∗ cellInv ER (Rd m) (K (c, 3)) (sendCell c 2)
    ∗ cellInv ER (Rd m) (K (c, 4)) (recvCell c 0) ∗ cellInv ER (Rd m) (K (c, 5)) (recvCell c 1) ∗ cellInv ER (Rd m) (K (c, 6)) (recvCell c 2)
    ∗ cellInv ER (Rd m) (K (sh 1 c, 0)) (barCell (sh 1 c)) ∗ cellInv ER (Rd m) (K (sh 2 c, 0)) (barCell (sh 2 c)) ∗ cellInv ER (Rd m) (K (sh 3 c, 0)) (barCell (sh 3 c))
    ∗ cellInv ER (Rd m) (K (sh 1 c, 4)) (recvCell (sh 1 c) 0) ∗ cellInv ER (Rd m) (K (sh 2 c, 5)) (recvCell (sh 2 c) 1) ∗ cellInv ER (Rd m) (K (sh 3 c, 6)) (recvCell (sh 3 c) 2))

instance invs_persistent (K : Dev nD × Fin 7 → ℕ) (c : Dev nD) : BI.Persistent (invs m K c) := by unfold invs; infer_instance

/-- Its positions at round 0 of its own seven cells. -/
def poss (c : Dev nD) : sProp 𝕄 :=
  iprop(atPos ER (barCell c) 0 ∅ 0
    ∗ atPos ER (sendCell c 0) 0 ∅ 0 ∗ atPos ER (sendCell c 1) 0 ∅ 0 ∗ atPos ER (sendCell c 2) 0 ∅ 0
    ∗ atPos ER (recvCell c 0) 0 ∅ 0 ∗ atPos ER (recvCell c 1) 0 ∅ 0 ∗ atPos ER (recvCell c 2) 0 ∅ 0)

/-- That round 0 is reached: of the cells it pays, and of its own send and receive cells. -/
def marks (c : Dev nD) : sProp 𝕄 :=
  iprop(reached ER (barCell (sh 1 c)) 0 ∗ reached ER (barCell (sh 2 c)) 0 ∗ reached ER (barCell (sh 3 c)) 0
    ∗ reached ER (recvCell (sh 1 c) 0) 0 ∗ reached ER (recvCell (sh 2 c) 1) 0 ∗ reached ER (recvCell (sh 3 c) 2) 0
    ∗ reached ER (sendCell c 0) 0 ∗ reached ER (sendCell c 1) 0 ∗ reached ER (sendCell c 2) 0
    ∗ reached ER (recvCell c 0) 0 ∗ reached ER (recvCell c 1) 0 ∗ reached ER (recvCell c 2) 0)

instance marks_persistent (c : Dev nD) : BI.Persistent (marks (F := F) c) := by unfold marks; infer_instance

/-- The tokens of the nine duties it pays: the signal `k` places on pays duty `3 - k` there; the copy `j + 1` places on
    pays the one duty of the receive cell `j` there and of its own send cell `j`. -/
def payToks (c : Dev nD) : sProp 𝕄 :=
  iprop(dutyTok ER (barCell (sh 1 c)) 0 (2 : Fin 3) ∗ dutyTok ER (barCell (sh 2 c)) 0 (1 : Fin 3) ∗ dutyTok ER (barCell (sh 3 c)) 0 (0 : Fin 3)
    ∗ dutyTok ER (recvCell (sh 1 c) 0) 0 (0 : Fin 3) ∗ dutyTok ER (recvCell (sh 2 c) 1) 0 (0 : Fin 3) ∗ dutyTok ER (recvCell (sh 3 c) 2) 0 (0 : Fin 3)
    ∗ dutyTok ER (sendCell c 0) 0 (0 : Fin 3) ∗ dutyTok ER (sendCell c 1) 0 (0 : Fin 3) ∗ dutyTok ER (sendCell c 2) 0 (0 : Fin 3))

def ghost (K : Dev nD × Fin 7 → ℕ) (c : Dev nD) : sProp 𝕄 :=
  iprop(invs m K c ∗ poss c ∗ marks c ∗ payToks c)

/-- The credit tokens of its own waits: three barrier units, one row's credit on each receive cell. -/
def creds (c : Dev nD) : sProp 𝕄 :=
  iprop(cred (tallyAt (barCell c) () 3)
    ∗ cred (tallyAt (recvCell c 0) () N) ∗ cred (tallyAt (recvCell c 1) () N) ∗ cred (tallyAt (recvCell c 2) () N))

/-- What device `c`'s body starts from, the scratch buffer apart. -/
def start (c : Dev nD) : sProp 𝕄 :=
  iprop((∃ K, ghost m K c) ∗ creds c ∗ levAts L lv)

def Φ₀ (c : Dev nD) : sProp 𝕄 :=
  iprop(start m c ∗ ∃ f : Buf (Elt F) ((c : Thread nD τ).loc cc0_scratch0), ((c : Thread nD τ).loc cc0_scratch0) ↦{fullShare} f)
/-- After the body: the scratch buffer whole at its final contents, the six own cells at zero, closed. -/
def Φ₁ (c : Dev nD) : sProp 𝕄 :=
  iprop((((c : Thread nD τ).loc cc0_scratch0) ↦{fullShare} comm m c)
    ∗ semVal (sendCell c 0) 0 ∗ semVal (sendCell c 1) 0 ∗ semVal (sendCell c 2) 0
    ∗ semVal (recvCell c 0) 0 ∗ semVal (recvCell c 1) 0 ∗ semVal (recvCell c 2) 0)

/-! ## The pipeline's proof data: one point, the input window left as fetched, the output window at the result -/

def dats (_ : Fin 1) (c : Dev nD) : Dat τ (Elt F) Unit ℕ UU ℕ cfg0 c where
  A w := (st0 m ρ).mem ((cfg0.win w).arr.view.loc (c : Thread nD τ))
  after w _ := match w with
    | ⟨0, _⟩ => xblk m c
    | ⟨1, _⟩ => outVal m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- A staging buffer whole at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body's precondition, the ghost names `K` fixed. -/
def bodyPre (K : Dev nD × Fin 7 → ℕ) (c : Dev nD) : sProp 𝕄 :=
  iprop((ghost m K c ∗ creds c ∗ levAts L lv ∗ ∃ f : Buf (Elt F) ((c : Thread nD τ).loc cc0_scratch0), ((c : Thread nD τ).loc cc0_scratch0) ↦{fullShare} f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m c ∗ (dats m ρ 0 c).owesAt () t₀.succ ∗ stg c cc0_stg0_0 (xblk m c) ∗ stg c cc0_stg1_0 (outVal m c))

end Cert.KernelIdeal.Coll

end
-- ==== Proof.Ideal.Tables.lean ====
/-
  The schedule's tables, one lemma per cell and column, the two wait-level facts, and what each row of the scratch
  buffer reads as.
-/
import proofs.«900926_g7700000000000927_dist_max_ax0_shard0_i_m512_n256_v7x_i4_bf16_1_alg».proof.Proof.Ideal.Sched

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells are pairwise distinct -/

theorem send_ne_bar (j : Fin 3) : (SemLoc.dma (sS j).sem : SemLoc sig) ≠ .reg barS := fun h => by cases h
theorem recv_ne_bar (j : Fin 3) : (SemLoc.dma (rS j).sem : SemLoc sig) ≠ .reg barS := fun h => by cases h
theorem send_ne_recv (i j : Fin 3) : (SemLoc.dma (sS i).sem : SemLoc sig) ≠ .dma (rS j).sem := by revert i j; decide
theorem send_inj {i j : Fin 3} (h : (SemLoc.dma (sS i).sem : SemLoc sig) = .dma (sS j).sem) : i = j := by revert i j; decide
theorem recv_inj {i j : Fin 3} (h : (SemLoc.dma (rS i).sem : SemLoc sig) = .dma (rS j).sem) : i = j := by revert i j; decide

/-! ## The schedule, column by column -/

section Sched
variable (c : Dev nD) (j : Fin 3)

private theorem not_bar_send : ¬ IsBar (sendCell c j) := fun h => send_ne_bar j h.2
private theorem not_bar_recv : ¬ IsBar (recvCell c j) := fun h => recv_ne_bar j h.2

theorem duties_bar : (Rd (F := F) m).duties (barCell c) 0 = Finset.univ := by
  dsimp only [Rd]; exact if_pos ⟨rfl, rfl, rfl⟩
theorem duties_send : (Rd (F := F) m).duties (sendCell c j) 0 = {0} := by
  dsimp only [Rd]; rw [if_neg (fun h => not_bar_send c j h.2)]; exact if_pos ⟨rfl, rfl, j, .inl rfl⟩
theorem duties_recv : (Rd (F := F) m).duties (recvCell c j) 0 = {0} := by
  dsimp only [Rd]; rw [if_neg (fun h => not_bar_recv c j h.2)]; exact if_pos ⟨rfl, rfl, j, .inr rfl⟩
theorem duties_later (g : GSem nD τ sig) : ∀ r, 1 ≤ r → (Rd (F := F) m).duties g r = ∅ :=
  fun r hr => by dsimp only [Rd]; rw [if_neg fun h => by omega, if_neg fun h => by omega]

theorem amount_bar (d : Fin 3) : (Rd (F := F) m).amount (barCell c) 0 d = 1 := by dsimp only [Rd]; exact if_pos rfl
theorem amount_send (d : Fin 3) : (Rd (F := F) m).amount (sendCell c j) 0 d = N := by dsimp only [Rd]; exact if_neg (send_ne_bar j)
theorem amount_recv (d : Fin 3) : (Rd (F := F) m).amount (recvCell c j) 0 d = N := by dsimp only [Rd]; exact if_neg (recv_ne_bar j)

theorem expect_bar : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (Rd (F := F) m).expect (sendCell c j) 0 = N := by
  unfold Schedule.expect Schedule.amountOf; rw [duties_send, Finset.sum_singleton, amount_send]
theorem expect_recv : (Rd (F := F) m).expect (recvCell c j) 0 = N := by
  unfold Schedule.expect Schedule.amountOf; rw [duties_recv, Finset.sum_singleton, amount_recv]

theorem payload_bar (e : Fin 3) : (Rd (F := F) m).payload (barCell c) 0 e = barPay c e := by dsimp only [Rd]; rw [if_pos rfl]
theorem payload_send (d : Fin 3) : (Rd (F := F) m).payload (sendCell c j) 0 d = sendPay m c j := by
  dsimp only [Rd]
  rw [if_neg (send_ne_bar j), if_neg (send_ne_recv j 0), if_neg (send_ne_recv j 1), if_neg (send_ne_recv j 2)]
  fin_cases j
  · exact if_pos rfl
  · rw [if_neg (fun h => absurd (send_inj h) (by decide))]; exact if_pos rfl
  · rw [if_neg (fun h => absurd (send_inj h) (by decide)), if_neg (fun h => absurd (send_inj h) (by decide))]; exact if_pos rfl
theorem payload_recv (d : Fin 3) : (Rd (F := F) m).payload (recvCell c j) 0 d = recvPay m c j := by
  dsimp only [Rd]
  rw [if_neg (recv_ne_bar j)]
  fin_cases j
  · exact if_pos rfl
  · rw [if_neg (fun h => absurd (recv_inj h) (by decide))]; exact if_pos rfl
  · rw [if_neg (fun h => absurd (recv_inj h) (by decide)), if_neg (fun h => absurd (recv_inj h) (by decide))]; exact if_pos rfl

/-- The whole of the barrier cell's round, no duty taken: the three devices' payloads, the nearest first. -/
theorem rest_bar : bigSep ((Rd (F := F) m).duties (barCell c) 0 \ ∅) (fun d => (Rd (F := F) m).payload (barCell c) 0 d)
    = iprop(barPay (F := F) c 0 ∗ barPay c 1 ∗ barPay c 2) := by
  rw [Finset.sdiff_empty, duties_bar, bigSep_univ_eq_bigSepL [0, 1, 2] (by decide) (by decide), bigSepL_cons_cons, bigSepL_cons_cons, bigSepL_singleton,
    payload_bar, payload_bar, payload_bar]
  rfl
theorem rest_send : bigSep ((Rd (F := F) m).duties (sendCell c j) 0 \ ∅) (fun d => (Rd (F := F) m).payload (sendCell c j) 0 d) = sendPay m c j := by
  rw [Finset.sdiff_empty, duties_send, bigSep_singleton, payload_send]
theorem rest_recv : bigSep ((Rd (F := F) m).duties (recvCell c j) 0 \ ∅) (fun d => (Rd (F := F) m).payload (recvCell c j) 0 d) = recvPay m c j := by
  rw [Finset.sdiff_empty, duties_recv, bigSep_singleton, payload_recv]

end Sched

instance Rd_payload_storable (g : GSem nD τ sig) (r : ℕ) (d : Fin 3) :
    BI.Storable (upEmb : UEmb _ 𝕄) ((Rd (F := F) m).payload g r d) := by
  show BI.Storable upEmb (if g.2 = .reg barS then barPay g.1.1 d
    else if g.2 = .dma (rS 0).sem then recvPay m g.1.1 0
    else if g.2 = .dma (rS 1).sem then recvPay m g.1.1 1
    else if g.2 = .dma (rS 2).sem then recvPay m g.1.1 2
    else if g.2 = .dma (sS 0).sem then sendPay m g.1.1 0
    else if g.2 = .dma (sS 1).sem then sendPay m g.1.1 1
    else if g.2 = .dma (sS 2).sem then sendPay m g.1.1 2
    else iprop(emp))
  unfold barPay recvPay sendPay
  (repeat' split) <;> infer_instance

/-- One row's credit is the same whichever row: what every copy of the protocol pays. -/
theorem amount_slot (d : Fin 4) (sm : DmaSem sig) : (slot d).view.amount (.dma sm) = N := by
  fin_cases d <;> rfl
theorem N_pos : 0 < N := View.dmaCredit_pos _ (by decide)

/-! ## The levels -/

theorem L_of_ne (g : GSem nD τ sig) (h : g.1.2 ≠ .tc) : L g = ∅ := if_neg h
theorem L_tc (c : Dev nD) (sm : SemLoc sig) : L ((c : Thread nD τ), sm) = {()} := if_pos rfl

/-- What a device still owes at its barrier wait sits on a receive cell of another device. -/
private theorem O₃_pos {c : Dev nD} {g : GSem nD τ sig} {u : Unit} (h : 0 < O₃ c g u) :
    g = recvCell (sh 3 c) 2 ∨ g = recvCell (sh 1 c) 0 ∨ g = recvCell (sh 2 c) 1 := by
  unfold O₃ at h
  simp only [Pi.add_apply, Finsupp.add_apply, tallyAt_apply] at h
  by_contra hn
  simp only [not_or] at hn
  obtain ⟨h1, h2, h3⟩ := hn
  rw [if_neg (fun h' => h1 h'.1), if_neg (fun h' => h2 h'.1), if_neg (fun h' => h3 h'.1)] at h
  exact Nat.lt_irrefl 0 h

/-- What a device owes at entry sits on a receive cell or a barrier cell of another device. -/
theorem O₀_pos {c : Dev nD} {g : GSem nD τ sig} {u : Unit} (h : 0 < O₀ c g u) :
    g = recvCell (sh 3 c) 2 ∨ g = recvCell (sh 1 c) 0 ∨ g = recvCell (sh 2 c) 1
      ∨ g = barCell (sh 3 c) ∨ g = barCell (sh 2 c) ∨ g = barCell (sh 1 c) := by
  unfold O₀ O₁ O₂ O₃ at h
  simp only [Pi.add_apply, Finsupp.add_apply, tallyAt_apply] at h
  by_contra hn
  simp only [not_or] at hn
  obtain ⟨h1, h2, h3, h4, h5, h6⟩ := hn
  rw [if_neg (fun h' => h1 h'.1), if_neg (fun h' => h2 h'.1), if_neg (fun h' => h3 h'.1),
    if_neg (fun h' => h4 h'.1), if_neg (fun h' => h5 h'.1), if_neg (fun h' => h6 h'.1)] at h
  exact Nat.lt_irrefl 0 h

private theorem lv_recv (c : Dev nD) (j : Fin 3) : lv (recvCell c j) () = 2 := by
  dsimp only [lv]; rw [if_neg (recv_ne_bar j)]
  refine if_pos ?_
  fin_cases j
  · exact .inl rfl
  · exact .inr (.inl rfl)
  · exact .inr (.inr rfl)
private theorem lv_bar (c : Dev nD) : lv (barCell c) () = 1 := by dsimp only [lv]; exact if_pos rfl

/-- A wait on a staging semaphore or a send semaphore (level 0) is below everything a device may owe. -/
theorem mayWait_low (c : Dev nD) (q : DmaSem sig) (hq : ∀ j : Fin 3, SemLoc.dma q ≠ .dma (rS j).sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl | rfl | rfl | rfl <;> exact Finset.mem_singleton_self _)
      (fun p hp => by
        rw [Finset.mem_singleton.mp hp]; dsimp only [lv]
        rw [if_neg (fun h => by cases h), if_neg (fun h => by rcases h with h | h | h; exacts [hq 0 h, hq 1 h, hq 2 h])])
      (fun g u hg => by
        rcases O₀_pos hg with rfl | rfl | rfl | rfl | rfl | rfl
        · rw [lv_recv]; decide
        · rw [lv_recv]; decide
        · rw [lv_recv]; decide
        · rw [lv_bar]; decide
        · rw [lv_bar]; decide
        · rw [lv_bar]; decide)
  · rw [MayWait_zero]; iintro -; iempintro

/-- At its barrier wait a device owes the three receive credits only: receive cells, above its barrier cell. -/
theorem mayWait_bar (c : Dev nD) :
    (levAts L lv : sProp 𝕄) ⊢ MayWait (c : Thread nD τ) (.reg barS) () (O₃ c) :=
  MayOwe.of_cut (L := L) (lev := lv) 1 (fun p hp => by rw [Finset.mem_singleton.mp hp, L_tc]; exact Finset.mem_singleton_self _)
    (fun g u hg => by rcases O₃_pos hg with rfl | rfl | rfl <;> exact Finset.mem_singleton_self _)
    (fun p hp => by rw [Finset.mem_singleton.mp hp]; dsimp only [lv]; rw [if_pos rfl])
    (fun g u hg => by
      rcases O₃_pos hg with rfl | rfl | rfl
      · rw [lv_recv]; decide
      · rw [lv_recv]; decide
      · rw [lv_recv]; decide)

/-! ## The rows of the scratch buffer -/

/-- The final contents at an element `i` of row `k`, column as `z`'s: the row of the device `4 - k` places on, at `z`. -/
private theorem comm_at (c : Dev nD) (k : ℕ) (i : S4x1x256.Idx) (z : S1x1x256.Idx) (h0 : (i 0).val = k) (h2 : (i 2).val = (z 2).val) :
    comm m c i = lmax m (sh (4 - k) c) z := by
  have z0 : (z 0).val = 0 := by have h : (z 0).val < 1 := (z 0).isLt; omega
  have z1 : (z 1).val = 0 := by have h : (z 1).val < 1 := (z 1).isLt; omega
  have i1 : (i 1).val = 0 := by have h : (i 1).val < 1 := (i 1).isLt; omega
  unfold comm
  rw [h0]
  congr 1
  funext a
  match a with
  | ⟨0, _⟩ => exact Fin.ext z0.symm
  | ⟨1, _⟩ => exact Fin.ext (i1.trans z1.symm)
  | ⟨2, _⟩ => exact Fin.ext h2

/-- The same under the rectangle of row `k`, at the place of the row's element `z`. -/
private theorem comm_unit (c : Dev nD) (k : ℕ) (inb : ∀ a, (![k, 0, 0] : Fin 3 → Nat) a + S1x1x256.size a ≤ S4x1x256.size a) (z : S1x1x256.Idx) :
    comm m c ((Rect.unit (s := S4x1x256) ![k, 0, 0] S1x1x256.size inb).emb z) = lmax m (sh (4 - k) c) z :=
  comm_at m c k _ z (by show k + 1 * (z 0).val = k; have h : (z 0).val < 1 := (z 0).isLt; omega)
    (by show 0 + 1 * (z 2).val = (z 2).val; omega)

/-- Row 0's one-row view places its elements where the rectangle of row 0 does. -/
private theorem slot_emb (y : S1x256.Idx) : ∃ z : S1x1x256.Idx, (slot 0).view.emb y = (rslot 0).emb z :=
  ⟨Shape.reshapeEquiv squeezes_S1x1x256_S1x256.numel_eq y, rfl⟩

private theorem readAt_cM (r : Rect S4x1x256) (g : (cc0_scratch0 : Ref sig .tc).ty.Contents (Elt F)) (x : r.shape.Idx) :
    (cM : Memref sig .tc .vmem S4x1x256 .f32).view.readAt (Elt F) r.toLoadRect g x = g (r.emb x) := rfl

/-- Row `d` of the final contents is the row of the device `4 - d` places on. -/
theorem read_row0 (c : Dev nD) :
    (cM : Memref sig .tc .vmem S4x1x256 .f32).view.readAt (Elt F) (rslot 0).toLoadRect (comm m c) = lmax m c := by
  funext x
  rw [readAt_cM]
  refine (comm_unit m c 0 _ x).trans ?_
  show lmax m (sh 4 c) x = _
  rw [sh_four]
theorem read_row1 (c : Dev nD) :
    (cM : Memref sig .tc .vmem S4x1x256 .f32).view.readAt (Elt F) (rslot 1).toLoadRect (comm m c) = lmax m (sh 3 c) := by
  funext x
  rw [readAt_cM]
  exact comm_unit m c 1 _ x
theorem read_row2 (c : Dev nD) :
    (cM : Memref sig .tc .vmem S4x1x256 .f32).view.readAt (Elt F) (rslot 2).toLoadRect (comm m c) = lmax m (sh 2 c) := by
  funext x
  rw [readAt_cM]
  exact comm_unit m c 2 _ x
theorem read_row3 (c : Dev nD) :
    (cM : Memref sig .tc .vmem S4x1x256 .f32).view.readAt (Elt F) (rslot 3).toLoadRect (comm m c) = lmax m (sh 1 c) := by
  funext x
  rw [readAt_cM]
  exact comm_unit m c 3 _ x

/-- Storing a device's own row into row 0 gives the final contents there. -/
theorem store_row0 (c : Dev nD) (f : Buf (Elt F) ((c : Thread nD τ).loc cc0_scratch0)) :
    ∀ i ∈ slotSet 0, ((cM : Memref sig .tc .vmem S4x1x256 .f32).access (rslot 0) : View sig .tc _ _ _).write (Elt F) f (lmax m c) Finset.univ i = comm m c i := by
  intro i hi
  obtain ⟨y, -, hy⟩ := Finset.mem_map.mp hi
  have hy' : (slot 0).view.emb y = i := hy
  obtain ⟨z, hz⟩ := slot_emb y
  rw [← hy', hz]
  have hw := View.write_emb_of_mem (v := ((cM : Memref sig .tc .vmem S4x1x256 .f32).access (rslot 0) : View sig .tc _ _ _)) (Val := Elt F) f (lmax m c)
    (M := Finset.univ) (x := z) (Finset.mem_univ z)
  refine hw.trans ((cast_eq _ _).trans ?_)
  refine ((comm_unit m c 0 _ z).trans ?_).symm
  show lmax m (sh 4 c) z = _
  rw [sh_four]

/-- info: 'Cert.KernelIdeal.Coll.rest_bar' depends on axioms: [propext, Classical.choice, Quot.sound] -/
#guard_msgs in #print axioms rest_bar

/-- info: 'Cert.KernelIdeal.Coll.mayWait_low' depends on axioms: [propext, Classical.choice, Quot.sound] -/
#guard_msgs in #print axioms mayWait_low

/-- info: 'Cert.KernelIdeal.Coll.mayWait_bar' depends on axioms: [propext, Classical.choice, Quot.sound] -/
#guard_msgs in #print axioms mayWait_bar

/-- info: 'Cert.KernelIdeal.Coll.read_row0' depends on axioms: [propext, Classical.choice, Quot.sound] -/
#guard_msgs in #print axioms read_row0

/-- info: 'Cert.KernelIdeal.Coll.store_row0' depends on axioms: [propext, Classical.choice, Quot.sound] -/
#guard_msgs in #print axioms store_row0

end Cert.KernelIdeal.Coll

end
-- ==== Proof.Ideal.Rows.lean ====
/-
  The rows of the scratch buffer as sets of its elements: they tile it, and what a copy lands in a row is that row of
  the final contents.

  Row `d` of the 4 × 1 × 256 buffer is the rectangle of one row at offset `(d, 0, 0)`, read as a 1 × 256 array: its
  elements are the indices whose first coordinate is `d`, and its column `q` sits at `(d, 0, q)`. The final contents of
  device `c` hold at row `d` the row of the device `4 - d` places after `c`. So row 0 of `c` is `c`'s own row, and row `d`
  of the device `d` places after `c` is the row of the device `(4 - d) + d = 4` places after `c`: `c`'s own row again.
-/
import proofs.«900926_g7700000000000927_dist_max_ax0_shard0_i_m512_n256_v7x_i4_bf16_1_alg».proof.Proof.Ideal.Sched
import Idealize.ShloMosaic.Lib.ValueLayout
import Idealize.ShloMosaic.Lib.Pipeline.Value

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## A row as a set of elements -/

/-- The elements of the one-row rectangle at offset `(k, 0, 0)`: the indices whose first coordinate is `k`. -/
theorem mem_rowRect (k : ℕ) (inb : ∀ a, (![k, 0, 0] : Fin 3 → ℕ) a + S1x1x256.size a ≤ S4x1x256.size a)
    (i : S4x1x256.Idx) :
    i ∈ (Rect.unit (s := S4x1x256) ![k, 0, 0] S1x1x256.size inb).set ↔ (i 0).val = k := by
  rw [Rect.mem_set_unit]
  constructor
  · intro h
    have h0 : k ≤ (i 0).val ∧ (i 0).val < k + 1 := h 0
    omega
  · intro h a
    match a with
    | ⟨0, _⟩ => show k ≤ (i 0).val ∧ (i 0).val < k + 1; omega
    | ⟨1, _⟩ =>
      have h1 : (i 1).val < 1 := (i 1).isLt
      show 0 ≤ (i 1).val ∧ (i 1).val < 0 + 1; omega
    | ⟨2, _⟩ =>
      have h2 : (i 2).val < 256 := (i 2).isLt
      show 0 ≤ (i 2).val ∧ (i 2).val < 0 + 256; omega

/-- Re-indexing a rectangle of the whole buffer changes none of its elements. -/
theorem slotSet_eq0 : slotSet 0 = (Rect.unit (s := S4x1x256) ![0, 0, 0] S1x1x256.size inb_S4x1x256_S1x1x256_0_0_0).set :=
  (View.set_reshape _ _).trans (View.set_slice_whole _ _)
theorem slotSet_eq1 : slotSet 1 = (Rect.unit (s := S4x1x256) ![1, 0, 0] S1x1x256.size inb_S4x1x256_S1x1x256_1_0_0).set :=
  (View.set_reshape _ _).trans (View.set_slice_whole _ _)
theorem slotSet_eq2 : slotSet 2 = (Rect.unit (s := S4x1x256) ![2, 0, 0] S1x1x256.size inb_S4x1x256_S1x1x256_2_0_0).set :=
  (View.set_reshape _ _).trans (View.set_slice_whole _ _)
theorem slotSet_eq3 : slotSet 3 = (Rect.unit (s := S4x1x256) ![3, 0, 0] S1x1x256.size inb_S4x1x256_S1x1x256_3_0_0).set :=
  (View.set_reshape _ _).trans (View.set_slice_whole _ _)

/-- Row `d` is the set of indices whose first coordinate is `d`. -/
theorem mem_slotSet (d : Fin 4) (i : S4x1x256.Idx) : i ∈ slotSet d ↔ (i 0).val = d.val :=
  match d with
  | 0 => by rw [slotSet_eq0]; exact mem_rowRect 0 _ i
  | 1 => by rw [slotSet_eq1]; exact mem_rowRect 1 _ i
  | 2 => by rw [slotSet_eq2]; exact mem_rowRect 2 _ i
  | 3 => by rw [slotSet_eq3]; exact mem_rowRect 3 _ i
  | ⟨_ + 4, h⟩ => absurd h (Nat.not_lt.2 (Nat.le_add_left _ _))

/-! ## Where a row's columns sit -/

/-- Column `q` of the one-row rectangle at offset `(k, 0, 0)`, read as a 1 × 256 array, is the element `(k, 0, q)`. -/
theorem rowRect_emb (k : ℕ) (hk : k < 4)
    (inb : ∀ a, (![k, 0, 0] : Fin 3 → ℕ) a + S1x1x256.size a ≤ S4x1x256.size a)
    (h : S1x256.numel = S1x1x256.numel) (q : Fin 256) :
    (Rect.unit (s := S4x1x256) ![k, 0, 0] S1x1x256.size inb).emb (Shape.reshapeEquiv h (ix2 (0 : Fin 1) q))
      = (ix3 (⟨k, hk⟩ : Fin 4) (0 : Fin 1) q : S4x1x256.Idx) := by
  rw [reshapeEquiv_ix2_1ab]
  funext a
  apply Fin.ext
  rw [Rect.emb_apply]
  match a with
  | ⟨0, _⟩ => show k + 1 * 0 = k; omega
  | ⟨1, _⟩ => rfl
  | ⟨2, _⟩ => show 0 + 1 * q.val = q.val; omega

theorem slot_emb0 (q : Fin 256) :
    (slot 0).view.emb (ix2 (0 : Fin 1) q) = (ix3 (0 : Fin 4) (0 : Fin 1) q : S4x1x256.Idx) :=
  rowRect_emb 0 (by decide) _ _ q
theorem slot_emb1 (q : Fin 256) :
    (slot 1).view.emb (ix2 (0 : Fin 1) q) = (ix3 (1 : Fin 4) (0 : Fin 1) q : S4x1x256.Idx) :=
  rowRect_emb 1 (by decide) _ _ q
theorem slot_emb2 (q : Fin 256) :
    (slot 2).view.emb (ix2 (0 : Fin 1) q) = (ix3 (2 : Fin 4) (0 : Fin 1) q : S4x1x256.Idx) :=
  rowRect_emb 2 (by decide) _ _ q
theorem slot_emb3 (q : Fin 256) :
    (slot 3).view.emb (ix2 (0 : Fin 1) q) = (ix3 (3 : Fin 4) (0 : Fin 1) q : S4x1x256.Idx) :=
  rowRect_emb 3 (by decide) _ _ q

/-! ## The final contents at a row -/

/-- Row 0 of the final contents of `c` is `c`'s own row; -/
theorem comm_row0 (c : Dev nD) (q : Fin 256) :
    comm m c (ix3 (0 : Fin 4) (0 : Fin 1) q) = lmax m c (ix3 (0 : Fin 1) (0 : Fin 1) q) := by
  show lmax m (sh 4 c) _ = _
  rw [sh_four]
  rfl

/-- and so is row `d` of the final contents of the device `d` places after `c`. -/
theorem comm_row1 (c : Dev nD) (q : Fin 256) :
    comm m (sh 1 c) (ix3 (1 : Fin 4) (0 : Fin 1) q) = lmax m c (ix3 (0 : Fin 1) (0 : Fin 1) q) := by
  show lmax m (sh 3 (sh 1 c)) _ = _
  rw [sh_sh, sh_four]
  rfl
theorem comm_row2 (c : Dev nD) (q : Fin 256) :
    comm m (sh 2 c) (ix3 (2 : Fin 4) (0 : Fin 1) q) = lmax m c (ix3 (0 : Fin 1) (0 : Fin 1) q) := by
  show lmax m (sh 2 (sh 2 c)) _ = _
  rw [sh_sh, sh_four]
  rfl
theorem comm_row3 (c : Dev nD) (q : Fin 256) :
    comm m (sh 3 c) (ix3 (3 : Fin 4) (0 : Fin 1) q) = lmax m c (ix3 (0 : Fin 1) (0 : Fin 1) q) := by
  show lmax m (sh 1 (sh 3 c)) _ = _
  rw [sh_sh, sh_four]
  rfl

/-! ## What a copy lands -/

/-- What the copy `j + 1` places on lands — row 0 of `c` written over row `j + 1` there — is the final contents there. -/
theorem land_row1 (c : Dev nD) (fd : Buf (Elt F) (((sh 1 c : Dev nD) : Thread nD τ).loc cc0_scratch0)) :
    ∀ i ∈ slotSet 1, (slot 1).view.write (Elt F) fd ((slot 0).view.read (Elt F) (comm m c)) Finset.univ i = comm m (sh 1 c) i := by
  intro i hi
  obtain ⟨y, rfl⟩ := View.exists_emb_of_mem_set (slot 1).view hi
  obtain ⟨u, q, rfl⟩ : ∃ (u : Fin 1) (q : Fin 256), y = ix2 u q := ⟨y 0, y 1, eq_ix2 y⟩
  obtain rfl : u = 0 := Subsingleton.elim _ _
  refine (View.write_emb_of_mem _ _ (Finset.mem_univ _)).trans ?_
  refine (cast_eq _ _).trans ?_
  refine (View.read_apply _ _).trans ?_
  refine (cast_eq _ _).trans ?_
  rw [slot_emb0, slot_emb1, comm_row0, comm_row1]
theorem land_row2 (c : Dev nD) (fd : Buf (Elt F) (((sh 2 c : Dev nD) : Thread nD τ).loc cc0_scratch0)) :
    ∀ i ∈ slotSet 2, (slot 2).view.write (Elt F) fd ((slot 0).view.read (Elt F) (comm m c)) Finset.univ i = comm m (sh 2 c) i := by
  intro i hi
  obtain ⟨y, rfl⟩ := View.exists_emb_of_mem_set (slot 2).view hi
  obtain ⟨u, q, rfl⟩ : ∃ (u : Fin 1) (q : Fin 256), y = ix2 u q := ⟨y 0, y 1, eq_ix2 y⟩
  obtain rfl : u = 0 := Subsingleton.elim _ _
  refine (View.write_emb_of_mem _ _ (Finset.mem_univ _)).trans ?_
  refine (cast_eq _ _).trans ?_
  refine (View.read_apply _ _).trans ?_
  refine (cast_eq _ _).trans ?_
  rw [slot_emb0, slot_emb2, comm_row0, comm_row2]
theorem land_row3 (c : Dev nD) (fd : Buf (Elt F) (((sh 3 c : Dev nD) : Thread nD τ).loc cc0_scratch0)) :
    ∀ i ∈ slotSet 3, (slot 3).view.write (Elt F) fd ((slot 0).view.read (Elt F) (comm m c)) Finset.univ i = comm m (sh 3 c) i := by
  intro i hi
  obtain ⟨y, rfl⟩ := View.exists_emb_of_mem_set (slot 3).view hi
  obtain ⟨u, q, rfl⟩ : ∃ (u : Fin 1) (q : Fin 256), y = ix2 u q := ⟨y 0, y 1, eq_ix2 y⟩
  obtain rfl : u = 0 := Subsingleton.elim _ _
  refine (View.write_emb_of_mem _ _ (Finset.mem_univ _)).trans ?_
  refine (cast_eq _ _).trans ?_
  refine (View.read_apply _ _).trans ?_
  refine (cast_eq _ _).trans ?_
  rw [slot_emb0, slot_emb3, comm_row0, comm_row3]

/-- The four rows are the whole buffer, disjointly. -/
theorem rows_cover : (Finset.univ : Finset S4x1x256.Idx) = slotSet 0 ∪ slotSet 1 ∪ slotSet 2 ∪ slotSet 3 := by
  ext i
  refine ⟨fun _ => ?_, fun _ => Finset.mem_univ _⟩
  have h4 : (i 0).val < 4 := (i 0).isLt
  rcases (by omega : (i 0).val = 0 ∨ (i 0).val = 1 ∨ (i 0).val = 2 ∨ (i 0).val = 3) with h | h | h | h
  · exact Finset.mem_union_left _ (Finset.mem_union_left _ (Finset.mem_union_left _ ((mem_slotSet 0 i).2 h)))
  · exact Finset.mem_union_left _ (Finset.mem_union_left _ (Finset.mem_union_right _ ((mem_slotSet 1 i).2 h)))
  · exact Finset.mem_union_left _ (Finset.mem_union_right _ ((mem_slotSet 2 i).2 h))
  · exact Finset.mem_union_right _ ((mem_slotSet 3 i).2 h)
theorem rows_disjoint (d d' : Fin 4) (h : d ≠ d') : Disjoint (slotSet d) (slotSet d') :=
  Finset.disjoint_left.2 fun i hi hi' =>
    h (Fin.ext (((mem_slotSet d i).1 hi).symm.trans ((mem_slotSet d' i).1 hi')))

/-- info: 'Cert.KernelIdeal.Coll.land_row3' depends on axioms: [propext, Classical.choice, Quot.sound] -/
#guard_msgs in #print axioms land_row3

end Cert.KernelIdeal.Coll

end
-- ==== Proof.Ideal.Body.lean ====
/-
  One device's body, stepped from its invariant: the three entry signals, the device's own row of column maxima,
  the barrier wait, the three copies of that row, the receive waits with the four reads and the result, the send waits,
  and the six own cells closed.
-/
import proofs.«900926_g7700000000000927_dist_max_ax0_shard0_i_m512_n256_v7x_i4_bf16_1_alg».proof.Proof.Ideal.Data
import proofs.«900926_g7700000000000927_dist_max_ax0_shard0_i_m512_n256_v7x_i4_bf16_1_alg».proof.Proof.Ideal.Tables
import proofs.«900926_g7700000000000927_dist_max_ax0_shard0_i_m512_n256_v7x_i4_bf16_1_alg».proof.Proof.Ideal.Rows

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The rows of the scratch buffer, cut and rejoined -/

private theorem in0 : (cM : Memref sig .tc .vmem S4x1x256 .f32).view.setOn (rslot 0).toLoadRect.set ⊆ slotSet 0 := by
  show _ ⊆ (((cM : Memref sig .tc .vmem S4x1x256 .f32).view.slice (rslot 0)).reshape S1x256 squeezes_S1x1x256_S1x256.numel_eq).set
  rw [View.set_reshape, View.set_slice]; exact Finset.Subset.refl _
private theorem in1 : (cM : Memref sig .tc .vmem S4x1x256 .f32).view.setOn (rslot 1).toLoadRect.set ⊆ slotSet 1 := by
  show _ ⊆ (((cM : Memref sig .tc .vmem S4x1x256 .f32).view.slice (rslot 1)).reshape S1x256 squeezes_S1x1x256_S1x256.numel_eq).set
  rw [View.set_reshape, View.set_slice]; exact Finset.Subset.refl _
private theorem in2 : (cM : Memref sig .tc .vmem S4x1x256 .f32).view.setOn (rslot 2).toLoadRect.set ⊆ slotSet 2 := by
  show _ ⊆ (((cM : Memref sig .tc .vmem S4x1x256 .f32).view.slice (rslot 2)).reshape S1x256 squeezes_S1x1x256_S1x256.numel_eq).set
  rw [View.set_reshape, View.set_slice]; exact Finset.Subset.refl _
private theorem in3 : (cM : Memref sig .tc .vmem S4x1x256 .f32).view.setOn (rslot 3).toLoadRect.set ⊆ slotSet 3 := by
  show _ ⊆ (((cM : Memref sig .tc .vmem S4x1x256 .f32).view.slice (rslot 3)).reshape S1x256 squeezes_S1x1x256_S1x256.numel_eq).set
  rw [View.set_reshape, View.set_slice]; exact Finset.Subset.refl _
private theorem st0_in : ((cM : Memref sig .tc .vmem S4x1x256 .f32).access (rslot 0)).setOn Finset.univ ⊆ slotSet 0 := Finset.Subset.refl _

private theorem d01 : Disjoint (slotSet 0) (slotSet 1) := rows_disjoint 0 1 (by decide)
private theorem d012 : Disjoint (slotSet 0 ∪ slotSet 1) (slotSet 2) :=
  Finset.disjoint_union_left.mpr ⟨rows_disjoint 0 2 (by decide), rows_disjoint 1 2 (by decide)⟩
private theorem d0123 : Disjoint (slotSet 0 ∪ slotSet 1 ∪ slotSet 2) (slotSet 3) :=
  Finset.disjoint_union_left.mpr ⟨Finset.disjoint_union_left.mpr ⟨rows_disjoint 0 3 (by decide), rows_disjoint 1 3 (by decide)⟩, rows_disjoint 2 3 (by decide)⟩

/-- The whole buffer is its four rows. -/
private theorem scr_split (c : Dev nD) (q : PosShare TreeShare) (f : Buf (Elt F) ((c : Thread nD τ).loc cc0_scratch0)) :
    ((((c : Thread nD τ).loc cc0_scratch0) ↦{q} f) : sProp 𝕄)
      ⊢ iprop(scr c (slotSet 0) q f ∗ scr c (slotSet 1) q f ∗ scr c (slotSet 2) q f ∗ scr c (slotSet 3) q f) := by
  show ((((c : Thread nD τ).loc cc0_scratch0) ↦[Finset.univ]{q} f) : sProp 𝕄) ⊢ _
  rw [rows_cover]
  iintro H
  ihave H := (pointsTo_union d0123).1 $$ H
  icases H with ⟨H, H3⟩
  ihave H := (pointsTo_union d012).1 $$ H
  icases H with ⟨H, H2⟩
  ihave H := (pointsTo_union d01).1 $$ H
  icases H with ⟨H0, H1⟩
  isplitl [H0]; · iexact H0
  isplitl [H1]; · iexact H1
  isplitl [H2]; · iexact H2
  iexact H3

private theorem scr_join (c : Dev nD) (q : PosShare TreeShare) (f : Buf (Elt F) ((c : Thread nD τ).loc cc0_scratch0)) :
    iprop(scr c (slotSet 0) q f ∗ scr c (slotSet 1) q f ∗ scr c (slotSet 2) q f ∗ scr c (slotSet 3) q f)
      ⊢ ((((c : Thread nD τ).loc cc0_scratch0) ↦{q} f) : sProp 𝕄) := by
  show _ ⊢ ((((c : Thread nD τ).loc cc0_scratch0) ↦[Finset.univ]{q} f) : sProp 𝕄)
  rw [rows_cover]
  iintro ⟨H0, H1, H2, H3⟩
  iapply (pointsTo_union d0123).2
  isplitr [H3]; swap; · iexact H3
  iapply (pointsTo_union d012).2
  isplitr [H2]; swap; · iexact H2
  iapply (pointsTo_union d01).2
  isplitl [H0]; · iexact H0
  iexact H1

private theorem bigSep_fin3 {M : Type} [URA M] (Φ : Fin 3 → sProp M) : bigSep Finset.univ Φ = iprop(Φ 0 ∗ Φ 1 ∗ Φ 2) := by
  rw [show (Finset.univ : Finset (Fin 3)) = {0, 1, 2} by decide, bigSep_insert (by decide), bigSep_insert (by decide), bigSep_singleton]
  rfl

/-! ## The payloads, as the steps hand them over and take them -/

private theorem barPay_intro (c q : Dev nD) (e : Fin 3) (h : sh (e.val + 1) q = c) :
    iprop((∃ f, scr (F := F) c (slotSet e.succ) fullShare f) ∗ reached ER (recvCell c e) 0) ⊢ barPay (F := F) q e := by
  subst h; unfold barPay; exact .rfl

private theorem pay_sig (c q : Dev nD) (e : Fin 3) (h : sh (e.val + 1) q = c) (f : Buf (Elt F) ((c : Thread nD τ).loc cc0_scratch0)) :
    iprop(scr (F := F) c (slotSet e.succ) fullShare f ∗ reached ER (recvCell c e) 0) ⊢ (Rd (F := F) m).payload (barCell q) 0 e := by
  rw [payload_bar]
  refine .trans ?_ (barPay_intro c q e h)
  iintro ⟨H, #R⟩
  isplitl [H]
  · iexists f; iexact H
  · iexact R

private theorem rest_bar' (c : Dev nD) :
    bigSep ((Rd (F := F) m).duties (barCell c) 0 \ ∅) (fun d => (Rd (F := F) m).payload (barCell c) 0 d)
      ⊢ iprop(((∃ f, scr (F := F) (sh 1 c) (slotSet 1) fullShare f) ∗ reached ER (recvCell (sh 1 c) 0) 0)
          ∗ ((∃ f, scr (F := F) (sh 2 c) (slotSet 2) fullShare f) ∗ reached ER (recvCell (sh 2 c) 1) 0)
          ∗ ((∃ f, scr (F := F) (sh 3 c) (slotSet 3) fullShare f) ∗ reached ER (recvCell (sh 3 c) 2) 0)) := by
  rw [rest_bar]; unfold barPay; exact .rfl

private theorem rest_send' (c : Dev nD) (j : Fin 3) :
    bigSep ((Rd (F := F) m).duties (sendCell c j) 0 \ ∅) (fun d => (Rd (F := F) m).payload (sendCell c j) 0 d)
      ⊢ scr c (slotSet 0) (Transfers.shareTok fullShare 3 j) (comm m c) := by
  rw [rest_send]; unfold sendPay; exact .rfl

private theorem rest_recv' (c : Dev nD) (j : Fin 3) :
    bigSep ((Rd (F := F) m).duties (recvCell c j) 0 \ ∅) (fun d => (Rd (F := F) m).payload (recvCell c j) 0 d)
      ⊢ scr c (slotSet j.succ) fullShare (comm m c) := by
  rw [rest_recv]; unfold recvPay; exact .rfl

/-! ## The staging buffers -/

private theorem before_x (c : Dev nD) (d : (cfg0.win (0 : Fin 2)).block.Idx → Elt F (cfg0.win (0 : Fin 2)).elt) :
    (dats m ρ 0 c).before (0 : Fin 2) t₀ d = xblk m c := rfl

private theorem read_x (f : (cc0_stg0_0 : Ref sig .tc).ty.Contents (Elt F)) :
    (xM : Memref sig .tc .vmem S512x256 .f32).view.readAt (Elt F) (Rect.unit (s := S512x256) ![0, 0] S512x256.size inb_S512x256_S512x256_0_0).toLoadRect f = f :=
  Memref.readAt_unit_zero (Elt F) cc0_stg0_0 (funext fun a => by fin_cases a <;> rfl) _ f

private theorem write_out (f w : (cc0_stg1_0 : Ref sig .tc).ty.Contents (Elt F)) :
    ((oM : Memref sig .tc .vmem S1x256 .f32).access (Rect.unit (s := S1x256) ![0, 0] S1x256.size inb_S1x256_S1x256_0_0) : View sig .tc _ _ _).write (Elt F) f w Finset.univ = w :=
  Memref.write_access_unit_zero_univ (Elt F) cc0_stg1_0 (funext fun a => by fin_cases a <;> rfl) _ f w

private theorem sh31 (c : Dev nD) : sh ((2 : Fin 3).val + 1) (sh 1 c) = c := by revert c; decide
private theorem sh22 (c : Dev nD) : sh ((1 : Fin 3).val + 1) (sh 2 c) = c := by revert c; decide
private theorem sh13 (c : Dev nD) : sh ((0 : Fin 3).val + 1) (sh 3 c) = c := by revert c; decide

/-- Row 0 at the full share is three read tokens, one a copy, and a remainder. -/
private theorem row0_toks (c : Dev nD) (f : Buf (Elt F) ((c : Thread nD τ).loc cc0_scratch0)) :
    scr (F := F) c (slotSet 0) fullShare f
      ⊢ iprop(scr c (slotSet 0) (Transfers.shareDrop fullShare 3) f ∗ scr c (slotSet 0) (Transfers.shareTok fullShare 3 0) f
          ∗ scr c (slotSet 0) (Transfers.shareTok fullShare 3 1) f ∗ scr c (slotSet 0) (Transfers.shareTok fullShare 3 2) f) := by
  refine (Transfers.pointsTo_toks_split fullShare 3).trans (Entails.of_eq ?_)
  rw [bigSep_fin3]

private theorem row0_join (c : Dev nD) (f : Buf (Elt F) ((c : Thread nD τ).loc cc0_scratch0)) :
    iprop(scr c (slotSet 0) (Transfers.shareDrop fullShare 3) f ∗ scr c (slotSet 0) (Transfers.shareTok fullShare 3 0) f
          ∗ scr c (slotSet 0) (Transfers.shareTok fullShare 3 1) f ∗ scr c (slotSet 0) (Transfers.shareTok fullShare 3 2) f)
      ⊢ scr (F := F) c (slotSet 0) fullShare f := by
  refine (Entails.of_eq ?_).trans (Transfers.pointsTo_toks_join fullShare 3)
  rw [bigSep_fin3]

private theorem rest_recv1 (c : Dev nD) :
    bigSep ((Rd (F := F) m).duties (recvCell c 0) 0 \ ∅) (fun d => (Rd (F := F) m).payload (recvCell c 0) 0 d)
      ⊢ scr c (slotSet 1) fullShare (comm m c) := rest_recv' m c 0
private theorem rest_recv2 (c : Dev nD) :
    bigSep ((Rd (F := F) m).duties (recvCell c 1) 0 \ ∅) (fun d => (Rd (F := F) m).payload (recvCell c 1) 0 d)
      ⊢ scr c (slotSet 2) fullShare (comm m c) := rest_recv' m c 1
private theorem rest_recv3 (c : Dev nD) :
    bigSep ((Rd (F := F) m).duties (recvCell c 2) 0 \ ∅) (fun d => (Rd (F := F) m).payload (recvCell c 2) 0 d)
      ⊢ scr c (slotSet 3) fullShare (comm m c) := rest_recv' m c 2

/-- The addressed copy of one row to the device `p`, the program naming that device by a term `n` equal to it. -/
private theorem wp_send_at (c p n : Dev nD) (hn : n = p)
    {src : Memref sig (Dev.tc c : Thread nD τ).2.kind .vmem S1x256 .f32} {dst : Memref sig (Dev.tc n : Thread nD τ).2.kind .vmem S1x256 .f32}
    {hsc : dst.view.ref.isScScratch = false} {sS sem : SemLoc sig}
    {hsrc : src.view.WordExact} {hdst : dst.view.WordExact}
    {hsem : DmaTarget.Typed .vmem sem (.remote (Dev.tc n : Thread nD τ) dst sS hsc)}
    {α : Type} {k : PUnit → Prog (TpuEff nD τ sig (Elt F) Λ₀ .tc) α} {Q : α → sProp 𝕄}
    {q : PosShare TreeShare} {fs : Buf (Elt F) (src.view.loc (Dev.tc c : Thread nD τ))} {fd : Buf (Elt F) (dst.view.loc (Dev.tc p : Thread nD τ))}
    {κ₁ κ₂ : ℕ}
    (hd₁ : (0 : Fin 3) ∈ (Rd (F := F) m).duties ((Dev.tc c : Thread nD τ), sS) 0) (hd₂ : (0 : Fin 3) ∈ (Rd (F := F) m).duties ((Dev.tc p : Thread nD τ), sem) 0)
    (hN : dst.view.amount sem = N) (hk₁ : (Rd (F := F) m).amount ((Dev.tc c : Thread nD τ), sS) 0 0 = N)
    (hk₂ : (Rd (F := F) m).amount ((Dev.tc p : Thread nD τ), sem) 0 0 = N)
    {O₀ : CellTallies nD τ sig Unit} (O : CellTallies nD τ sig Unit) (hO : O₀ = O + tallyAt ((Dev.tc p : Thread nD τ), sem) () N) {W : Waits sig Unit}
    (hpay₁ : (src.view.loc (Dev.tc c : Thread nD τ) ↦[src.view.set]{q} fs) ⊢ (Rd (F := F) m).payload ((Dev.tc c : Thread nD τ), sS) 0 0)
    (hpay₂ : (dst.view.loc (Dev.tc p : Thread nD τ) ↦[dst.view.set]{fullShare} (dst.view.write (Elt F) fd (src.view.read (Elt F) fs) Finset.univ))
      ⊢ (Rd (F := F) m).payload ((Dev.tc p : Thread nD τ), sem) 0 0) :
    iprop(cellInv ER (Rd (F := F) m) κ₁ ((Dev.tc c : Thread nD τ), sS) ∗ cellInv ER (Rd (F := F) m) κ₂ ((Dev.tc p : Thread nD τ), sem)
        ∗ (src.view.loc (Dev.tc c : Thread nD τ) ↦[src.view.set]{q} fs) ∗ (dst.view.loc (Dev.tc p : Thread nD τ) ↦[dst.view.set]{fullShare} fd)
        ∗ owes (Dev.tc c : Thread nD τ) O₀ W
        ∗ dutyTok ER ((Dev.tc c : Thread nD τ), sS) 0 (0 : Fin 3) ∗ reached ER ((Dev.tc c : Thread nD τ), sS) 0
        ∗ dutyTok ER ((Dev.tc p : Thread nD τ), sem) 0 (0 : Fin 3) ∗ reached ER ((Dev.tc p : Thread nD τ), sem) 0)
      ⊢ iprop(((cred (tallyAt ((Dev.tc c : Thread nD τ), sS) () N) ∗ owes (Dev.tc c : Thread nD τ) O W)
            -∗ wp frame (wpE (defs₀ (F := F)) 𝒱₀ (Dev.tc c : Thread nD τ) none) Set.univ (k ⟨⟩) Q)
          -∗ wp frame (wpE (defs₀ (F := F)) 𝒱₀ (Dev.tc c : Thread nD τ) none) Set.univ
              (.op (.enqueueDma src (.remote (Dev.tc n : Thread nD τ) dst sS hsc) sem hsrc hdst hsem) k) Q) := by
  subst hn
  exact wp_send_pointsTo 𝒱₀ ER (Rd m) (Dev.tc c : Thread nD τ) none hd₁ hd₂ () () N hN hk₁ hk₂ O hO hpay₁ hpay₂

set_option maxHeartbeats 1600000 in
theorem sound_body (K : Dev nD × Fin 7 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, wp_deviceId]
  simp only [dev1_eq, dev2_eq, dev3_eq, dev4_eq, dev5_eq, dev6_eq]
  unfold bodyPre ghost invs poss marks payToks creds
  iintro ⟨⟨⟨⟨⟨#Ib, #Is0, #Is1, #Is2, #Ir0, #Ir1, #Ir2, #Ib1, #Ib2, #Ib3, #Jr1, #Jr2, #Jr3⟩,
      ⟨Pb, Ps0, Ps1, Ps2, Pr0, Pr1, Pr2⟩,
      ⟨#Mb1, #Mb2, #Mb3, #Mr1, #Mr2, #Mr3, #Ms0, #Ms1, #Ms2, #Mq0, #Mq1, #Mq2⟩,
      ⟨Tb1, Tb2, Tb3, Tr1, Tr2, Tr3, Ts0, Ts1, Ts2⟩⟩,
      ⟨Cb, Cr0, Cr1, Cr2⟩, #Hlev, ⟨%f0, Hscr⟩⟩, ⟨%W0, %hW0, HO⟩, ⟨%dx, %fx, %hfx, Hx⟩, ⟨%dy, %fo, %hfo, Ho⟩⟩, HK⟩
  -- the four rows
  ihave Hscr := (scr_split c fullShare f0) $$ Hscr
  icases Hscr with ⟨H0, H1, H2, H3⟩
  -- the three entry signals: rows 3, 2, 1 go to the devices 1, 2, 3 places on
  iapply (wp_signal 𝒱₀ ER (Rd m) (c : Thread nD τ) none (dst := (sh 1 c : Thread nD τ)) (sem := barS) (r := 0) (d := (2 : Fin 3))
    (by rw [duties_bar]; exact Finset.mem_univ _) (amount_bar m (sh 1 c) 2) () (O₁ c)
    (rfl : (dats m ρ 0 c).owed t₀.castSucc = O₁ c + tallyAt (barCell (sh 1 c)) () 1)) $$ [HO Tb1 H3]
  · isplitr; · iexact Ib1
    isplitl [HO]; · iexact HO
    isplitl [Tb1]; · iexact Tb1
    isplitl [H3]
    · iapply (pay_sig m c (sh 1 c) 2 (sh31 c) f0)
      isplitl [H3]; · iexact H3
      iexact Mq2
    iexact Mb1
  iintro HO
  iapply (wp_signal 𝒱₀ ER (Rd m) (c : Thread nD τ) none (dst := (sh 2 c : Thread nD τ)) (sem := barS) (r := 0) (d := (1 : Fin 3))
    (by rw [duties_bar]; exact Finset.mem_univ _) (amount_bar m (sh 2 c) 1) () (O₂ c)
    (rfl : O₁ c = O₂ c + tallyAt (barCell (sh 2 c)) () 1)) $$ [HO Tb2 H2]
  · isplitr; · iexact Ib2
    isplitl [HO]; · iexact HO
    isplitl [Tb2]; · iexact Tb2
    isplitl [H2]
    · iapply (pay_sig m c (sh 2 c) 1 (sh22 c) f0)
      isplitl [H2]; · iexact H2
      iexact Mq1
    iexact Mb2
  iintro HO
  iapply (wp_signal 𝒱₀ ER (Rd m) (c : Thread nD τ) none (dst := (sh 3 c : Thread nD τ)) (sem := barS) (r := 0) (d := (0 : Fin 3))
    (by rw [duties_bar]; exact Finset.mem_univ _) (amount_bar m (sh 3 c) 0) () (O₃ c)
    (rfl : O₂ c = O₃ c + tallyAt (barCell (sh 3 c)) () 1)) $$ [HO Tb3 H1]
  · isplitr; · iexact Ib3
    isplitl [HO]; · iexact HO
    isplitl [Tb3]; · iexact Tb3
    isplitl [H1]
    · iapply (pay_sig m c (sh 3 c) 0 (sh13 c) f0)
      isplitl [H1]; · iexact H1
      iexact Mq0
    iexact Mb3
  iintro HO
  -- the device's own row: the column maxima of its block, into row 0
  iapply (wp_load 𝒱₀ (c : Thread nD τ) none Set.univ (m := xM) (Finset.subset_univ _)) $$ Hx
  iintro Hx
  generalize hxv : View.readAt (Elt F) (Memref.whole cc0_stg0_0).view _ fx = xv
  have hx : xv = xblk m c := hxv.symm.trans ((read_x fx).trans (hfx.trans (before_x m ρ c dx)))
  subst hx
  iapply (wp_load 𝒱₀ (c : Thread nD τ) none Set.univ (m := cM) in0) $$ H0
  iintro H0
  iapply (wp_store 𝒱₀ (c : Thread nD τ) none Set.univ (m := cM) (r := rslot 0) st0_in) $$ H0
  iintro H0
  ihave H0 := (Entails.of_eq (pointsTo_congr (q := fullShare) (store_row0 m c f0))) $$ H0
  ihave H0 := (row0_toks c (comm m c)) $$ H0
  icases H0 with ⟨H0, T0, T1, T2⟩
  -- the barrier wait: the three others are inside, and hand over the rows the copies land in
  iapply (wp_wait_rest_token 𝒱₀ ER (Rd m) (c : Thread nD τ) none (wpE_semWait_eq 𝒱₀ (c : Thread nD τ) none Set.univ) (Set.mem_univ (K (c, 0)))
    () (R := 0) (T := ∅) (m := 0)
    (show 0 + (3#32).toNat = (Rd m).expect (barCell c) 0 from (expect_bar m c).symm)) $$ [Cb HO Pb]
  · isplitr; · iexact Ib
    isplitl [Cb]; · iexact Cb
    isplitl [HO]; · iexact HO
    isplitr; · iapply (mayWait_bar (F := F) c); iexact Hlev
    iexact Pb
  iintro ⟨HO, Pb, -, Hrest⟩
  ihave Hrest := (rest_bar' m c) $$ Hrest
  icases Hrest with ⟨⟨⟨%g1, G1⟩, -⟩, ⟨⟨%g2, G2⟩, -⟩, ⟨⟨%g3, G3⟩, -⟩⟩
  -- the three copies of row 0: two places on (row 2), one place on (row 1), three places on (row 3)
  iapply (wp_send_at m c (sh 2 c) ⟨k0_dev4 c, k0_dev4_lt c⟩ (dev4_eq c) (src := slot 0) (dst := slot 2)
    (sS := .dma (sS 1).sem) (sem := .dma (rS 1).sem) (q := Transfers.shareTok fullShare 3 1) (fs := comm m c) (fd := g2)
    (by rw [duties_send]; exact Finset.mem_singleton_self _) (by rw [duties_recv]; exact Finset.mem_singleton_self _)
    (amount_slot 2 _) (amount_send m c 1 0) (amount_recv m (sh 2 c) 1 0)
    (tallyAt (recvCell (sh 3 c) 2) () N + tallyAt (recvCell (sh 1 c) 0) () N) (rfl : O₃ c = _)
    (by rw [payload_send]; unfold sendPay; exact .rfl)
    (by rw [payload_recv]; unfold recvPay; exact Entails.of_eq (pointsTo_congr (land_row2 m c g2)))) $$ [T1 G2 HO Ts1 Tr2]
  · isplitr; · iexact Is1
    isplitr; · iexact Jr2
    isplitl [T1]; · iexact T1
    isplitl [G2]; · iexact G2
    isplitl [HO]; · iexact HO
    isplitl [Ts1]; · iexact Ts1
    isplitr; · iexact Ms1
    isplitl [Tr2]; · iexact Tr2
    iexact Mr2
  iintro ⟨Cs1, HO⟩
  iapply (wp_send_at m c (sh 1 c) ⟨k0_dev5 c, k0_dev5_lt c⟩ (dev5_eq c) (src := slot 0) (dst := slot 1)
    (sS := .dma (sS 0).sem) (sem := .dma (rS 0).sem) (q := Transfers.shareTok fullShare 3 0) (fs := comm m c) (fd := g1)
    (by rw [duties_send]; exact Finset.mem_singleton_self _) (by rw [duties_recv]; exact Finset.mem_singleton_self _)
    (amount_slot 1 _) (amount_send m c 0 0) (amount_recv m (sh 1 c) 0 0)
    (tallyAt (recvCell (sh 3 c) 2) () N) rfl
    (by rw [payload_send]; unfold sendPay; exact .rfl)
    (by rw [payload_recv]; unfold recvPay; exact Entails.of_eq (pointsTo_congr (land_row1 m c g1)))) $$ [T0 G1 HO Ts0 Tr1]
  · isplitr; · iexact Is0
    isplitr; · iexact Jr1
    isplitl [T0]; · iexact T0
    isplitl [G1]; · iexact G1
    isplitl [HO]; · iexact HO
    isplitl [Ts0]; · iexact Ts0
    isplitr; · iexact Ms0
    isplitl [Tr1]; · iexact Tr1
    iexact Mr1
  iintro ⟨Cs0, HO⟩
  iapply (wp_send_at m c (sh 3 c) ⟨k0_dev6 c, k0_dev6_lt c⟩ (dev6_eq c) (src := slot 0) (dst := slot 3)
    (sS := .dma (sS 2).sem) (sem := .dma (rS 2).sem) (q := Transfers.shareTok fullShare 3 2) (fs := comm m c) (fd := g3)
    (by rw [duties_send]; exact Finset.mem_singleton_self _) (by rw [duties_recv]; exact Finset.mem_singleton_self _)
    (amount_slot 3 _) (amount_send m c 2 0) (amount_recv m (sh 3 c) 2 0)
    0 (zero_add _).symm
    (by rw [payload_send]; unfold sendPay; exact .rfl)
    (by rw [payload_recv]; unfold recvPay; exact Entails.of_eq (pointsTo_congr (land_row3 m c g3)))) $$ [T2 G3 HO Ts2 Tr3]
  · isplitr; · iexact Is2
    isplitr; · iexact Jr3
    isplitl [T2]; · iexact T2
    isplitl [G3]; · iexact G3
    isplitl [HO]; · iexact HO
    isplitl [Ts2]; · iexact Ts2
    isplitr; · iexact Ms2
    isplitl [Tr3]; · iexact Tr3
    iexact Mr3
  iintro ⟨Cs2, HO⟩
  -- the landings one and three places back: rows 1 and 3 at their final contents
  iapply (wp_wait_rest_token 𝒱₀ ER (Rd m) (c : Thread nD τ) none (wpE_waitDma2_eq 𝒱₀ (c : Thread nD τ) none Set.univ) (Set.mem_univ (K (c, 4)))
    () (R := 0) (T := ∅) (m := 0)
    (show 0 + (slot 1).view.dmaCredit = (Rd m).expect (recvCell c 0) 0 from by rw [expect_recv, Nat.zero_add])) $$ [Cr0 HO Pr0]
  · isplitr; · iexact Ir0
    isplitl [Cr0]; · iexact Cr0
    isplitl [HO]; · iexact HO
    isplitr; · rw [MayWait_zero]; iempintro
    iexact Pr0
  iintro ⟨HO, Pr0, -, Hrest⟩
  ihave R1 := (rest_recv1 m c) $$ Hrest
  iapply (wp_wait_rest_token 𝒱₀ ER (Rd m) (c : Thread nD τ) none (wpE_waitDma2_eq 𝒱₀ (c : Thread nD τ) none Set.univ) (Set.mem_univ (K (c, 6)))
    () (R := 0) (T := ∅) (m := 0)
    (show 0 + (slot 3).view.dmaCredit = (Rd m).expect (recvCell c 2) 0 from by rw [expect_recv, Nat.zero_add])) $$ [Cr2 HO Pr2]
  · isplitr; · iexact Ir2
    isplitl [Cr2]; · iexact Cr2
    isplitl [HO]; · iexact HO
    isplitr; · rw [MayWait_zero]; iempintro
    iexact Pr2
  iintro ⟨HO, Pr2, -, Hrest⟩
  ihave R3 := (rest_recv3 m c) $$ Hrest
  -- rows 0, 1 and 3 read
  iapply (wp_load 𝒱₀ (c : Thread nD τ) none Set.univ (m := cM) in0) $$ H0
  iintro H0
  iapply (wp_load 𝒱₀ (c : Thread nD τ) none Set.univ (m := cM) in1) $$ R1
  iintro R1
  iapply (wp_load 𝒱₀ (c : Thread nD τ) none Set.univ (m := cM) in3) $$ R3
  iintro R3
  -- the landing two places back, and row 2 read
  iapply (wp_wait_rest_token 𝒱₀ ER (Rd m) (c : Thread nD τ) none (wpE_waitDma2_eq 𝒱₀ (c : Thread nD τ) none Set.univ) (Set.mem_univ (K (c, 5)))
    () (R := 0) (T := ∅) (m := 0)
    (show 0 + (slot 2).view.dmaCredit = (Rd m).expect (recvCell c 1) 0 from by rw [expect_recv, Nat.zero_add])) $$ [Cr1 HO Pr1]
  · isplitr; · iexact Ir1
    isplitl [Cr1]; · iexact Cr1
    isplitl [HO]; · iexact HO
    isplitr; · rw [MayWait_zero]; iempintro
    iexact Pr1
  iintro ⟨HO, Pr1, -, Hrest⟩
  ihave R2 := (rest_recv2 m c) $$ Hrest
  iapply (wp_load 𝒱₀ (c : Thread nD τ) none Set.univ (m := cM) in2) $$ R2
  iintro R2
  -- the result: the maximum of the four rows, into the out staging buffer
  iapply (wp_load 𝒱₀ (c : Thread nD τ) none Set.univ (m := oM) (Finset.subset_univ _)) $$ Ho
  iintro Ho
  iapply (wp_store 𝒱₀ (c : Thread nD τ) none Set.univ (m := oM) (r := Rect.unit (s := S1x256) ![0, 0] S1x256.size inb_S1x256_S1x256_0_0) (Finset.subset_univ _)) $$ Ho
  iintro Ho
  -- the three send sides: the read tokens of row 0 come back
  iapply (wp_wait_rest_token 𝒱₀ ER (Rd m) (c : Thread nD τ) none (wpE_waitDma2_eq 𝒱₀ (c : Thread nD τ) none Set.univ) (Set.mem_univ (K (c, 1)))
    () (R := 0) (T := ∅) (m := 0)
    (show 0 + (slot 0).view.dmaCredit = (Rd m).expect (sendCell c 0) 0 from by rw [expect_send, Nat.zero_add])) $$ [Cs0 HO Ps0]
  · isplitr; · iexact Is0
    isplitl [Cs0]; · iexact Cs0
    isplitl [HO]; · iexact HO
    isplitr; · rw [MayWait_zero]; iempintro
    iexact Ps0
  iintro ⟨HO, Ps0, -, Hrest⟩
  ihave T0 := (rest_send' m c 0) $$ Hrest
  iapply (wp_wait_rest_token 𝒱₀ ER (Rd m) (c : Thread nD τ) none (wpE_waitDma2_eq 𝒱₀ (c : Thread nD τ) none Set.univ) (Set.mem_univ (K (c, 2)))
    () (R := 0) (T := ∅) (m := 0)
    (show 0 + (slot 0).view.dmaCredit = (Rd m).expect (sendCell c 1) 0 from by rw [expect_send, Nat.zero_add])) $$ [Cs1 HO Ps1]
  · isplitr; · iexact Is1
    isplitl [Cs1]; · iexact Cs1
    isplitl [HO]; · iexact HO
    isplitr; · rw [MayWait_zero]; iempintro
    iexact Ps1
  iintro ⟨HO, Ps1, -, Hrest⟩
  ihave T1 := (rest_send' m c 1) $$ Hrest
  iapply (wp_wait_rest_token 𝒱₀ ER (Rd m) (c : Thread nD τ) none (wpE_waitDma2_eq 𝒱₀ (c : Thread nD τ) none Set.univ) (Set.mem_univ (K (c, 3)))
    () (R := 0) (T := ∅) (m := 0)
    (show 0 + (slot 0).view.dmaCredit = (Rd m).expect (sendCell c 2) 0 from by rw [expect_send, Nat.zero_add])) $$ [Cs2 HO Ps2]
  · isplitr; · iexact Is2
    isplitl [Cs2]; · iexact Cs2
    isplitl [HO]; · iexact HO
    isplitr; · rw [MayWait_zero]; iempintro
    iexact Ps2
  iintro ⟨HO, Ps2, -, Hrest⟩
  ihave T2 := (rest_send' m c 2) $$ Hrest
  -- the six own cells closed, the buffer whole again
  rw [wp_ret]
  imod (cell_close ER (Rd m) (g := sendCell c 0) (κ := K (c, 1)) (Es := Set.univ) (R := 1) (Set.mem_univ _) (fun h => h) (duties_later m _)) $$ [Ps0] with V0
  · isplitr; · iexact Is0
    iexact Ps0
  imod (cell_close ER (Rd m) (g := sendCell c 1) (κ := K (c, 2)) (Es := Set.univ) (R := 1) (Set.mem_univ _) (fun h => h) (duties_later m _)) $$ [Ps1] with V1
  · isplitr; · iexact Is1
    iexact Ps1
  imod (cell_close ER (Rd m) (g := sendCell c 2) (κ := K (c, 3)) (Es := Set.univ) (R := 1) (Set.mem_univ _) (fun h => h) (duties_later m _)) $$ [Ps2] with V2
  · isplitr; · iexact Is2
    iexact Ps2
  imod (cell_close ER (Rd m) (g := recvCell c 0) (κ := K (c, 4)) (Es := Set.univ) (R := 1) (Set.mem_univ _) (fun h => h) (duties_later m _)) $$ [Pr0] with V3
  · isplitr; · iexact Ir0
    iexact Pr0
  imod (cell_close ER (Rd m) (g := recvCell c 1) (κ := K (c, 5)) (Es := Set.univ) (R := 1) (Set.mem_univ _) (fun h => h) (duties_later m _)) $$ [Pr1] with V4
  · isplitr; · iexact Ir1
    iexact Pr1
  imod (cell_close ER (Rd m) (g := recvCell c 2) (κ := K (c, 6)) (Es := Set.univ) (R := 1) (Set.mem_univ _) (fun h => h) (duties_later m _)) $$ [Pr2] with V5
  · isplitr; · iexact Ir2
    iexact Pr2
  imodintro
  iapply HK
  unfold bodyPost Φ₁
  isplitl [H0 T0 T1 T2 R1 R2 R3 V0 V1 V2 V3 V4 V5]
  · isplitl [H0 T0 T1 T2 R1 R2 R3]
    · iapply (scr_join c fullShare (comm m c))
      isplitl [H0 T0 T1 T2]
      · iapply (row0_join c (comm m c))
        isplitl [H0]; · iexact H0
        isplitl [T0]; · iexact T0
        isplitl [T1]; · iexact T1
        iexact T2
      isplitl [R1]; · iexact R1
      isplitl [R2]; · iexact R2
      iexact R3
    isplitl [V0]; · iexact V0
    isplitl [V1]; · iexact V1
    isplitl [V2]; · iexact V2
    isplitl [V3]; · iexact V3
    isplitl [V4]; · iexact V4
    iexact V5
  isplitl [HO]
  · iexists _
    isplitr; swap; · iexact HO
    ipureintro; exact Set.subset_union_of_subset_left (Set.subset_univ _) _
  isplitl [Hx]
  · iexists fx
    isplitr; · ipureintro; exact hfx.trans (before_x m ρ c dx)
    iexact Hx
  · iexists _
    isplitr; swap; · iexact Ho
    ipureintro
    rw [write_out, read_row0, read_row1, read_row3, read_row2]
    rfl

/-! ## The library's body obligation -/

omit [FloatOps F] in
private theorem bigSep_W (Φ : Fin cfg0.W → sProp 𝕄) : bigSep Finset.univ Φ = iprop(Φ (0 : Fin 2) ∗ Φ (1 : Fin 2)) := bigSep_W0 Φ

omit [FloatOps F] in
private theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- The obligation's precondition, named. -/
private def bodyPre' (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hc, Hl⟩, Hscr⟩, Ho, Hx, Hout⟩
  iapply (sound_body m ρ K c fun _ => bodyPost m ρ c)
  unfold bodyPre
  isplitr []
  · isplitl [Hg Hc Hl Hscr]
    · isplitl [Hg]; · iexact Hg
      isplitl [Hc]; · iexact Hc
      isplitl [Hl]; · iexact Hl
      iexact Hscr
    isplitl [Ho]; · iexact Ho
    isplitl [Hx] <;> iassumption
  · iintro H; iexact H

/-- info: 'Cert.KernelIdeal.Coll.body_obligation' depends on axioms: [propext, Classical.choice, Quot.sound] -/
#guard_msgs in #print axioms body_obligation

end Cert.KernelIdeal.Coll

end
-- ==== Proof.Ideal.LaunchDefs.lean ====
/-
  What the launch deals. The protocol's cells are the seven cells of each of the four devices; the duty tokens minted
  are, per device, its barrier cell's three and the one of each send and receive cell. A device is dealt its own
  cells' round states, positions, marks and tokens; one global step then turns all devices' shares into the ghost
  state each body starts from, the tokens having moved to the devices that pay them.
-/
import proofs.«900926_g7700000000000927_dist_max_ax0_shard0_i_m512_n256_v7x_i4_bf16_1_alg».proof.Proof.Ideal.Data

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def ringCells : Finset (GSem nD τ sig) := Finset.univ.map ⟨kcell, kcell_injective⟩

/-- A device's own cells' duty tokens as minted: the barrier's three, then each send cell's, then each receive cell's. -/
abbrev tokOf (cj : Dev nD × Fin 9) : GSem nD τ sig × ℕ × Fin 3 := match cj.2 with
  | 0 => (barCell cj.1, 0, 0) | 1 => (barCell cj.1, 0, 1) | 2 => (barCell cj.1, 0, 2)
  | 3 => (sendCell cj.1 0, 0, 0) | 4 => (sendCell cj.1 1, 0, 0) | 5 => (sendCell cj.1 2, 0, 0)
  | 6 => (recvCell cj.1 0, 0, 0) | 7 => (recvCell cj.1 1, 0, 0) | 8 => (recvCell cj.1 2, 0, 0)
theorem tokOf_injective : Function.Injective (tokOf : Dev nD × Fin 9 → GSem nD τ sig × ℕ × Fin 3) := by
  -- a token is its cell (one of the seven) and its duty; the nine pairs (cell, duty) are distinct
  have hk : ∀ cj : Dev nD × Fin 9, tokOf cj
      = (kcell (cj.1, (![0, 0, 0, 1, 2, 3, 4, 5, 6] : Fin 9 → Fin 7) cj.2), 0, (![0, 1, 2, 0, 0, 0, 0, 0, 0] : Fin 9 → Fin 3) cj.2) := by
    rintro ⟨c, j⟩; fin_cases j <;> rfl
  rintro ⟨c, j⟩ ⟨c', j'⟩ h
  rw [hk, hk] at h
  have h1 := kcell_injective (congrArg Prod.fst h)
  have h2 : (![0, 1, 2, 0, 0, 0, 0, 0, 0] : Fin 9 → Fin 3) j = (![0, 1, 2, 0, 0, 0, 0, 0, 0] : Fin 9 → Fin 3) j' :=
    congrArg (fun x : GSem nD τ sig × ℕ × Fin 3 => x.2.2) h
  have hc : c = c' := congrArg Prod.fst h1
  have h3 : (![0, 0, 0, 1, 2, 3, 4, 5, 6] : Fin 9 → Fin 7) j = (![0, 0, 0, 1, 2, 3, 4, 5, 6] : Fin 9 → Fin 7) j' := congrArg Prod.snd h1
  subst hc
  have key : ∀ a b : Fin 9, (![0, 1, 2, 0, 0, 0, 0, 0, 0] : Fin 9 → Fin 3) a = (![0, 1, 2, 0, 0, 0, 0, 0, 0] : Fin 9 → Fin 3) b
      → (![0, 0, 0, 1, 2, 3, 4, 5, 6] : Fin 9 → Fin 7) a = (![0, 0, 0, 1, 2, 3, 4, 5, 6] : Fin 9 → Fin 7) b → a = b := by decide
  have : j = j' := key j j' h2 h3
  subst this; rfl
def ringToks : Finset (GSem nD τ sig × ℕ × Fin 3) := Finset.univ.map ⟨tokOf, tokOf_injective⟩

/-- The initial element: the pipeline's own cells and tokens beside the protocol's. -/
def u₀ : UU :=
  (initOf (Pipeline.cells cfgs cellOf_inj) (Pipeline.launchToks cfgs cellOf_inj), initOf ringCells ringToks)

/-- The duty tokens of device `c`'s own cells, in `tokOf`'s order. -/
def toks (c : Dev nD) : sProp 𝕄 :=
  iprop(dutyTok ER (barCell c) 0 (0 : Fin 3) ∗ dutyTok ER (barCell c) 0 (1 : Fin 3) ∗ dutyTok ER (barCell c) 0 (2 : Fin 3)
    ∗ dutyTok ER (sendCell c 0) 0 (0 : Fin 3) ∗ dutyTok ER (sendCell c 1) 0 (0 : Fin 3) ∗ dutyTok ER (sendCell c 2) 0 (0 : Fin 3)
    ∗ dutyTok ER (recvCell c 0) 0 (0 : Fin 3) ∗ dutyTok ER (recvCell c 1) 0 (0 : Fin 3) ∗ dutyTok ER (recvCell c 2) 0 (0 : Fin 3))

/-- What the launch element deals device `c`. -/
def G (c : Dev nD) : sProp 𝕄 :=
  iprop((bigSep Finset.univ fun k : Fin 7 => roundState ER (Rd m) (kcell (c, k)) 0)
    ∗ (bigSep Finset.univ fun k : Fin 7 => iprop(atPos ER (kcell (c, k)) 0 ∅ 0 ∗ reached ER (kcell (c, k)) 0)) ∗ toks c)

/-- What the global step makes of it. -/
def G' (c : Dev nD) : sProp 𝕄 := iprop(∃ K, ghost m K c)

end Cert.KernelIdeal.Coll

end
-- ==== Proof.Ideal.Fund.lean ====
/-
  The ghost state is funded: the initial element deals every device its own cells' share, and one global step —
  every device's own and unscoped semaphore counters at zero with it — allocates the thirteen-invariant ghost state
  each body starts from, the duty tokens dealt to the devices that pay them.
-/
import proofs.«900926_g7700000000000927_dist_max_ax0_shard0_i_m512_n256_v7x_i4_bf16_1_alg».proof.Proof.Ideal.LaunchDefs
import proofs.«900926_g7700000000000927_dist_max_ax0_shard0_i_m512_n256_v7x_i4_bf16_1_alg».proof.Proof.Ideal.Tables

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Finite separating conjunctions, written out -/

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-! ## The ring's rotations as equivalences -/

/-- Going `k` places on is undone by going `3 * k` places on: `4 * k` places is all the way round. -/
def shEquiv (k : ℕ) : Dev nD ≃ Dev nD where
  toFun := sh k
  invFun := sh (3 * k)
  left_inv c := by
    rw [sh_sh]; apply Fin.ext; have hc : c.val < 4 := c.isLt
    show (c.val + (3 * k + k)) % 4 = c.val; omega
  right_inv c := by
    rw [sh_sh]; apply Fin.ext; have hc : c.val < 4 := c.isLt
    show (c.val + (k + 3 * k)) % 4 = c.val; omega

omit [FloatOps F] in
/-- A conjunction over all devices may be read off `k` places on. -/
theorem bigSep_sh (k : ℕ) (Φ : Dev nD → sProp 𝕄) : bigSep Finset.univ Φ = bigSep Finset.univ fun c : Dev nD => Φ (sh k c) :=
  bigSep_univ_equiv (shEquiv k) Φ

/-! ## Funding: what the initial element deals -/

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 7 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin9]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step -/

omit [FloatOps F] in
/-- The three send and the three receive semaphores are the kernel's own six; -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0
        ∗ semVal (recvCell c 0) 0 ∗ semVal (recvCell c 1) 0 ∗ semVal (recvCell c 2) 0) := by
  rw [Pipeline.ownSems0_eq_of_list c osem [0, 1, 2, 3, 4, 5] (by decide) (by decide)]; rfl
omit [FloatOps F] in
/-- the barrier semaphore is the one semaphore that is not scoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- Together they are the counters of a device's seven cells, each at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨⟨HS0, HS1, HS2, HV0, HV1, HV2⟩, HB⟩
  isplitl [HB]; · iexact HB
  isplitl [HS0]; · iexact HS0
  isplitl [HS1]; · iexact HS1
  isplitl [HS2]; · iexact HS2
  isplitl [HV0]; · iexact HV0
  isplitl [HV1]; · iexact HV1
  iexact HV2

/-- One device's counters and round states close into its seven cell invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant under the names `K`, and that round 0 of every cell is reached: what all devices share. -/
def records (K : Dev nD × Fin 7 → ℕ) : sProp 𝕄 :=
  iprop((bigSep Finset.univ fun ck : Dev nD × Fin 7 => cellInv ER (Rd m) (K ck) (kcell ck))
    ∗ bigSep Finset.univ fun ck : Dev nD × Fin 7 => reached ER (kcell ck) 0)

instance records_persistent (K : Dev nD × Fin 7 → ℕ) : BI.Persistent (records m K) := by unfold records; infer_instance

theorem inv_at (K : Dev nD × Fin 7 → ℕ) (ck : Dev nD × Fin 7) :
    (bigSep Finset.univ fun ck : Dev nD × Fin 7 => (cellInv ER (Rd m) (K ck) (kcell ck) : sProp 𝕄)) ⊢ cellInv ER (Rd m) (K ck) (kcell ck) :=
  bigSep_elim (Finset.mem_univ ck)
omit [FloatOps F] in
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- What stays with device `c` alone: its positions, and the tokens of the duties it pays. -/
def linear (c : Dev nD) : sProp 𝕄 := iprop(poss c ∗ payToks c)

theorem ghost_intro (K : Dev nD × Fin 7 → ℕ) (c : Dev nD) : iprop(records m K ∗ linear c) ⊢ G' m c := by
  unfold records linear G' ghost invs marks
  iintro ⟨⟨#HI, #HR⟩, Hpos, Htok⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (c, 5)); iexact HI
    isplitr; · iapply (inv_at m K (c, 6)); iexact HI
    isplitr; · iapply (inv_at m K (sh 1 c, 0)); iexact HI
    isplitr; · iapply (inv_at m K (sh 2 c, 0)); iexact HI
    isplitr; · iapply (inv_at m K (sh 3 c, 0)); iexact HI
    isplitr; · iapply (inv_at m K (sh 1 c, 4)); iexact HI
    isplitr; · iapply (inv_at m K (sh 2 c, 5)); iexact HI
    iapply (inv_at m K (sh 3 c, 6)); iexact HI
  isplitl [Hpos]; · iexact Hpos
  isplitr
  · isplitr; · iapply (reached_at (F := F) (sh 1 c, 0)); iexact HR
    isplitr; · iapply (reached_at (F := F) (sh 2 c, 0)); iexact HR
    isplitr; · iapply (reached_at (F := F) (sh 3 c, 0)); iexact HR
    isplitr; · iapply (reached_at (F := F) (sh 1 c, 4)); iexact HR
    isplitr; · iapply (reached_at (F := F) (sh 2 c, 5)); iexact HR
    isplitr; · iapply (reached_at (F := F) (sh 3 c, 6)); iexact HR
    isplitr; · iapply (reached_at (F := F) (c, 1)); iexact HR
    isplitr; · iapply (reached_at (F := F) (c, 2)); iexact HR
    isplitr; · iapply (reached_at (F := F) (c, 3)); iexact HR
    isplitr; · iapply (reached_at (F := F) (c, 4)); iexact HR
    isplitr; · iapply (reached_at (F := F) (c, 5)); iexact HR
    iapply (reached_at (F := F) (c, 6)); iexact HR
  iexact Htok

omit [FloatOps F] in
/-- The tokens dealt around the ring. Duty `e` of a barrier cell is paid by the device `e + 1` places after its owner,
    which sees that cell `3 - e` places on: the tokens of duties 2, 1, 0 go 1, 2, 3 places back. The token of the
    receive cell `j` goes to the device whose copy lands there, `j + 1` places before its owner. The send tokens stay. -/
theorem toks_around : (bigSep Finset.univ fun c : Dev nD => (toks c : sProp 𝕄)) ⊢ bigSep Finset.univ fun c : Dev nD => payToks c := by
  unfold toks payToks
  simp only [bigSep_sep']
  rw [bigSep_sh 1 (fun c : Dev nD => (dutyTok ER (barCell c) 0 (2 : Fin 3) : sProp 𝕄)),
    bigSep_sh 2 (fun c : Dev nD => (dutyTok ER (barCell c) 0 (1 : Fin 3) : sProp 𝕄)),
    bigSep_sh 3 (fun c : Dev nD => (dutyTok ER (barCell c) 0 (0 : Fin 3) : sProp 𝕄)),
    bigSep_sh 1 (fun c : Dev nD => (dutyTok ER (recvCell c 0) 0 (0 : Fin 3) : sProp 𝕄)),
    bigSep_sh 2 (fun c : Dev nD => (dutyTok ER (recvCell c 1) 0 (0 : Fin 3) : sProp 𝕄)),
    bigSep_sh 3 (fun c : Dev nD => (dutyTok ER (recvCell c 2) 0 (0 : Fin 3) : sProp 𝕄))]
  iintro ⟨B0, B1, B2, S0, S1, S2, V0, V1, V2⟩
  isplitl [B2]; · iexact B2
  isplitl [B1]; · iexact B1
  isplitl [B0]; · iexact B0
  isplitl [V0]; · iexact V0
  isplitl [V1]; · iexact V1
  isplitl [V2]; · iexact V2
  isplitl [S0]; · iexact S0
  isplitl [S1]; · iexact S1
  iexact S2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices' invariants, positions, marks and tokens regroup into each device's ghost state. -/
theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 7 => iprop(∃ κ : ℕ, cellInv ER (Rd m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from Entails.of_eq (by unfold linear poss; rw [bigSep_fin7])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- info: 'Cert.KernelIdeal.Coll.fund_ring' depends on axioms: [propext, Classical.choice, Quot.sound] -/
#guard_msgs in
#print axioms fund_ring

/-- info: 'Cert.KernelIdeal.Coll.glob' depends on axioms: [propext, Classical.choice, Quot.sound] -/
#guard_msgs in
#print axioms glob

end Cert.KernelIdeal.Coll

end
-- ==== Proof.Ideal.Launch.lean ====
/-
  The launch. Summed over the four devices, what is owed a device's cells is exactly the credit of its own waits;
  with it, the level facts and the ghost state the global step allocates, each device starts its body, and what the
  body leaves closes the region. Every fair run of the four devices then terminates with each device's result array
  at the maximum of the four rows and its block of the input as it was.
-/
import proofs.«900926_g7700000000000927_dist_max_ax0_shard0_i_m512_n256_v7x_i4_bf16_1_alg».proof.Proof.Ideal.Fund

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The layout facts of the own semaphores and the arrays' shares -/

theorem ownSemFacts : Pipeline.OwnSemFacts cfg0.spec osem := by decide

theorem share_eq (c : Dev nD) (w : Fin cfg0.W) : (dats m ρ 0 c).share w = fullShare := by unfold Dat.share; split <;> rfl

/-! ## The launch credit -/

private theorem sh13 (c : Dev nD) : sh 1 (sh 3 c) = c := by revert c; decide
private theorem sh31 (c : Dev nD) : sh 3 (sh 1 c) = c := by revert c; decide
private theorem sh22 (c : Dev nD) : sh 2 (sh 2 c) = c := by revert c; decide

/-- Summed over the devices, what is owed device `c`'s cells is the credit of its own waits: each of the three other
    devices owes its barrier cell one unit, and the device `j + 1` places before it owes its receive cell `j` one row. -/
theorem creds_intro (c : Dev nD) : (Pipeline.launchCred O₀ c : sProp 𝕄) ⊢ creds c := by
  rw [show (O₀ : Dev nD → CellTallies nD τ sig Unit) = fun d => O₁ d + tallyAt (barCell (sh 1 d)) () 1 from rfl, Pipeline.launchCred_add,
    show (O₁ : Dev nD → CellTallies nD τ sig Unit) = fun d => O₂ d + tallyAt (barCell (sh 2 d)) () 1 from rfl, Pipeline.launchCred_add,
    show (O₂ : Dev nD → CellTallies nD τ sig Unit) = fun d => O₃ d + tallyAt (barCell (sh 3 d)) () 1 from rfl, Pipeline.launchCred_add,
    show (O₃ : Dev nD → CellTallies nD τ sig Unit) = fun d => (tallyAt (recvCell (sh 3 d) 2) () N + tallyAt (recvCell (sh 1 d) 0) () N) + tallyAt (recvCell (sh 2 d) 1) () N from rfl,
    Pipeline.launchCred_add, Pipeline.launchCred_add]
  unfold creds
  iintro ⟨⟨⟨⟨⟨Hr3, Hr1⟩, Hr2⟩, Hb3⟩, Hb2⟩, Hb1⟩
  ihave C1 := (Pipeline.launchCred_tallyAt (.reg barS) (sh 1) (sh 3) sh13 sh31 () 1 c) $$ Hb1
  ihave C2 := (Pipeline.launchCred_tallyAt (.reg barS) (sh 2) (sh 2) sh22 sh22 () 1 c) $$ Hb2
  ihave C3 := (Pipeline.launchCred_tallyAt (.reg barS) (sh 3) (sh 1) sh31 sh13 () 1 c) $$ Hb3
  ihave R0 := (Pipeline.launchCred_tallyAt (.dma (rS 0).sem) (sh 1) (sh 3) sh13 sh31 () N c) $$ Hr1
  ihave R1 := (Pipeline.launchCred_tallyAt (.dma (rS 1).sem) (sh 2) (sh 2) sh22 sh22 () N c) $$ Hr2
  ihave R2 := (Pipeline.launchCred_tallyAt (.dma (rS 2).sem) (sh 3) (sh 1) sh31 sh13 () N c) $$ Hr3
  isplitl [C1 C2 C3]
  · ihave C12 := (cred_add _ _).2 $$ [C1 C2]
    · isplitl [C1] <;> iassumption
    ihave C123 := (cred_add _ _).2 $$ [C12 C3]
    · isplitl [C12] <;> iassumption
    rw [tallyAt_add, tallyAt_add]
    iexact C123
  isplitl [R0]; · iexact R0
  isplitl [R1]; · iexact R1
  iexact R2

/-! ## The launch theorem's side conditions -/

/-- What the launch deals a device, sorted into what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

/-- With the scratch buffer, whole at some contents, that is the body's invariant before the one point. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨%f, Hr⟩⟩
  isplitl [Hs]; · iexact Hs
  iexists f; iexact Hr

/-- The kernel's own six semaphores at zero, in the launch's order. -/
theorem ownSems0_osem (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0
        ∗ semVal (recvCell c 0) 0 ∗ semVal (recvCell c 1) 0 ∗ semVal (recvCell c 2) 0) := by
  rw [Pipeline.ownSems0_eq_of_list c osem [0, 1, 2, 3, 4, 5] (by decide) (by decide)]; rfl

/-- After the point the body hands back the six own cells at zero and the scratch buffer whole. -/
theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m c from rfl, scopedRest0_eq, ownSems0_osem]
  unfold Φ₁
  iintro ⟨Hr, Hz⟩
  isplitr; · iempintro
  isplitl [Hz]; · iexact Hz
  iexists (comm m c); iexact Hr

/-- The pipeline's own waits are on the two staging semaphores: below everything a device may owe. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every counter at zero, every weakly fair run of the four devices terminates and ends with
    each window's array at its computed contents. -/
theorem run_main (hbody : ∀ c : Dev nD, BodyObligation (dats (F := F) m ρ 0 c) (defs₀ (F := F)) 𝒱₀ () Set.univ) :
    θ_run defs (onTc (τ := τ) (main (F := F))) (st0 m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.Coll.run_main' depends on axioms: [propext, Classical.choice, Quot.sound] -/
#guard_msgs in #print axioms run_main

/-! ## The final arrays -/

/-- The input array is never written: it ends as it was. -/
theorem finalA_in (c : Dev nD) : finalA m ρ c (0 : Fin 2) = m ((c : Thread nD τ).loc main_arg0) :=
  (dats (F := F) m ρ 0 c).arrAt_in (0 : Fin 2) rfl _

/-- The result array's one block is the whole array: reading the array through it is reading the array. -/
theorem read_blk_out (c : Dev nD) (X : Buf (Elt F) ((c : Thread nD τ).loc main_v1)) :
    ((cfg0.win (1 : Fin 2)).blk t₀).view.read (Elt F) X = X :=
  Memref.read_access_unit_zero (Elt F) main_v1 (funext fun a => Nat.zero_mul _) _ X

/-- The result array is written back once, whole, at the one point: it ends as what the body left in its staging
    buffer, the maximum of the four rows. -/
theorem finalA_out (c : Dev nD) : finalA m ρ c (1 : Fin 2) = outVal m c := by
  unfold finalA
  rw [show cfg0.N = (t₀ : Fin cfg0.N).val + 1 from rfl, (dats m ρ 0 c).arrAt_succ (1 : Fin 2) t₀, flush0_1 t₀, if_pos rfl]
  exact (read_blk_out c _).symm.trans (View.read_write_univ _ _)

/-- From any memory with every counter at zero, every weakly fair run of the four devices terminates, and in every
    final state each device's result array holds the maximum of the four devices' rows of column maxima and its
    block of the input is unchanged. -/
theorem run (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outVal m c
      ∧ r.2.mem ((c.tc : Thread nD τ).loc main_arg0) = m ((c.tc : Thread nD τ).loc main_arg0)) :=
  (θ_run defs _ _).mono (fun _ h c => ⟨(h c (1 : Fin 2)).trans (finalA_out m ρ c), (h c (0 : Fin 2)).trans (finalA_in m ρ c)⟩)
    (run_main m ρ hbody)

/-- info: 'Cert.KernelIdeal.Coll.run' depends on axioms: [propext, Classical.choice, Quot.sound] -/
#guard_msgs in #print axioms run

end Cert.KernelIdeal.Coll

end
-- ==== Proof.Bits.Sched.lean ====
/-
  A four-device all-to-all maximum, read as a protocol.

  Each device reduces its own 512 rows to one row of column maxima (slot 0 of a four-slot scratch buffer), tells the
  three other devices — one unit each on their barrier semaphore — that it has entered, waits for its own three
  units, and then copies its row into slot `d` of the device `d` places after it (`d = 1, 2, 3`), so that slot `d` of a
  device ends holding the row of the device `d` places BEFORE it. The result is the maximum of the four slots.

  This module fixes the vocabulary every other module is stated in: the shifts on the ring of four, the slot views
  and the cells, what each slot holds at the end (`comm`), the schedule of duties with each landing's contents, what a
  device owes at entry, and the levels that order the waits.
-/
import proofs.«900926_g7700000000000927_dist_max_ax0_shard0_i_m512_n256_v7x_i4_bf16_1_alg».proof.Proof.Gen.Kernel
import proofs.«900926_g7700000000000927_dist_max_ax0_shard0_i_m512_n256_v7x_i4_bf16_1_alg».proof.Proof.Gen.Kernel.Skeleton
import proofs.«900926_g7700000000000927_dist_max_ax0_shard0_i_m512_n256_v7x_i4_bf16_1_alg».proof.Proof.Gen.Kernel.Launch
import proofs.«900926_g7700000000000927_dist_max_ax0_shard0_i_m512_n256_v7x_i4_bf16_1_alg».proof.Proof.Gen.Kernel.Points
import proofs.«900926_g7700000000000927_dist_max_ax0_shard0_i_m512_n256_v7x_i4_bf16_1_alg».proof.Proof.Gen.Kernel.Frame
import Idealize.ShloMosaic.Lib.Pipeline.Launch
import Idealize.ShloMosaic.Lib.Pipeline.Kit
import Idealize.ShloMosaic.Lib.Transfers
import Idealize.ShloMosaic.Lib.ValueIdx
import Idealize.ShloMosaic.Lib.Tactic

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own copy beside the protocol's (duties named by `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def st0 : MemSt nD τ sig (Elt F) := ⟨m, fun _ => 0, ρ⟩

/-! ## The ring of four -/

/-- The device `k` places after `c`. -/
def sh (k : ℕ) (c : Dev nD) : Dev nD := ⟨(c.val + k) % 4, Nat.mod_lt _ (by decide)⟩

theorem sh_sh (j k : ℕ) (c : Dev nD) : sh j (sh k c) = sh (j + k) c := by
  apply Fin.ext; show ((c.val + k) % 4 + j) % 4 = (c.val + (j + k)) % 4; omega
theorem sh_four (c : Dev nD) : sh 4 c = c := by revert c; decide
theorem sh_zero (c : Dev nD) : sh 0 c = c := by revert c; decide
theorem sh_inj (k : ℕ) {a b : Dev nD} (h : sh k a = sh k b) : a = b := by
  have ha : a.val < 4 := a.isLt
  have hb : b.val < 4 := b.isLt
  have := congrArg Fin.val h; apply Fin.ext; simp only [sh] at this; omega

/-- The three signals go 1, 2 and 3 places on; the three copies 2, 1 and 3 places on (the order they are issued). -/
theorem dev1_eq (c : Dev nD) : (⟨k0_dev1 c, k0_dev1_lt c⟩ : Dev nD) = sh 1 c := Fin.ext (k0_dev1_eq c)
theorem dev2_eq (c : Dev nD) : (⟨k0_dev2 c, k0_dev2_lt c⟩ : Dev nD) = sh 2 c := Fin.ext (k0_dev2_eq c)
theorem dev3_eq (c : Dev nD) : (⟨k0_dev3 c, k0_dev3_lt c⟩ : Dev nD) = sh 3 c := Fin.ext (k0_dev3_eq c)
theorem dev4_eq (c : Dev nD) : (⟨k0_dev4 c, k0_dev4_lt c⟩ : Dev nD) = sh 2 c := Fin.ext (k0_dev4_eq c)
theorem dev5_eq (c : Dev nD) : (⟨k0_dev5 c, k0_dev5_lt c⟩ : Dev nD) = sh 1 c := Fin.ext (k0_dev5_eq c)
theorem dev6_eq (c : Dev nD) : (⟨k0_dev6 c, k0_dev6_lt c⟩ : Dev nD) = sh 3 c := Fin.ext (k0_dev6_eq c)

/-! ## The buffers, the four slots, the semaphores and the cells -/

abbrev xM : Memref sig .tc .vmem S512x256 .f32 := Memref.whole cc0_stg0_0
abbrev oM : Memref sig .tc .vmem S1x256 .f32 := Memref.whole cc0_stg1_0
abbrev cM : Memref sig .tc .vmem S4x1x256 .f32 := Memref.whole cc0_scratch0

/-- Row `d` of the scratch buffer as a rectangle of it; -/
abbrev rslot : Fin 4 → Rect S4x1x256 := fun
  | 0 => Rect.unit (s := S4x1x256) ![0, 0, 0] S1x1x256.size inb_S4x1x256_S1x1x256_0_0_0
  | 1 => Rect.unit (s := S4x1x256) ![1, 0, 0] S1x1x256.size inb_S4x1x256_S1x1x256_1_0_0
  | 2 => Rect.unit (s := S4x1x256) ![2, 0, 0] S1x1x256.size inb_S4x1x256_S1x1x256_2_0_0
  | 3 => Rect.unit (s := S4x1x256) ![3, 0, 0] S1x1x256.size inb_S4x1x256_S1x1x256_3_0_0
  | ⟨_ + 4, h⟩ => absurd h (Nat.not_lt.2 (Nat.le_add_left _ _))
/-- and as the one-row memref a copy reads or writes. -/
abbrev slot : Fin 4 → Memref sig .tc .vmem S1x256 .f32 := fun
  | 0 => ((cM.slice (Rect.unit (s := S4x1x256) ![0, 0, 0] S1x1x256.size inb_S4x1x256_S1x1x256_0_0_0) (fun _ => rfl) : Memref sig .tc .vmem S1x1x256 .f32)).squeeze S1x256 squeezes_S1x1x256_S1x256
  | 1 => ((cM.slice (Rect.unit (s := S4x1x256) ![1, 0, 0] S1x1x256.size inb_S4x1x256_S1x1x256_1_0_0) (fun _ => rfl) : Memref sig .tc .vmem S1x1x256 .f32)).squeeze S1x256 squeezes_S1x1x256_S1x256
  | 2 => ((cM.slice (Rect.unit (s := S4x1x256) ![2, 0, 0] S1x1x256.size inb_S4x1x256_S1x1x256_2_0_0) (fun _ => rfl) : Memref sig .tc .vmem S1x1x256 .f32)).squeeze S1x256 squeezes_S1x1x256_S1x256
  | 3 => ((cM.slice (Rect.unit (s := S4x1x256) ![3, 0, 0] S1x1x256.size inb_S4x1x256_S1x1x256_3_0_0) (fun _ => rfl) : Memref sig .tc .vmem S1x1x256 .f32)).squeeze S1x256 squeezes_S1x1x256_S1x256
  | ⟨_ + 4, h⟩ => absurd h (Nat.not_lt.2 (Nat.le_add_left _ _))

/-- The elements of the scratch buffer that row `d` covers. -/
abbrev slotSet : Fin 4 → Finset (S4x1x256.Idx) := fun
  | 0 => (slot 0).view.set
  | 1 => (slot 1).view.set
  | 2 => (slot 2).view.set
  | 3 => (slot 3).view.set
  | ⟨_ + 4, h⟩ => absurd h (Nat.not_lt.2 (Nat.le_add_left _ _))

/-- The runtime's barrier semaphore; the send and the receive semaphore of the copy `j + 1` places on. -/
abbrev barS : Sem sig := (SemArray.scalar (sig.barrier 0 rfl) : Sems sig S_).sem
abbrev sS : Fin 3 → DmaSems sig S_ := fun
  | 0 => (cc0_scratch1.slice (Rect.unit (s := S3) ![0] S1.size inb_S3_S1_0)).squeeze S_ squeezes_S1_S_
  | 1 => (cc0_scratch1.slice (Rect.unit (s := S3) ![1] S1.size inb_S3_S1_1)).squeeze S_ squeezes_S1_S_
  | 2 => (cc0_scratch1.slice (Rect.unit (s := S3) ![2] S1.size inb_S3_S1_2)).squeeze S_ squeezes_S1_S_
  | ⟨_ + 3, h⟩ => absurd h (Nat.not_lt.2 (Nat.le_add_left _ _))
abbrev rS : Fin 3 → DmaSems sig S_ := fun
  | 0 => (cc0_scratch2.slice (Rect.unit (s := S3) ![0] S1.size inb_S3_S1_0)).squeeze S_ squeezes_S1_S_
  | 1 => (cc0_scratch2.slice (Rect.unit (s := S3) ![1] S1.size inb_S3_S1_1)).squeeze S_ squeezes_S1_S_
  | 2 => (cc0_scratch2.slice (Rect.unit (s := S3) ![2] S1.size inb_S3_S1_2)).squeeze S_ squeezes_S1_S_
  | ⟨_ + 3, h⟩ => absurd h (Nat.not_lt.2 (Nat.le_add_left _ _))

abbrev barCell (c : Dev nD) : GSem nD τ sig := ((c : Thread nD τ), .reg barS)
abbrev sendCell (c : Dev nD) (j : Fin 3) : GSem nD τ sig := ((c : Thread nD τ), .dma (sS j).sem)
abbrev recvCell (c : Dev nD) (j : Fin 3) : GSem nD τ sig := ((c : Thread nD τ), .dma (rS j).sem)

/-- The kernel's OWN (scoped) semaphores, as the launch indexes them: the three send, then the three receive; -/
abbrev osem : Fin 6 → SemLoc sig := fun
  | 0 => .dma (sS 0).sem | 1 => .dma (sS 1).sem | 2 => .dma (sS 2).sem
  | 3 => .dma (rS 0).sem | 4 => .dma (rS 1).sem | 5 => .dma (rS 2).sem
  | ⟨_ + 6, h⟩ => absurd h (Nat.not_lt.2 (Nat.le_add_left _ _))
/-- all seven of the protocol's: the barrier first. -/
abbrev csem : Fin 7 → SemLoc sig := fun
  | 0 => .reg barS
  | 1 => .dma (sS 0).sem | 2 => .dma (sS 1).sem | 3 => .dma (sS 2).sem
  | 4 => .dma (rS 0).sem | 5 => .dma (rS 1).sem | 6 => .dma (rS 2).sem
  | ⟨_ + 7, h⟩ => absurd h (Nat.not_lt.2 (Nat.le_add_left _ _))
abbrev kcell (ck : Dev nD × Fin 7) : GSem nD τ sig := ((ck.1 : Thread nD τ), csem ck.2)

/-- The credit of one row's copy. -/
abbrev N : ℕ := (slot 1).view.dmaCredit

/-! ## Contents -/

/-- Device `c`'s block of `x`, as its staging buffer holds it. -/
def xblk (c : Dev nD) : (cc0_stg0_0 : Ref sig .tc).ty.Contents (Elt F) :=
  (win0_0.blk (0 : Fin 1)).view.read (Elt F) (m ((c : Thread nD τ).loc main_arg0))

/-- The column maxima of device `c`'s block: one row. -/
def lmax (c : Dev nD) : FVec F S1x1x256 .f32 := k0_pay1 (xblk m c)

/-- What device `c`'s scratch buffer holds once everything has landed: row `d` is the row of the device `d` places
    before `c` (`4 - d` places after it; row 0 its own). -/
def comm (c : Dev nD) : (cc0_scratch0 : Ref sig .tc).ty.Contents (Elt F) :=
  fun i => lmax m (sh (4 - (i 0).val) c) (ValueIdx.ix3 (0 : Fin 1) (i 1) (i 2))

/-- The kernel's result on device `c`: the maximum of rows 0, 1, 3 and 2 in the order the body folds them. -/
def outVal (c : Dev nD) : (cc0_stg1_0 : Ref sig .tc).ty.Contents (Elt F) :=
  k0_pay3 (k0_pay2 (lmax m c) (lmax m (sh 3 c))) (lmax m (sh 1 c)) (lmax m (sh 2 c))

/-- Rows `S` of device `c`'s scratch buffer at share `q` and contents `f`. -/
abbrev scr (c : Dev nD) (S : Finset (S4x1x256.Idx)) (q : PosShare TreeShare) (f : Buf (Elt F) ((c : Thread nD τ).loc cc0_scratch0)) : sProp 𝕄 :=
  ((c : Thread nD τ).loc cc0_scratch0) ↦[S]{q} f

/-! ## The schedule: one round -/

/-- What the device `e + 1` places after `c` hands `c` with its barrier unit (duty `e` of `c`'s barrier cell): its own
    row `e + 1`, where `c`'s copy lands, and that it stands at round 0 of the receive cell that copy completes on. -/
def barPay (c : Dev nD) (e : Fin 3) : sProp 𝕄 :=
  iprop((∃ f, scr (F := F) (sh (e.val + 1) c) (slotSet e.succ) fullShare f) ∗ reached ER (recvCell (sh (e.val + 1) c) e) 0)
/-- What the landing of the copy from `j + 1` places before hands `c`: its row `j + 1`, at the final contents. -/
def recvPay (c : Dev nD) (j : Fin 3) : sProp 𝕄 := scr c (slotSet j.succ) fullShare (comm m c)
/-- What the send side of `c`'s copy `j + 1` places on hands back: the read share of row 0 that copy was lent. -/
def sendPay (c : Dev nD) (j : Fin 3) : sProp 𝕄 := scr c (slotSet 0) (Transfers.shareTok fullShare 3 j) (comm m c)

abbrev IsBar (g : GSem nD τ sig) : Prop := g.1.2 = .tc ∧ g.2 = .reg barS
abbrev IsXfer (g : GSem nD τ sig) : Prop := g.1.2 = .tc ∧ ∃ j : Fin 3, g.2 = .dma (sS j).sem ∨ g.2 = .dma (rS j).sem

/-- Round 0 only. A barrier cell has three duties of one unit, duty `e` paid by the device `e + 1` places on; a send or
    a receive cell has the one duty `0` of a row's credit. -/
def Rd : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay g.1.1 d
    else if g.2 = .dma (rS 0).sem then recvPay m g.1.1 0
    else if g.2 = .dma (rS 1).sem then recvPay m g.1.1 1
    else if g.2 = .dma (rS 2).sem then recvPay m g.1.1 2
    else if g.2 = .dma (sS 0).sem then sendPay m g.1.1 0
    else if g.2 = .dma (sS 1).sem then sendPay m g.1.1 1
    else if g.2 = .dma (sS 2).sem then sendPay m g.1.1 2
    else iprop(emp)
  amount_pos g _ _ _ := by
    by_cases h : g.2 = .reg barS
    · rw [if_pos h]; exact Nat.one_pos
    · rw [if_neg h]; exact View.dmaCredit_pos _ (by decide)

/-! ## What a device owes at entry, and the levels -/

/-- Device `c` owes three receive credits and three barrier units, summed so that each signal and then each copy,
    in program order, peels the last summand. -/
def O₃ (c : Dev nD) : CellTallies nD τ sig Unit :=
  tallyAt (recvCell (sh 3 c) 2) () N + tallyAt (recvCell (sh 1 c) 0) () N + tallyAt (recvCell (sh 2 c) 1) () N
def O₂ (c : Dev nD) : CellTallies nD τ sig Unit := O₃ c + tallyAt (barCell (sh 3 c)) () 1
def O₁ (c : Dev nD) : CellTallies nD τ sig Unit := O₂ c + tallyAt (barCell (sh 2 c)) () 1
def O₀ (c : Dev nD) : CellTallies nD τ sig Unit := O₁ c + tallyAt (barCell (sh 1 c)) () 1

def L (g : GSem nD τ sig) : Finset Unit := if g.1.2 = .tc then {()} else ∅
/-- Barrier cells at 1, receive cells at 2, everything else (staging, send) at 0. -/
def lv (g : GSem nD τ sig) (_ : Unit) : ℕ :=
  if g.2 = .reg barS then 1 else if g.2 = .dma (rS 0).sem ∨ g.2 = .dma (rS 1).sem ∨ g.2 = .dma (rS 2).sem then 2 else 0

end Cert.Kernel.Coll

end
-- ==== Proof.Bits.Data.lean ====
/-
  What one device's body starts from and ends with.

  A device opens thirteen cell invariants: its own seven, the barrier cells of the three others (it signals them) and,
  of the device `j + 1` places on, the receive cell `j` (its copy lands there). It pays nine duties: one on each other
  device's barrier cell, one on each of those receive cells, and the send duty of each of its own three copies.
-/
import proofs.«900926_g7700000000000927_dist_max_ax0_shard0_i_m512_n256_v7x_i4_bf16_1_alg».proof.Proof.Bits.Sched

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The ghost state of one device -/

def invs (K : Dev nD × Fin 7 → ℕ) (c : Dev nD) : sProp 𝕄 :=
  iprop(cellInv ER (Rd m) (K (c, 0)) (barCell c)
    ∗ cellInv ER (Rd m) (K (c, 1)) (sendCell c 0) ∗ cellInv ER (Rd m) (K (c, 2)) (sendCell c 1) ∗ cellInv ER (Rd m) (K (c, 3)) (sendCell c 2)
    ∗ cellInv ER (Rd m) (K (c, 4)) (recvCell c 0) ∗ cellInv ER (Rd m) (K (c, 5)) (recvCell c 1) ∗ cellInv ER (Rd m) (K (c, 6)) (recvCell c 2)
    ∗ cellInv ER (Rd m) (K (sh 1 c, 0)) (barCell (sh 1 c)) ∗ cellInv ER (Rd m) (K (sh 2 c, 0)) (barCell (sh 2 c)) ∗ cellInv ER (Rd m) (K (sh 3 c, 0)) (barCell (sh 3 c))
    ∗ cellInv ER (Rd m) (K (sh 1 c, 4)) (recvCell (sh 1 c) 0) ∗ cellInv ER (Rd m) (K (sh 2 c, 5)) (recvCell (sh 2 c) 1) ∗ cellInv ER (Rd m) (K (sh 3 c, 6)) (recvCell (sh 3 c) 2))

instance invs_persistent (K : Dev nD × Fin 7 → ℕ) (c : Dev nD) : BI.Persistent (invs m K c) := by unfold invs; infer_instance

/-- Its positions at round 0 of its own seven cells. -/
def poss (c : Dev nD) : sProp 𝕄 :=
  iprop(atPos ER (barCell c) 0 ∅ 0
    ∗ atPos ER (sendCell c 0) 0 ∅ 0 ∗ atPos ER (sendCell c 1) 0 ∅ 0 ∗ atPos ER (sendCell c 2) 0 ∅ 0
    ∗ atPos ER (recvCell c 0) 0 ∅ 0 ∗ atPos ER (recvCell c 1) 0 ∅ 0 ∗ atPos ER (recvCell c 2) 0 ∅ 0)

/-- That round 0 is reached: of the cells it pays, and of its own send and receive cells. -/
def marks (c : Dev nD) : sProp 𝕄 :=
  iprop(reached ER (barCell (sh 1 c)) 0 ∗ reached ER (barCell (sh 2 c)) 0 ∗ reached ER (barCell (sh 3 c)) 0
    ∗ reached ER (recvCell (sh 1 c) 0) 0 ∗ reached ER (recvCell (sh 2 c) 1) 0 ∗ reached ER (recvCell (sh 3 c) 2) 0
    ∗ reached ER (sendCell c 0) 0 ∗ reached ER (sendCell c 1) 0 ∗ reached ER (sendCell c 2) 0
    ∗ reached ER (recvCell c 0) 0 ∗ reached ER (recvCell c 1) 0 ∗ reached ER (recvCell c 2) 0)

instance marks_persistent (c : Dev nD) : BI.Persistent (marks (F := F) c) := by unfold marks; infer_instance

/-- The tokens of the nine duties it pays: the signal `k` places on pays duty `3 - k` there; the copy `j + 1` places on
    pays the one duty of the receive cell `j` there and of its own send cell `j`. -/
def payToks (c : Dev nD) : sProp 𝕄 :=
  iprop(dutyTok ER (barCell (sh 1 c)) 0 (2 : Fin 3) ∗ dutyTok ER (barCell (sh 2 c)) 0 (1 : Fin 3) ∗ dutyTok ER (barCell (sh 3 c)) 0 (0 : Fin 3)
    ∗ dutyTok ER (recvCell (sh 1 c) 0) 0 (0 : Fin 3) ∗ dutyTok ER (recvCell (sh 2 c) 1) 0 (0 : Fin 3) ∗ dutyTok ER (recvCell (sh 3 c) 2) 0 (0 : Fin 3)
    ∗ dutyTok ER (sendCell c 0) 0 (0 : Fin 3) ∗ dutyTok ER (sendCell c 1) 0 (0 : Fin 3) ∗ dutyTok ER (sendCell c 2) 0 (0 : Fin 3))

def ghost (K : Dev nD × Fin 7 → ℕ) (c : Dev nD) : sProp 𝕄 :=
  iprop(invs m K c ∗ poss c ∗ marks c ∗ payToks c)

/-- The credit tokens of its own waits: three barrier units, one row's credit on each receive cell. -/
def creds (c : Dev nD) : sProp 𝕄 :=
  iprop(cred (tallyAt (barCell c) () 3)
    ∗ cred (tallyAt (recvCell c 0) () N) ∗ cred (tallyAt (recvCell c 1) () N) ∗ cred (tallyAt (recvCell c 2) () N))

/-- What device `c`'s body starts from, the scratch buffer apart. -/
def start (c : Dev nD) : sProp 𝕄 :=
  iprop((∃ K, ghost m K c) ∗ creds c ∗ levAts L lv)

def Φ₀ (c : Dev nD) : sProp 𝕄 :=
  iprop(start m c ∗ ∃ f : Buf (Elt F) ((c : Thread nD τ).loc cc0_scratch0), ((c : Thread nD τ).loc cc0_scratch0) ↦{fullShare} f)
/-- After the body: the scratch buffer whole at its final contents, the six own cells at zero, closed. -/
def Φ₁ (c : Dev nD) : sProp 𝕄 :=
  iprop((((c : Thread nD τ).loc cc0_scratch0) ↦{fullShare} comm m c)
    ∗ semVal (sendCell c 0) 0 ∗ semVal (sendCell c 1) 0 ∗ semVal (sendCell c 2) 0
    ∗ semVal (recvCell c 0) 0 ∗ semVal (recvCell c 1) 0 ∗ semVal (recvCell c 2) 0)

/-! ## The pipeline's proof data: one point, the input window left as fetched, the output window at the result -/

def dats (_ : Fin 1) (c : Dev nD) : Dat τ (Elt F) Unit ℕ UU ℕ cfg0 c where
  A w := (st0 m ρ).mem ((cfg0.win w).arr.view.loc (c : Thread nD τ))
  after w _ := match w with
    | ⟨0, _⟩ => xblk m c
    | ⟨1, _⟩ => outVal m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- A staging buffer whole at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body's precondition, the ghost names `K` fixed. -/
def bodyPre (K : Dev nD × Fin 7 → ℕ) (c : Dev nD) : sProp 𝕄 :=
  iprop((ghost m K c ∗ creds c ∗ levAts L lv ∗ ∃ f : Buf (Elt F) ((c : Thread nD τ).loc cc0_scratch0), ((c : Thread nD τ).loc cc0_scratch0) ↦{fullShare} f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m c ∗ (dats m ρ 0 c).owesAt () t₀.succ ∗ stg c cc0_stg0_0 (xblk m c) ∗ stg c cc0_stg1_0 (outVal m c))

end Cert.Kernel.Coll

end
-- ==== Proof.Bits.Tables.lean ====
/-
  The schedule's tables, one lemma per cell and column, the two wait-level facts, and what each row of the scratch
  buffer reads as.
-/
import proofs.«900926_g7700000000000927_dist_max_ax0_shard0_i_m512_n256_v7x_i4_bf16_1_alg».proof.Proof.Bits.Sched

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells are pairwise distinct -/

theorem send_ne_bar (j : Fin 3) : (SemLoc.dma (sS j).sem : SemLoc sig) ≠ .reg barS := fun h => by cases h
theorem recv_ne_bar (j : Fin 3) : (SemLoc.dma (rS j).sem : SemLoc sig) ≠ .reg barS := fun h => by cases h
theorem send_ne_recv (i j : Fin 3) : (SemLoc.dma (sS i).sem : SemLoc sig) ≠ .dma (rS j).sem := by revert i j; decide
theorem send_inj {i j : Fin 3} (h : (SemLoc.dma (sS i).sem : SemLoc sig) = .dma (sS j).sem) : i = j := by revert i j; decide
theorem recv_inj {i j : Fin 3} (h : (SemLoc.dma (rS i).sem : SemLoc sig) = .dma (rS j).sem) : i = j := by revert i j; decide

/-! ## The schedule, column by column -/

section Sched
variable (c : Dev nD) (j : Fin 3)

private theorem not_bar_send : ¬ IsBar (sendCell c j) := fun h => send_ne_bar j h.2
private theorem not_bar_recv : ¬ IsBar (recvCell c j) := fun h => recv_ne_bar j h.2

theorem duties_bar : (Rd (F := F) m).duties (barCell c) 0 = Finset.univ := by
  dsimp only [Rd]; exact if_pos ⟨rfl, rfl, rfl⟩
theorem duties_send : (Rd (F := F) m).duties (sendCell c j) 0 = {0} := by
  dsimp only [Rd]; rw [if_neg (fun h => not_bar_send c j h.2)]; exact if_pos ⟨rfl, rfl, j, .inl rfl⟩
theorem duties_recv : (Rd (F := F) m).duties (recvCell c j) 0 = {0} := by
  dsimp only [Rd]; rw [if_neg (fun h => not_bar_recv c j h.2)]; exact if_pos ⟨rfl, rfl, j, .inr rfl⟩
theorem duties_later (g : GSem nD τ sig) : ∀ r, 1 ≤ r → (Rd (F := F) m).duties g r = ∅ :=
  fun r hr => by dsimp only [Rd]; rw [if_neg fun h => by omega, if_neg fun h => by omega]

theorem amount_bar (d : Fin 3) : (Rd (F := F) m).amount (barCell c) 0 d = 1 := by dsimp only [Rd]; exact if_pos rfl
theorem amount_send (d : Fin 3) : (Rd (F := F) m).amount (sendCell c j) 0 d = N := by dsimp only [Rd]; exact if_neg (send_ne_bar j)
theorem amount_recv (d : Fin 3) : (Rd (F := F) m).amount (recvCell c j) 0 d = N := by dsimp only [Rd]; exact if_neg (recv_ne_bar j)

theorem expect_bar : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (Rd (F := F) m).expect (sendCell c j) 0 = N := by
  unfold Schedule.expect Schedule.amountOf; rw [duties_send, Finset.sum_singleton, amount_send]
theorem expect_recv : (Rd (F := F) m).expect (recvCell c j) 0 = N := by
  unfold Schedule.expect Schedule.amountOf; rw [duties_recv, Finset.sum_singleton, amount_recv]

theorem payload_bar (e : Fin 3) : (Rd (F := F) m).payload (barCell c) 0 e = barPay c e := by dsimp only [Rd]; rw [if_pos rfl]
theorem payload_send (d : Fin 3) : (Rd (F := F) m).payload (sendCell c j) 0 d = sendPay m c j := by
  dsimp only [Rd]
  rw [if_neg (send_ne_bar j), if_neg (send_ne_recv j 0), if_neg (send_ne_recv j 1), if_neg (send_ne_recv j 2)]
  fin_cases j
  · exact if_pos rfl
  · rw [if_neg (fun h => absurd (send_inj h) (by decide))]; exact if_pos rfl
  · rw [if_neg (fun h => absurd (send_inj h) (by decide)), if_neg (fun h => absurd (send_inj h) (by decide))]; exact if_pos rfl
theorem payload_recv (d : Fin 3) : (Rd (F := F) m).payload (recvCell c j) 0 d = recvPay m c j := by
  dsimp only [Rd]
  rw [if_neg (recv_ne_bar j)]
  fin_cases j
  · exact if_pos rfl
  · rw [if_neg (fun h => absurd (recv_inj h) (by decide))]; exact if_pos rfl
  · rw [if_neg (fun h => absurd (recv_inj h) (by decide)), if_neg (fun h => absurd (recv_inj h) (by decide))]; exact if_pos rfl

/-- The whole of the barrier cell's round, no duty taken: the three devices' payloads, the nearest first. -/
theorem rest_bar : bigSep ((Rd (F := F) m).duties (barCell c) 0 \ ∅) (fun d => (Rd (F := F) m).payload (barCell c) 0 d)
    = iprop(barPay (F := F) c 0 ∗ barPay c 1 ∗ barPay c 2) := by
  rw [Finset.sdiff_empty, duties_bar, bigSep_univ_eq_bigSepL [0, 1, 2] (by decide) (by decide), bigSepL_cons_cons, bigSepL_cons_cons, bigSepL_singleton,
    payload_bar, payload_bar, payload_bar]
  rfl
theorem rest_send : bigSep ((Rd (F := F) m).duties (sendCell c j) 0 \ ∅) (fun d => (Rd (F := F) m).payload (sendCell c j) 0 d) = sendPay m c j := by
  rw [Finset.sdiff_empty, duties_send, bigSep_singleton, payload_send]
theorem rest_recv : bigSep ((Rd (F := F) m).duties (recvCell c j) 0 \ ∅) (fun d => (Rd (F := F) m).payload (recvCell c j) 0 d) = recvPay m c j := by
  rw [Finset.sdiff_empty, duties_recv, bigSep_singleton, payload_recv]

end Sched

instance Rd_payload_storable (g : GSem nD τ sig) (r : ℕ) (d : Fin 3) :
    BI.Storable (upEmb : UEmb _ 𝕄) ((Rd (F := F) m).payload g r d) := by
  show BI.Storable upEmb (if g.2 = .reg barS then barPay g.1.1 d
    else if g.2 = .dma (rS 0).sem then recvPay m g.1.1 0
    else if g.2 = .dma (rS 1).sem then recvPay m g.1.1 1
    else if g.2 = .dma (rS 2).sem then recvPay m g.1.1 2
    else if g.2 = .dma (sS 0).sem then sendPay m g.1.1 0
    else if g.2 = .dma (sS 1).sem then sendPay m g.1.1 1
    else if g.2 = .dma (sS 2).sem then sendPay m g.1.1 2
    else iprop(emp))
  unfold barPay recvPay sendPay
  (repeat' split) <;> infer_instance

/-- One row's credit is the same whichever row: what every copy of the protocol pays. -/
theorem amount_slot (d : Fin 4) (sm : DmaSem sig) : (slot d).view.amount (.dma sm) = N := by
  fin_cases d <;> rfl
theorem N_pos : 0 < N := View.dmaCredit_pos _ (by decide)

/-! ## The levels -/

theorem L_of_ne (g : GSem nD τ sig) (h : g.1.2 ≠ .tc) : L g = ∅ := if_neg h
theorem L_tc (c : Dev nD) (sm : SemLoc sig) : L ((c : Thread nD τ), sm) = {()} := if_pos rfl

/-- What a device still owes at its barrier wait sits on a receive cell of another device. -/
private theorem O₃_pos {c : Dev nD} {g : GSem nD τ sig} {u : Unit} (h : 0 < O₃ c g u) :
    g = recvCell (sh 3 c) 2 ∨ g = recvCell (sh 1 c) 0 ∨ g = recvCell (sh 2 c) 1 := by
  unfold O₃ at h
  simp only [Pi.add_apply, Finsupp.add_apply, tallyAt_apply] at h
  by_contra hn
  simp only [not_or] at hn
  obtain ⟨h1, h2, h3⟩ := hn
  rw [if_neg (fun h' => h1 h'.1), if_neg (fun h' => h2 h'.1), if_neg (fun h' => h3 h'.1)] at h
  exact Nat.lt_irrefl 0 h

/-- What a device owes at entry sits on a receive cell or a barrier cell of another device. -/
theorem O₀_pos {c : Dev nD} {g : GSem nD τ sig} {u : Unit} (h : 0 < O₀ c g u) :
    g = recvCell (sh 3 c) 2 ∨ g = recvCell (sh 1 c) 0 ∨ g = recvCell (sh 2 c) 1
      ∨ g = barCell (sh 3 c) ∨ g = barCell (sh 2 c) ∨ g = barCell (sh 1 c) := by
  unfold O₀ O₁ O₂ O₃ at h
  simp only [Pi.add_apply, Finsupp.add_apply, tallyAt_apply] at h
  by_contra hn
  simp only [not_or] at hn
  obtain ⟨h1, h2, h3, h4, h5, h6⟩ := hn
  rw [if_neg (fun h' => h1 h'.1), if_neg (fun h' => h2 h'.1), if_neg (fun h' => h3 h'.1),
    if_neg (fun h' => h4 h'.1), if_neg (fun h' => h5 h'.1), if_neg (fun h' => h6 h'.1)] at h
  exact Nat.lt_irrefl 0 h

private theorem lv_recv (c : Dev nD) (j : Fin 3) : lv (recvCell c j) () = 2 := by
  dsimp only [lv]; rw [if_neg (recv_ne_bar j)]
  refine if_pos ?_
  fin_cases j
  · exact .inl rfl
  · exact .inr (.inl rfl)
  · exact .inr (.inr rfl)
private theorem lv_bar (c : Dev nD) : lv (barCell c) () = 1 := by dsimp only [lv]; exact if_pos rfl

/-- A wait on a staging semaphore or a send semaphore (level 0) is below everything a device may owe. -/
theorem mayWait_low (c : Dev nD) (q : DmaSem sig) (hq : ∀ j : Fin 3, SemLoc.dma q ≠ .dma (rS j).sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl | rfl | rfl | rfl <;> exact Finset.mem_singleton_self _)
      (fun p hp => by
        rw [Finset.mem_singleton.mp hp]; dsimp only [lv]
        rw [if_neg (fun h => by cases h), if_neg (fun h => by rcases h with h | h | h; exacts [hq 0 h, hq 1 h, hq 2 h])])
      (fun g u hg => by
        rcases O₀_pos hg with rfl | rfl | rfl | rfl | rfl | rfl
        · rw [lv_recv]; decide
        · rw [lv_recv]; decide
        · rw [lv_recv]; decide
        · rw [lv_bar]; decide
        · rw [lv_bar]; decide
        · rw [lv_bar]; decide)
  · rw [MayWait_zero]; iintro -; iempintro

/-- At its barrier wait a device owes the three receive credits only: receive cells, above its barrier cell. -/
theorem mayWait_bar (c : Dev nD) :
    (levAts L lv : sProp 𝕄) ⊢ MayWait (c : Thread nD τ) (.reg barS) () (O₃ c) :=
  MayOwe.of_cut (L := L) (lev := lv) 1 (fun p hp => by rw [Finset.mem_singleton.mp hp, L_tc]; exact Finset.mem_singleton_self _)
    (fun g u hg => by rcases O₃_pos hg with rfl | rfl | rfl <;> exact Finset.mem_singleton_self _)
    (fun p hp => by rw [Finset.mem_singleton.mp hp]; dsimp only [lv]; rw [if_pos rfl])
    (fun g u hg => by
      rcases O₃_pos hg with rfl | rfl | rfl
      · rw [lv_recv]; decide
      · rw [lv_recv]; decide
      · rw [lv_recv]; decide)

/-! ## The rows of the scratch buffer -/

/-- The final contents at an element `i` of row `k`, column as `z`'s: the row of the device `4 - k` places on, at `z`. -/
private theorem comm_at (c : Dev nD) (k : ℕ) (i : S4x1x256.Idx) (z : S1x1x256.Idx) (h0 : (i 0).val = k) (h2 : (i 2).val = (z 2).val) :
    comm m c i = lmax m (sh (4 - k) c) z := by
  have z0 : (z 0).val = 0 := by have h : (z 0).val < 1 := (z 0).isLt; omega
  have z1 : (z 1).val = 0 := by have h : (z 1).val < 1 := (z 1).isLt; omega
  have i1 : (i 1).val = 0 := by have h : (i 1).val < 1 := (i 1).isLt; omega
  unfold comm
  rw [h0]
  congr 1
  funext a
  match a with
  | ⟨0, _⟩ => exact Fin.ext z0.symm
  | ⟨1, _⟩ => exact Fin.ext (i1.trans z1.symm)
  | ⟨2, _⟩ => exact Fin.ext h2

/-- The same under the rectangle of row `k`, at the place of the row's element `z`. -/
private theorem comm_unit (c : Dev nD) (k : ℕ) (inb : ∀ a, (![k, 0, 0] : Fin 3 → Nat) a + S1x1x256.size a ≤ S4x1x256.size a) (z : S1x1x256.Idx) :
    comm m c ((Rect.unit (s := S4x1x256) ![k, 0, 0] S1x1x256.size inb).emb z) = lmax m (sh (4 - k) c) z :=
  comm_at m c k _ z (by show k + 1 * (z 0).val = k; have h : (z 0).val < 1 := (z 0).isLt; omega)
    (by show 0 + 1 * (z 2).val = (z 2).val; omega)

/-- Row 0's one-row view places its elements where the rectangle of row 0 does. -/
private theorem slot_emb (y : S1x256.Idx) : ∃ z : S1x1x256.Idx, (slot 0).view.emb y = (rslot 0).emb z :=
  ⟨Shape.reshapeEquiv squeezes_S1x1x256_S1x256.numel_eq y, rfl⟩

private theorem readAt_cM (r : Rect S4x1x256) (g : (cc0_scratch0 : Ref sig .tc).ty.Contents (Elt F)) (x : r.shape.Idx) :
    (cM : Memref sig .tc .vmem S4x1x256 .f32).view.readAt (Elt F) r.toLoadRect g x = g (r.emb x) := rfl

/-- Row `d` of the final contents is the row of the device `4 - d` places on. -/
theorem read_row0 (c : Dev nD) :
    (cM : Memref sig .tc .vmem S4x1x256 .f32).view.readAt (Elt F) (rslot 0).toLoadRect (comm m c) = lmax m c := by
  funext x
  rw [readAt_cM]
  refine (comm_unit m c 0 _ x).trans ?_
  show lmax m (sh 4 c) x = _
  rw [sh_four]
theorem read_row1 (c : Dev nD) :
    (cM : Memref sig .tc .vmem S4x1x256 .f32).view.readAt (Elt F) (rslot 1).toLoadRect (comm m c) = lmax m (sh 3 c) := by
  funext x
  rw [readAt_cM]
  exact comm_unit m c 1 _ x
theorem read_row2 (c : Dev nD) :
    (cM : Memref sig .tc .vmem S4x1x256 .f32).view.readAt (Elt F) (rslot 2).toLoadRect (comm m c) = lmax m (sh 2 c) := by
  funext x
  rw [readAt_cM]
  exact comm_unit m c 2 _ x
theorem read_row3 (c : Dev nD) :
    (cM : Memref sig .tc .vmem S4x1x256 .f32).view.readAt (Elt F) (rslot 3).toLoadRect (comm m c) = lmax m (sh 1 c) := by
  funext x
  rw [readAt_cM]
  exact comm_unit m c 3 _ x

/-- Storing a device's own row into row 0 gives the final contents there. -/
theorem store_row0 (c : Dev nD) (f : Buf (Elt F) ((c : Thread nD τ).loc cc0_scratch0)) :
    ∀ i ∈ slotSet 0, ((cM : Memref sig .tc .vmem S4x1x256 .f32).access (rslot 0) : View sig .tc _ _ _).write (Elt F) f (lmax m c) Finset.univ i = comm m c i := by
  intro i hi
  obtain ⟨y, -, hy⟩ := Finset.mem_map.mp hi
  have hy' : (slot 0).view.emb y = i := hy
  obtain ⟨z, hz⟩ := slot_emb y
  rw [← hy', hz]
  have hw := View.write_emb_of_mem (v := ((cM : Memref sig .tc .vmem S4x1x256 .f32).access (rslot 0) : View sig .tc _ _ _)) (Val := Elt F) f (lmax m c)
    (M := Finset.univ) (x := z) (Finset.mem_univ z)
  refine hw.trans ((cast_eq _ _).trans ?_)
  refine ((comm_unit m c 0 _ z).trans ?_).symm
  show lmax m (sh 4 c) z = _
  rw [sh_four]

/-- info: 'Cert.Kernel.Coll.rest_bar' depends on axioms: [propext, Classical.choice, Quot.sound] -/
#guard_msgs in #print axioms rest_bar

/-- info: 'Cert.Kernel.Coll.mayWait_low' depends on axioms: [propext, Classical.choice, Quot.sound] -/
#guard_msgs in #print axioms mayWait_low

/-- info: 'Cert.Kernel.Coll.mayWait_bar' depends on axioms: [propext, Classical.choice, Quot.sound] -/
#guard_msgs in #print axioms mayWait_bar

/-- info: 'Cert.Kernel.Coll.read_row0' depends on axioms: [propext, Classical.choice, Quot.sound] -/
#guard_msgs in #print axioms read_row0

/-- info: 'Cert.Kernel.Coll.store_row0' depends on axioms: [propext, Classical.choice, Quot.sound] -/
#guard_msgs in #print axioms store_row0

end Cert.Kernel.Coll

end
-- ==== Proof.Bits.Rows.lean ====
/-
  The rows of the scratch buffer as sets of its elements: they tile it, and what a copy lands in a row is that row of
  the final contents.

  Row `d` of the 4 × 1 × 256 buffer is the rectangle of one row at offset `(d, 0, 0)`, read as a 1 × 256 array: its
  elements are the indices whose first coordinate is `d`, and its column `q` sits at `(d, 0, q)`. The final contents of
  device `c` hold at row `d` the row of the device `4 - d` places after `c`. So row 0 of `c` is `c`'s own row, and row `d`
  of the device `d` places after `c` is the row of the device `(4 - d) + d = 4` places after `c`: `c`'s own row again.
-/
import proofs.«900926_g7700000000000927_dist_max_ax0_shard0_i_m512_n256_v7x_i4_bf16_1_alg».proof.Proof.Bits.Sched
import Idealize.ShloMosaic.Lib.ValueLayout
import Idealize.ShloMosaic.Lib.Pipeline.Value

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## A row as a set of elements -/

/-- The elements of the one-row rectangle at offset `(k, 0, 0)`: the indices whose first coordinate is `k`. -/
theorem mem_rowRect (k : ℕ) (inb : ∀ a, (![k, 0, 0] : Fin 3 → ℕ) a + S1x1x256.size a ≤ S4x1x256.size a)
    (i : S4x1x256.Idx) :
    i ∈ (Rect.unit (s := S4x1x256) ![k, 0, 0] S1x1x256.size inb).set ↔ (i 0).val = k := by
  rw [Rect.mem_set_unit]
  constructor
  · intro h
    have h0 : k ≤ (i 0).val ∧ (i 0).val < k + 1 := h 0
    omega
  · intro h a
    match a with
    | ⟨0, _⟩ => show k ≤ (i 0).val ∧ (i 0).val < k + 1; omega
    | ⟨1, _⟩ =>
      have h1 : (i 1).val < 1 := (i 1).isLt
      show 0 ≤ (i 1).val ∧ (i 1).val < 0 + 1; omega
    | ⟨2, _⟩ =>
      have h2 : (i 2).val < 256 := (i 2).isLt
      show 0 ≤ (i 2).val ∧ (i 2).val < 0 + 256; omega

/-- Re-indexing a rectangle of the whole buffer changes none of its elements. -/
theorem slotSet_eq0 : slotSet 0 = (Rect.unit (s := S4x1x256) ![0, 0, 0] S1x1x256.size inb_S4x1x256_S1x1x256_0_0_0).set :=
  (View.set_reshape _ _).trans (View.set_slice_whole _ _)
theorem slotSet_eq1 : slotSet 1 = (Rect.unit (s := S4x1x256) ![1, 0, 0] S1x1x256.size inb_S4x1x256_S1x1x256_1_0_0).set :=
  (View.set_reshape _ _).trans (View.set_slice_whole _ _)
theorem slotSet_eq2 : slotSet 2 = (Rect.unit (s := S4x1x256) ![2, 0, 0] S1x1x256.size inb_S4x1x256_S1x1x256_2_0_0).set :=
  (View.set_reshape _ _).trans (View.set_slice_whole _ _)
theorem slotSet_eq3 : slotSet 3 = (Rect.unit (s := S4x1x256) ![3, 0, 0] S1x1x256.size inb_S4x1x256_S1x1x256_3_0_0).set :=
  (View.set_reshape _ _).trans (View.set_slice_whole _ _)

/-- Row `d` is the set of indices whose first coordinate is `d`. -/
theorem mem_slotSet (d : Fin 4) (i : S4x1x256.Idx) : i ∈ slotSet d ↔ (i 0).val = d.val :=
  match d with
  | 0 => by rw [slotSet_eq0]; exact mem_rowRect 0 _ i
  | 1 => by rw [slotSet_eq1]; exact mem_rowRect 1 _ i
  | 2 => by rw [slotSet_eq2]; exact mem_rowRect 2 _ i
  | 3 => by rw [slotSet_eq3]; exact mem_rowRect 3 _ i
  | ⟨_ + 4, h⟩ => absurd h (Nat.not_lt.2 (Nat.le_add_left _ _))

/-! ## Where a row's columns sit -/

/-- Column `q` of the one-row rectangle at offset `(k, 0, 0)`, read as a 1 × 256 array, is the element `(k, 0, q)`. -/
theorem rowRect_emb (k : ℕ) (hk : k < 4)
    (inb : ∀ a, (![k, 0, 0] : Fin 3 → ℕ) a + S1x1x256.size a ≤ S4x1x256.size a)
    (h : S1x256.numel = S1x1x256.numel) (q : Fin 256) :
    (Rect.unit (s := S4x1x256) ![k, 0, 0] S1x1x256.size inb).emb (Shape.reshapeEquiv h (ix2 (0 : Fin 1) q))
      = (ix3 (⟨k, hk⟩ : Fin 4) (0 : Fin 1) q : S4x1x256.Idx) := by
  rw [reshapeEquiv_ix2_1ab]
  funext a
  apply Fin.ext
  rw [Rect.emb_apply]
  match a with
  | ⟨0, _⟩ => show k + 1 * 0 = k; omega
  | ⟨1, _⟩ => rfl
  | ⟨2, _⟩ => show 0 + 1 * q.val = q.val; omega

theorem slot_emb0 (q : Fin 256) :
    (slot 0).view.emb (ix2 (0 : Fin 1) q) = (ix3 (0 : Fin 4) (0 : Fin 1) q : S4x1x256.Idx) :=
  rowRect_emb 0 (by decide) _ _ q
theorem slot_emb1 (q : Fin 256) :
    (slot 1).view.emb (ix2 (0 : Fin 1) q) = (ix3 (1 : Fin 4) (0 : Fin 1) q : S4x1x256.Idx) :=
  rowRect_emb 1 (by decide) _ _ q
theorem slot_emb2 (q : Fin 256) :
    (slot 2).view.emb (ix2 (0 : Fin 1) q) = (ix3 (2 : Fin 4) (0 : Fin 1) q : S4x1x256.Idx) :=
  rowRect_emb 2 (by decide) _ _ q
theorem slot_emb3 (q : Fin 256) :
    (slot 3).view.emb (ix2 (0 : Fin 1) q) = (ix3 (3 : Fin 4) (0 : Fin 1) q : S4x1x256.Idx) :=
  rowRect_emb 3 (by decide) _ _ q

/-! ## The final contents at a row -/

/-- Row 0 of the final contents of `c` is `c`'s own row; -/
theorem comm_row0 (c : Dev nD) (q : Fin 256) :
    comm m c (ix3 (0 : Fin 4) (0 : Fin 1) q) = lmax m c (ix3 (0 : Fin 1) (0 : Fin 1) q) := by
  show lmax m (sh 4 c) _ = _
  rw [sh_four]
  rfl

/-- and so is row `d` of the final contents of the device `d` places after `c`. -/
theorem comm_row1 (c : Dev nD) (q : Fin 256) :
    comm m (sh 1 c) (ix3 (1 : Fin 4) (0 : Fin 1) q) = lmax m c (ix3 (0 : Fin 1) (0 : Fin 1) q) := by
  show lmax m (sh 3 (sh 1 c)) _ = _
  rw [sh_sh, sh_four]
  rfl
theorem comm_row2 (c : Dev nD) (q : Fin 256) :
    comm m (sh 2 c) (ix3 (2 : Fin 4) (0 : Fin 1) q) = lmax m c (ix3 (0 : Fin 1) (0 : Fin 1) q) := by
  show lmax m (sh 2 (sh 2 c)) _ = _
  rw [sh_sh, sh_four]
  rfl
theorem comm_row3 (c : Dev nD) (q : Fin 256) :
    comm m (sh 3 c) (ix3 (3 : Fin 4) (0 : Fin 1) q) = lmax m c (ix3 (0 : Fin 1) (0 : Fin 1) q) := by
  show lmax m (sh 1 (sh 3 c)) _ = _
  rw [sh_sh, sh_four]
  rfl

/-! ## What a copy lands -/

/-- What the copy `j + 1` places on lands — row 0 of `c` written over row `j + 1` there — is the final contents there. -/
theorem land_row1 (c : Dev nD) (fd : Buf (Elt F) (((sh 1 c : Dev nD) : Thread nD τ).loc cc0_scratch0)) :
    ∀ i ∈ slotSet 1, (slot 1).view.write (Elt F) fd ((slot 0).view.read (Elt F) (comm m c)) Finset.univ i = comm m (sh 1 c) i := by
  intro i hi
  obtain ⟨y, rfl⟩ := View.exists_emb_of_mem_set (slot 1).view hi
  obtain ⟨u, q, rfl⟩ : ∃ (u : Fin 1) (q : Fin 256), y = ix2 u q := ⟨y 0, y 1, eq_ix2 y⟩
  obtain rfl : u = 0 := Subsingleton.elim _ _
  refine (View.write_emb_of_mem _ _ (Finset.mem_univ _)).trans ?_
  refine (cast_eq _ _).trans ?_
  refine (View.read_apply _ _).trans ?_
  refine (cast_eq _ _).trans ?_
  rw [slot_emb0, slot_emb1, comm_row0, comm_row1]
theorem land_row2 (c : Dev nD) (fd : Buf (Elt F) (((sh 2 c : Dev nD) : Thread nD τ).loc cc0_scratch0)) :
    ∀ i ∈ slotSet 2, (slot 2).view.write (Elt F) fd ((slot 0).view.read (Elt F) (comm m c)) Finset.univ i = comm m (sh 2 c) i := by
  intro i hi
  obtain ⟨y, rfl⟩ := View.exists_emb_of_mem_set (slot 2).view hi
  obtain ⟨u, q, rfl⟩ : ∃ (u : Fin 1) (q : Fin 256), y = ix2 u q := ⟨y 0, y 1, eq_ix2 y⟩
  obtain rfl : u = 0 := Subsingleton.elim _ _
  refine (View.write_emb_of_mem _ _ (Finset.mem_univ _)).trans ?_
  refine (cast_eq _ _).trans ?_
  refine (View.read_apply _ _).trans ?_
  refine (cast_eq _ _).trans ?_
  rw [slot_emb0, slot_emb2, comm_row0, comm_row2]
theorem land_row3 (c : Dev nD) (fd : Buf (Elt F) (((sh 3 c : Dev nD) : Thread nD τ).loc cc0_scratch0)) :
    ∀ i ∈ slotSet 3, (slot 3).view.write (Elt F) fd ((slot 0).view.read (Elt F) (comm m c)) Finset.univ i = comm m (sh 3 c) i := by
  intro i hi
  obtain ⟨y, rfl⟩ := View.exists_emb_of_mem_set (slot 3).view hi
  obtain ⟨u, q, rfl⟩ : ∃ (u : Fin 1) (q : Fin 256), y = ix2 u q := ⟨y 0, y 1, eq_ix2 y⟩
  obtain rfl : u = 0 := Subsingleton.elim _ _
  refine (View.write_emb_of_mem _ _ (Finset.mem_univ _)).trans ?_
  refine (cast_eq _ _).trans ?_
  refine (View.read_apply _ _).trans ?_
  refine (cast_eq _ _).trans ?_
  rw [slot_emb0, slot_emb3, comm_row0, comm_row3]

/-- The four rows are the whole buffer, disjointly. -/
theorem rows_cover : (Finset.univ : Finset S4x1x256.Idx) = slotSet 0 ∪ slotSet 1 ∪ slotSet 2 ∪ slotSet 3 := by
  ext i
  refine ⟨fun _ => ?_, fun _ => Finset.mem_univ _⟩
  have h4 : (i 0).val < 4 := (i 0).isLt
  rcases (by omega : (i 0).val = 0 ∨ (i 0).val = 1 ∨ (i 0).val = 2 ∨ (i 0).val = 3) with h | h | h | h
  · exact Finset.mem_union_left _ (Finset.mem_union_left _ (Finset.mem_union_left _ ((mem_slotSet 0 i).2 h)))
  · exact Finset.mem_union_left _ (Finset.mem_union_left _ (Finset.mem_union_right _ ((mem_slotSet 1 i).2 h)))
  · exact Finset.mem_union_left _ (Finset.mem_union_right _ ((mem_slotSet 2 i).2 h))
  · exact Finset.mem_union_right _ ((mem_slotSet 3 i).2 h)
theorem rows_disjoint (d d' : Fin 4) (h : d ≠ d') : Disjoint (slotSet d) (slotSet d') :=
  Finset.disjoint_left.2 fun i hi hi' =>
    h (Fin.ext (((mem_slotSet d i).1 hi).symm.trans ((mem_slotSet d' i).1 hi')))

/-- info: 'Cert.Kernel.Coll.land_row3' depends on axioms: [propext, Classical.choice, Quot.sound] -/
#guard_msgs in #print axioms land_row3

end Cert.Kernel.Coll

end
-- ==== Proof.Bits.Body.lean ====
/-
  One device's body, stepped from its invariant: the three entry signals, the device's own row of column maxima,
  the barrier wait, the three copies of that row, the receive waits with the four reads and the result, the send waits,
  and the six own cells closed.
-/
import proofs.«900926_g7700000000000927_dist_max_ax0_shard0_i_m512_n256_v7x_i4_bf16_1_alg».proof.Proof.Bits.Data
import proofs.«900926_g7700000000000927_dist_max_ax0_shard0_i_m512_n256_v7x_i4_bf16_1_alg».proof.Proof.Bits.Tables
import proofs.«900926_g7700000000000927_dist_max_ax0_shard0_i_m512_n256_v7x_i4_bf16_1_alg».proof.Proof.Bits.Rows

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The rows of the scratch buffer, cut and rejoined -/

private theorem in0 : (cM : Memref sig .tc .vmem S4x1x256 .f32).view.setOn (rslot 0).toLoadRect.set ⊆ slotSet 0 := by
  show _ ⊆ (((cM : Memref sig .tc .vmem S4x1x256 .f32).view.slice (rslot 0)).reshape S1x256 squeezes_S1x1x256_S1x256.numel_eq).set
  rw [View.set_reshape, View.set_slice]; exact Finset.Subset.refl _
private theorem in1 : (cM : Memref sig .tc .vmem S4x1x256 .f32).view.setOn (rslot 1).toLoadRect.set ⊆ slotSet 1 := by
  show _ ⊆ (((cM : Memref sig .tc .vmem S4x1x256 .f32).view.slice (rslot 1)).reshape S1x256 squeezes_S1x1x256_S1x256.numel_eq).set
  rw [View.set_reshape, View.set_slice]; exact Finset.Subset.refl _
private theorem in2 : (cM : Memref sig .tc .vmem S4x1x256 .f32).view.setOn (rslot 2).toLoadRect.set ⊆ slotSet 2 := by
  show _ ⊆ (((cM : Memref sig .tc .vmem S4x1x256 .f32).view.slice (rslot 2)).reshape S1x256 squeezes_S1x1x256_S1x256.numel_eq).set
  rw [View.set_reshape, View.set_slice]; exact Finset.Subset.refl _
private theorem in3 : (cM : Memref sig .tc .vmem S4x1x256 .f32).view.setOn (rslot 3).toLoadRect.set ⊆ slotSet 3 := by
  show _ ⊆ (((cM : Memref sig .tc .vmem S4x1x256 .f32).view.slice (rslot 3)).reshape S1x256 squeezes_S1x1x256_S1x256.numel_eq).set
  rw [View.set_reshape, View.set_slice]; exact Finset.Subset.refl _
private theorem st0_in : ((cM : Memref sig .tc .vmem S4x1x256 .f32).access (rslot 0)).setOn Finset.univ ⊆ slotSet 0 := Finset.Subset.refl _

private theorem d01 : Disjoint (slotSet 0) (slotSet 1) := rows_disjoint 0 1 (by decide)
private theorem d012 : Disjoint (slotSet 0 ∪ slotSet 1) (slotSet 2) :=
  Finset.disjoint_union_left.mpr ⟨rows_disjoint 0 2 (by decide), rows_disjoint 1 2 (by decide)⟩
private theorem d0123 : Disjoint (slotSet 0 ∪ slotSet 1 ∪ slotSet 2) (slotSet 3) :=
  Finset.disjoint_union_left.mpr ⟨Finset.disjoint_union_left.mpr ⟨rows_disjoint 0 3 (by decide), rows_disjoint 1 3 (by decide)⟩, rows_disjoint 2 3 (by decide)⟩

/-- The whole buffer is its four rows. -/
private theorem scr_split (c : Dev nD) (q : PosShare TreeShare) (f : Buf (Elt F) ((c : Thread nD τ).loc cc0_scratch0)) :
    ((((c : Thread nD τ).loc cc0_scratch0) ↦{q} f) : sProp 𝕄)
      ⊢ iprop(scr c (slotSet 0) q f ∗ scr c (slotSet 1) q f ∗ scr c (slotSet 2) q f ∗ scr c (slotSet 3) q f) := by
  show ((((c : Thread nD τ).loc cc0_scratch0) ↦[Finset.univ]{q} f) : sProp 𝕄) ⊢ _
  rw [rows_cover]
  iintro H
  ihave H := (pointsTo_union d0123).1 $$ H
  icases H with ⟨H, H3⟩
  ihave H := (pointsTo_union d012).1 $$ H
  icases H with ⟨H, H2⟩
  ihave H := (pointsTo_union d01).1 $$ H
  icases H with ⟨H0, H1⟩
  isplitl [H0]; · iexact H0
  isplitl [H1]; · iexact H1
  isplitl [H2]; · iexact H2
  iexact H3

private theorem scr_join (c : Dev nD) (q : PosShare TreeShare) (f : Buf (Elt F) ((c : Thread nD τ).loc cc0_scratch0)) :
    iprop(scr c (slotSet 0) q f ∗ scr c (slotSet 1) q f ∗ scr c (slotSet 2) q f ∗ scr c (slotSet 3) q f)
      ⊢ ((((c : Thread nD τ).loc cc0_scratch0) ↦{q} f) : sProp 𝕄) := by
  show _ ⊢ ((((c : Thread nD τ).loc cc0_scratch0) ↦[Finset.univ]{q} f) : sProp 𝕄)
  rw [rows_cover]
  iintro ⟨H0, H1, H2, H3⟩
  iapply (pointsTo_union d0123).2
  isplitr [H3]; swap; · iexact H3
  iapply (pointsTo_union d012).2
  isplitr [H2]; swap; · iexact H2
  iapply (pointsTo_union d01).2
  isplitl [H0]; · iexact H0
  iexact H1

private theorem bigSep_fin3 {M : Type} [URA M] (Φ : Fin 3 → sProp M) : bigSep Finset.univ Φ = iprop(Φ 0 ∗ Φ 1 ∗ Φ 2) := by
  rw [show (Finset.univ : Finset (Fin 3)) = {0, 1, 2} by decide, bigSep_insert (by decide), bigSep_insert (by decide), bigSep_singleton]
  rfl

/-! ## The payloads, as the steps hand them over and take them -/

private theorem barPay_intro (c q : Dev nD) (e : Fin 3) (h : sh (e.val + 1) q = c) :
    iprop((∃ f, scr (F := F) c (slotSet e.succ) fullShare f) ∗ reached ER (recvCell c e) 0) ⊢ barPay (F := F) q e := by
  subst h; unfold barPay; exact .rfl

private theorem pay_sig (c q : Dev nD) (e : Fin 3) (h : sh (e.val + 1) q = c) (f : Buf (Elt F) ((c : Thread nD τ).loc cc0_scratch0)) :
    iprop(scr (F := F) c (slotSet e.succ) fullShare f ∗ reached ER (recvCell c e) 0) ⊢ (Rd (F := F) m).payload (barCell q) 0 e := by
  rw [payload_bar]
  refine .trans ?_ (barPay_intro c q e h)
  iintro ⟨H, #R⟩
  isplitl [H]
  · iexists f; iexact H
  · iexact R

private theorem rest_bar' (c : Dev nD) :
    bigSep ((Rd (F := F) m).duties (barCell c) 0 \ ∅) (fun d => (Rd (F := F) m).payload (barCell c) 0 d)
      ⊢ iprop(((∃ f, scr (F := F) (sh 1 c) (slotSet 1) fullShare f) ∗ reached ER (recvCell (sh 1 c) 0) 0)
          ∗ ((∃ f, scr (F := F) (sh 2 c) (slotSet 2) fullShare f) ∗ reached ER (recvCell (sh 2 c) 1) 0)
          ∗ ((∃ f, scr (F := F) (sh 3 c) (slotSet 3) fullShare f) ∗ reached ER (recvCell (sh 3 c) 2) 0)) := by
  rw [rest_bar]; unfold barPay; exact .rfl

private theorem rest_send' (c : Dev nD) (j : Fin 3) :
    bigSep ((Rd (F := F) m).duties (sendCell c j) 0 \ ∅) (fun d => (Rd (F := F) m).payload (sendCell c j) 0 d)
      ⊢ scr c (slotSet 0) (Transfers.shareTok fullShare 3 j) (comm m c) := by
  rw [rest_send]; unfold sendPay; exact .rfl

private theorem rest_recv' (c : Dev nD) (j : Fin 3) :
    bigSep ((Rd (F := F) m).duties (recvCell c j) 0 \ ∅) (fun d => (Rd (F := F) m).payload (recvCell c j) 0 d)
      ⊢ scr c (slotSet j.succ) fullShare (comm m c) := by
  rw [rest_recv]; unfold recvPay; exact .rfl

/-! ## The staging buffers -/

private theorem before_x (c : Dev nD) (d : (cfg0.win (0 : Fin 2)).block.Idx → Elt F (cfg0.win (0 : Fin 2)).elt) :
    (dats m ρ 0 c).before (0 : Fin 2) t₀ d = xblk m c := rfl

private theorem read_x (f : (cc0_stg0_0 : Ref sig .tc).ty.Contents (Elt F)) :
    (xM : Memref sig .tc .vmem S512x256 .f32).view.readAt (Elt F) (Rect.unit (s := S512x256) ![0, 0] S512x256.size inb_S512x256_S512x256_0_0).toLoadRect f = f :=
  Memref.readAt_unit_zero (Elt F) cc0_stg0_0 (funext fun a => by fin_cases a <;> rfl) _ f

private theorem write_out (f w : (cc0_stg1_0 : Ref sig .tc).ty.Contents (Elt F)) :
    ((oM : Memref sig .tc .vmem S1x256 .f32).access (Rect.unit (s := S1x256) ![0, 0] S1x256.size inb_S1x256_S1x256_0_0) : View sig .tc _ _ _).write (Elt F) f w Finset.univ = w :=
  Memref.write_access_unit_zero_univ (Elt F) cc0_stg1_0 (funext fun a => by fin_cases a <;> rfl) _ f w

private theorem sh31 (c : Dev nD) : sh ((2 : Fin 3).val + 1) (sh 1 c) = c := by revert c; decide
private theorem sh22 (c : Dev nD) : sh ((1 : Fin 3).val + 1) (sh 2 c) = c := by revert c; decide
private theorem sh13 (c : Dev nD) : sh ((0 : Fin 3).val + 1) (sh 3 c) = c := by revert c; decide

/-- Row 0 at the full share is three read tokens, one a copy, and a remainder. -/
private theorem row0_toks (c : Dev nD) (f : Buf (Elt F) ((c : Thread nD τ).loc cc0_scratch0)) :
    scr (F := F) c (slotSet 0) fullShare f
      ⊢ iprop(scr c (slotSet 0) (Transfers.shareDrop fullShare 3) f ∗ scr c (slotSet 0) (Transfers.shareTok fullShare 3 0) f
          ∗ scr c (slotSet 0) (Transfers.shareTok fullShare 3 1) f ∗ scr c (slotSet 0) (Transfers.shareTok fullShare 3 2) f) := by
  refine (Transfers.pointsTo_toks_split fullShare 3).trans (Entails.of_eq ?_)
  rw [bigSep_fin3]

private theorem row0_join (c : Dev nD) (f : Buf (Elt F) ((c : Thread nD τ).loc cc0_scratch0)) :
    iprop(scr c (slotSet 0) (Transfers.shareDrop fullShare 3) f ∗ scr c (slotSet 0) (Transfers.shareTok fullShare 3 0) f
          ∗ scr c (slotSet 0) (Transfers.shareTok fullShare 3 1) f ∗ scr c (slotSet 0) (Transfers.shareTok fullShare 3 2) f)
      ⊢ scr (F := F) c (slotSet 0) fullShare f := by
  refine (Entails.of_eq ?_).trans (Transfers.pointsTo_toks_join fullShare 3)
  rw [bigSep_fin3]

private theorem rest_recv1 (c : Dev nD) :
    bigSep ((Rd (F := F) m).duties (recvCell c 0) 0 \ ∅) (fun d => (Rd (F := F) m).payload (recvCell c 0) 0 d)
      ⊢ scr c (slotSet 1) fullShare (comm m c) := rest_recv' m c 0
private theorem rest_recv2 (c : Dev nD) :
    bigSep ((Rd (F := F) m).duties (recvCell c 1) 0 \ ∅) (fun d => (Rd (F := F) m).payload (recvCell c 1) 0 d)
      ⊢ scr c (slotSet 2) fullShare (comm m c) := rest_recv' m c 1
private theorem rest_recv3 (c : Dev nD) :
    bigSep ((Rd (F := F) m).duties (recvCell c 2) 0 \ ∅) (fun d => (Rd (F := F) m).payload (recvCell c 2) 0 d)
      ⊢ scr c (slotSet 3) fullShare (comm m c) := rest_recv' m c 2

/-- The addressed copy of one row to the device `p`, the program naming that device by a term `n` equal to it. -/
private theorem wp_send_at (c p n : Dev nD) (hn : n = p)
    {src : Memref sig (Dev.tc c : Thread nD τ).2.kind .vmem S1x256 .f32} {dst : Memref sig (Dev.tc n : Thread nD τ).2.kind .vmem S1x256 .f32}
    {hsc : dst.view.ref.isScScratch = false} {sS sem : SemLoc sig}
    {hsrc : src.view.WordExact} {hdst : dst.view.WordExact}
    {hsem : DmaTarget.Typed .vmem sem (.remote (Dev.tc n : Thread nD τ) dst sS hsc)}
    {α : Type} {k : PUnit → Prog (TpuEff nD τ sig (Elt F) Λ₀ .tc) α} {Q : α → sProp 𝕄}
    {q : PosShare TreeShare} {fs : Buf (Elt F) (src.view.loc (Dev.tc c : Thread nD τ))} {fd : Buf (Elt F) (dst.view.loc (Dev.tc p : Thread nD τ))}
    {κ₁ κ₂ : ℕ}
    (hd₁ : (0 : Fin 3) ∈ (Rd (F := F) m).duties ((Dev.tc c : Thread nD τ), sS) 0) (hd₂ : (0 : Fin 3) ∈ (Rd (F := F) m).duties ((Dev.tc p : Thread nD τ), sem) 0)
    (hN : dst.view.amount sem = N) (hk₁ : (Rd (F := F) m).amount ((Dev.tc c : Thread nD τ), sS) 0 0 = N)
    (hk₂ : (Rd (F := F) m).amount ((Dev.tc p : Thread nD τ), sem) 0 0 = N)
    {O₀ : CellTallies nD τ sig Unit} (O : CellTallies nD τ sig Unit) (hO : O₀ = O + tallyAt ((Dev.tc p : Thread nD τ), sem) () N) {W : Waits sig Unit}
    (hpay₁ : (src.view.loc (Dev.tc c : Thread nD τ) ↦[src.view.set]{q} fs) ⊢ (Rd (F := F) m).payload ((Dev.tc c : Thread nD τ), sS) 0 0)
    (hpay₂ : (dst.view.loc (Dev.tc p : Thread nD τ) ↦[dst.view.set]{fullShare} (dst.view.write (Elt F) fd (src.view.read (Elt F) fs) Finset.univ))
      ⊢ (Rd (F := F) m).payload ((Dev.tc p : Thread nD τ), sem) 0 0) :
    iprop(cellInv ER (Rd (F := F) m) κ₁ ((Dev.tc c : Thread nD τ), sS) ∗ cellInv ER (Rd (F := F) m) κ₂ ((Dev.tc p : Thread nD τ), sem)
        ∗ (src.view.loc (Dev.tc c : Thread nD τ) ↦[src.view.set]{q} fs) ∗ (dst.view.loc (Dev.tc p : Thread nD τ) ↦[dst.view.set]{fullShare} fd)
        ∗ owes (Dev.tc c : Thread nD τ) O₀ W
        ∗ dutyTok ER ((Dev.tc c : Thread nD τ), sS) 0 (0 : Fin 3) ∗ reached ER ((Dev.tc c : Thread nD τ), sS) 0
        ∗ dutyTok ER ((Dev.tc p : Thread nD τ), sem) 0 (0 : Fin 3) ∗ reached ER ((Dev.tc p : Thread nD τ), sem) 0)
      ⊢ iprop(((cred (tallyAt ((Dev.tc c : Thread nD τ), sS) () N) ∗ owes (Dev.tc c : Thread nD τ) O W)
            -∗ wp frame (wpE (defs₀ (F := F)) 𝒱₀ (Dev.tc c : Thread nD τ) none) Set.univ (k ⟨⟩) Q)
          -∗ wp frame (wpE (defs₀ (F := F)) 𝒱₀ (Dev.tc c : Thread nD τ) none) Set.univ
              (.op (.enqueueDma src (.remote (Dev.tc n : Thread nD τ) dst sS hsc) sem hsrc hdst hsem) k) Q) := by
  subst hn
  exact wp_send_pointsTo 𝒱₀ ER (Rd m) (Dev.tc c : Thread nD τ) none hd₁ hd₂ () () N hN hk₁ hk₂ O hO hpay₁ hpay₂

set_option maxHeartbeats 1600000 in
theorem sound_body (K : Dev nD × Fin 7 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, wp_deviceId]
  simp only [dev1_eq, dev2_eq, dev3_eq, dev4_eq, dev5_eq, dev6_eq]
  unfold bodyPre ghost invs poss marks payToks creds
  iintro ⟨⟨⟨⟨⟨#Ib, #Is0, #Is1, #Is2, #Ir0, #Ir1, #Ir2, #Ib1, #Ib2, #Ib3, #Jr1, #Jr2, #Jr3⟩,
      ⟨Pb, Ps0, Ps1, Ps2, Pr0, Pr1, Pr2⟩,
      ⟨#Mb1, #Mb2, #Mb3, #Mr1, #Mr2, #Mr3, #Ms0, #Ms1, #Ms2, #Mq0, #Mq1, #Mq2⟩,
      ⟨Tb1, Tb2, Tb3, Tr1, Tr2, Tr3, Ts0, Ts1, Ts2⟩⟩,
      ⟨Cb, Cr0, Cr1, Cr2⟩, #Hlev, ⟨%f0, Hscr⟩⟩, ⟨%W0, %hW0, HO⟩, ⟨%dx, %fx, %hfx, Hx⟩, ⟨%dy, %fo, %hfo, Ho⟩⟩, HK⟩
  -- the four rows
  ihave Hscr := (scr_split c fullShare f0) $$ Hscr
  icases Hscr with ⟨H0, H1, H2, H3⟩
  -- the three entry signals: rows 3, 2, 1 go to the devices 1, 2, 3 places on
  iapply (wp_signal 𝒱₀ ER (Rd m) (c : Thread nD τ) none (dst := (sh 1 c : Thread nD τ)) (sem := barS) (r := 0) (d := (2 : Fin 3))
    (by rw [duties_bar]; exact Finset.mem_univ _) (amount_bar m (sh 1 c) 2) () (O₁ c)
    (rfl : (dats m ρ 0 c).owed t₀.castSucc = O₁ c + tallyAt (barCell (sh 1 c)) () 1)) $$ [HO Tb1 H3]
  · isplitr; · iexact Ib1
    isplitl [HO]; · iexact HO
    isplitl [Tb1]; · iexact Tb1
    isplitl [H3]
    · iapply (pay_sig m c (sh 1 c) 2 (sh31 c) f0)
      isplitl [H3]; · iexact H3
      iexact Mq2
    iexact Mb1
  iintro HO
  iapply (wp_signal 𝒱₀ ER (Rd m) (c : Thread nD τ) none (dst := (sh 2 c : Thread nD τ)) (sem := barS) (r := 0) (d := (1 : Fin 3))
    (by rw [duties_bar]; exact Finset.mem_univ _) (amount_bar m (sh 2 c) 1) () (O₂ c)
    (rfl : O₁ c = O₂ c + tallyAt (barCell (sh 2 c)) () 1)) $$ [HO Tb2 H2]
  · isplitr; · iexact Ib2
    isplitl [HO]; · iexact HO
    isplitl [Tb2]; · iexact Tb2
    isplitl [H2]
    · iapply (pay_sig m c (sh 2 c) 1 (sh22 c) f0)
      isplitl [H2]; · iexact H2
      iexact Mq1
    iexact Mb2
  iintro HO
  iapply (wp_signal 𝒱₀ ER (Rd m) (c : Thread nD τ) none (dst := (sh 3 c : Thread nD τ)) (sem := barS) (r := 0) (d := (0 : Fin 3))
    (by rw [duties_bar]; exact Finset.mem_univ _) (amount_bar m (sh 3 c) 0) () (O₃ c)
    (rfl : O₂ c = O₃ c + tallyAt (barCell (sh 3 c)) () 1)) $$ [HO Tb3 H1]
  · isplitr; · iexact Ib3
    isplitl [HO]; · iexact HO
    isplitl [Tb3]; · iexact Tb3
    isplitl [H1]
    · iapply (pay_sig m c (sh 3 c) 0 (sh13 c) f0)
      isplitl [H1]; · iexact H1
      iexact Mq0
    iexact Mb3
  iintro HO
  -- the device's own row: the column maxima of its block, into row 0
  iapply (wp_load 𝒱₀ (c : Thread nD τ) none Set.univ (m := xM) (Finset.subset_univ _)) $$ Hx
  iintro Hx
  generalize hxv : View.readAt (Elt F) (Memref.whole cc0_stg0_0).view _ fx = xv
  have hx : xv = xblk m c := hxv.symm.trans ((read_x fx).trans (hfx.trans (before_x m ρ c dx)))
  subst hx
  iapply (wp_load 𝒱₀ (c : Thread nD τ) none Set.univ (m := cM) in0) $$ H0
  iintro H0
  iapply (wp_store 𝒱₀ (c : Thread nD τ) none Set.univ (m := cM) (r := rslot 0) st0_in) $$ H0
  iintro H0
  ihave H0 := (Entails.of_eq (pointsTo_congr (q := fullShare) (store_row0 m c f0))) $$ H0
  ihave H0 := (row0_toks c (comm m c)) $$ H0
  icases H0 with ⟨H0, T0, T1, T2⟩
  -- the barrier wait: the three others are inside, and hand over the rows the copies land in
  iapply (wp_wait_rest_token 𝒱₀ ER (Rd m) (c : Thread nD τ) none (wpE_semWait_eq 𝒱₀ (c : Thread nD τ) none Set.univ) (Set.mem_univ (K (c, 0)))
    () (R := 0) (T := ∅) (m := 0)
    (show 0 + (3#32).toNat = (Rd m).expect (barCell c) 0 from (expect_bar m c).symm)) $$ [Cb HO Pb]
  · isplitr; · iexact Ib
    isplitl [Cb]; · iexact Cb
    isplitl [HO]; · iexact HO
    isplitr; · iapply (mayWait_bar (F := F) c); iexact Hlev
    iexact Pb
  iintro ⟨HO, Pb, -, Hrest⟩
  ihave Hrest := (rest_bar' m c) $$ Hrest
  icases Hrest with ⟨⟨⟨%g1, G1⟩, -⟩, ⟨⟨%g2, G2⟩, -⟩, ⟨⟨%g3, G3⟩, -⟩⟩
  -- the three copies of row 0: two places on (row 2), one place on (row 1), three places on (row 3)
  iapply (wp_send_at m c (sh 2 c) ⟨k0_dev4 c, k0_dev4_lt c⟩ (dev4_eq c) (src := slot 0) (dst := slot 2)
    (sS := .dma (sS 1).sem) (sem := .dma (rS 1).sem) (q := Transfers.shareTok fullShare 3 1) (fs := comm m c) (fd := g2)
    (by rw [duties_send]; exact Finset.mem_singleton_self _) (by rw [duties_recv]; exact Finset.mem_singleton_self _)
    (amount_slot 2 _) (amount_send m c 1 0) (amount_recv m (sh 2 c) 1 0)
    (tallyAt (recvCell (sh 3 c) 2) () N + tallyAt (recvCell (sh 1 c) 0) () N) (rfl : O₃ c = _)
    (by rw [payload_send]; unfold sendPay; exact .rfl)
    (by rw [payload_recv]; unfold recvPay; exact Entails.of_eq (pointsTo_congr (land_row2 m c g2)))) $$ [T1 G2 HO Ts1 Tr2]
  · isplitr; · iexact Is1
    isplitr; · iexact Jr2
    isplitl [T1]; · iexact T1
    isplitl [G2]; · iexact G2
    isplitl [HO]; · iexact HO
    isplitl [Ts1]; · iexact Ts1
    isplitr; · iexact Ms1
    isplitl [Tr2]; · iexact Tr2
    iexact Mr2
  iintro ⟨Cs1, HO⟩
  iapply (wp_send_at m c (sh 1 c) ⟨k0_dev5 c, k0_dev5_lt c⟩ (dev5_eq c) (src := slot 0) (dst := slot 1)
    (sS := .dma (sS 0).sem) (sem := .dma (rS 0).sem) (q := Transfers.shareTok fullShare 3 0) (fs := comm m c) (fd := g1)
    (by rw [duties_send]; exact Finset.mem_singleton_self _) (by rw [duties_recv]; exact Finset.mem_singleton_self _)
    (amount_slot 1 _) (amount_send m c 0 0) (amount_recv m (sh 1 c) 0 0)
    (tallyAt (recvCell (sh 3 c) 2) () N) rfl
    (by rw [payload_send]; unfold sendPay; exact .rfl)
    (by rw [payload_recv]; unfold recvPay; exact Entails.of_eq (pointsTo_congr (land_row1 m c g1)))) $$ [T0 G1 HO Ts0 Tr1]
  · isplitr; · iexact Is0
    isplitr; · iexact Jr1
    isplitl [T0]; · iexact T0
    isplitl [G1]; · iexact G1
    isplitl [HO]; · iexact HO
    isplitl [Ts0]; · iexact Ts0
    isplitr; · iexact Ms0
    isplitl [Tr1]; · iexact Tr1
    iexact Mr1
  iintro ⟨Cs0, HO⟩
  iapply (wp_send_at m c (sh 3 c) ⟨k0_dev6 c, k0_dev6_lt c⟩ (dev6_eq c) (src := slot 0) (dst := slot 3)
    (sS := .dma (sS 2).sem) (sem := .dma (rS 2).sem) (q := Transfers.shareTok fullShare 3 2) (fs := comm m c) (fd := g3)
    (by rw [duties_send]; exact Finset.mem_singleton_self _) (by rw [duties_recv]; exact Finset.mem_singleton_self _)
    (amount_slot 3 _) (amount_send m c 2 0) (amount_recv m (sh 3 c) 2 0)
    0 (zero_add _).symm
    (by rw [payload_send]; unfold sendPay; exact .rfl)
    (by rw [payload_recv]; unfold recvPay; exact Entails.of_eq (pointsTo_congr (land_row3 m c g3)))) $$ [T2 G3 HO Ts2 Tr3]
  · isplitr; · iexact Is2
    isplitr; · iexact Jr3
    isplitl [T2]; · iexact T2
    isplitl [G3]; · iexact G3
    isplitl [HO]; · iexact HO
    isplitl [Ts2]; · iexact Ts2
    isplitr; · iexact Ms2
    isplitl [Tr3]; · iexact Tr3
    iexact Mr3
  iintro ⟨Cs2, HO⟩
  -- the landings one and three places back: rows 1 and 3 at their final contents
  iapply (wp_wait_rest_token 𝒱₀ ER (Rd m) (c : Thread nD τ) none (wpE_waitDma2_eq 𝒱₀ (c : Thread nD τ) none Set.univ) (Set.mem_univ (K (c, 4)))
    () (R := 0) (T := ∅) (m := 0)
    (show 0 + (slot 1).view.dmaCredit = (Rd m).expect (recvCell c 0) 0 from by rw [expect_recv, Nat.zero_add])) $$ [Cr0 HO Pr0]
  · isplitr; · iexact Ir0
    isplitl [Cr0]; · iexact Cr0
    isplitl [HO]; · iexact HO
    isplitr; · rw [MayWait_zero]; iempintro
    iexact Pr0
  iintro ⟨HO, Pr0, -, Hrest⟩
  ihave R1 := (rest_recv1 m c) $$ Hrest
  iapply (wp_wait_rest_token 𝒱₀ ER (Rd m) (c : Thread nD τ) none (wpE_waitDma2_eq 𝒱₀ (c : Thread nD τ) none Set.univ) (Set.mem_univ (K (c, 6)))
    () (R := 0) (T := ∅) (m := 0)
    (show 0 + (slot 3).view.dmaCredit = (Rd m).expect (recvCell c 2) 0 from by rw [expect_recv, Nat.zero_add])) $$ [Cr2 HO Pr2]
  · isplitr; · iexact Ir2
    isplitl [Cr2]; · iexact Cr2
    isplitl [HO]; · iexact HO
    isplitr; · rw [MayWait_zero]; iempintro
    iexact Pr2
  iintro ⟨HO, Pr2, -, Hrest⟩
  ihave R3 := (rest_recv3 m c) $$ Hrest
  -- rows 0, 1 and 3 read
  iapply (wp_load 𝒱₀ (c : Thread nD τ) none Set.univ (m := cM) in0) $$ H0
  iintro H0
  iapply (wp_load 𝒱₀ (c : Thread nD τ) none Set.univ (m := cM) in1) $$ R1
  iintro R1
  iapply (wp_load 𝒱₀ (c : Thread nD τ) none Set.univ (m := cM) in3) $$ R3
  iintro R3
  -- the landing two places back, and row 2 read
  iapply (wp_wait_rest_token 𝒱₀ ER (Rd m) (c : Thread nD τ) none (wpE_waitDma2_eq 𝒱₀ (c : Thread nD τ) none Set.univ) (Set.mem_univ (K (c, 5)))
    () (R := 0) (T := ∅) (m := 0)
    (show 0 + (slot 2).view.dmaCredit = (Rd m).expect (recvCell c 1) 0 from by rw [expect_recv, Nat.zero_add])) $$ [Cr1 HO Pr1]
  · isplitr; · iexact Ir1
    isplitl [Cr1]; · iexact Cr1
    isplitl [HO]; · iexact HO
    isplitr; · rw [MayWait_zero]; iempintro
    iexact Pr1
  iintro ⟨HO, Pr1, -, Hrest⟩
  ihave R2 := (rest_recv2 m c) $$ Hrest
  iapply (wp_load 𝒱₀ (c : Thread nD τ) none Set.univ (m := cM) in2) $$ R2
  iintro R2
  -- the result: the maximum of the four rows, into the out staging buffer
  iapply (wp_load 𝒱₀ (c : Thread nD τ) none Set.univ (m := oM) (Finset.subset_univ _)) $$ Ho
  iintro Ho
  iapply (wp_store 𝒱₀ (c : Thread nD τ) none Set.univ (m := oM) (r := Rect.unit (s := S1x256) ![0, 0] S1x256.size inb_S1x256_S1x256_0_0) (Finset.subset_univ _)) $$ Ho
  iintro Ho
  -- the three send sides: the read tokens of row 0 come back
  iapply (wp_wait_rest_token 𝒱₀ ER (Rd m) (c : Thread nD τ) none (wpE_waitDma2_eq 𝒱₀ (c : Thread nD τ) none Set.univ) (Set.mem_univ (K (c, 1)))
    () (R := 0) (T := ∅) (m := 0)
    (show 0 + (slot 0).view.dmaCredit = (Rd m).expect (sendCell c 0) 0 from by rw [expect_send, Nat.zero_add])) $$ [Cs0 HO Ps0]
  · isplitr; · iexact Is0
    isplitl [Cs0]; · iexact Cs0
    isplitl [HO]; · iexact HO
    isplitr; · rw [MayWait_zero]; iempintro
    iexact Ps0
  iintro ⟨HO, Ps0, -, Hrest⟩
  ihave T0 := (rest_send' m c 0) $$ Hrest
  iapply (wp_wait_rest_token 𝒱₀ ER (Rd m) (c : Thread nD τ) none (wpE_waitDma2_eq 𝒱₀ (c : Thread nD τ) none Set.univ) (Set.mem_univ (K (c, 2)))
    () (R := 0) (T := ∅) (m := 0)
    (show 0 + (slot 0).view.dmaCredit = (Rd m).expect (sendCell c 1) 0 from by rw [expect_send, Nat.zero_add])) $$ [Cs1 HO Ps1]
  · isplitr; · iexact Is1
    isplitl [Cs1]; · iexact Cs1
    isplitl [HO]; · iexact HO
    isplitr; · rw [MayWait_zero]; iempintro
    iexact Ps1
  iintro ⟨HO, Ps1, -, Hrest⟩
  ihave T1 := (rest_send' m c 1) $$ Hrest
  iapply (wp_wait_rest_token 𝒱₀ ER (Rd m) (c : Thread nD τ) none (wpE_waitDma2_eq 𝒱₀ (c : Thread nD τ) none Set.univ) (Set.mem_univ (K (c, 3)))
    () (R := 0) (T := ∅) (m := 0)
    (show 0 + (slot 0).view.dmaCredit = (Rd m).expect (sendCell c 2) 0 from by rw [expect_send, Nat.zero_add])) $$ [Cs2 HO Ps2]
  · isplitr; · iexact Is2
    isplitl [Cs2]; · iexact Cs2
    isplitl [HO]; · iexact HO
    isplitr; · rw [MayWait_zero]; iempintro
    iexact Ps2
  iintro ⟨HO, Ps2, -, Hrest⟩
  ihave T2 := (rest_send' m c 2) $$ Hrest
  -- the six own cells closed, the buffer whole again
  rw [wp_ret]
  imod (cell_close ER (Rd m) (g := sendCell c 0) (κ := K (c, 1)) (Es := Set.univ) (R := 1) (Set.mem_univ _) (fun h => h) (duties_later m _)) $$ [Ps0] with V0
  · isplitr; · iexact Is0
    iexact Ps0
  imod (cell_close ER (Rd m) (g := sendCell c 1) (κ := K (c, 2)) (Es := Set.univ) (R := 1) (Set.mem_univ _) (fun h => h) (duties_later m _)) $$ [Ps1] with V1
  · isplitr; · iexact Is1
    iexact Ps1
  imod (cell_close ER (Rd m) (g := sendCell c 2) (κ := K (c, 3)) (Es := Set.univ) (R := 1) (Set.mem_univ _) (fun h => h) (duties_later m _)) $$ [Ps2] with V2
  · isplitr; · iexact Is2
    iexact Ps2
  imod (cell_close ER (Rd m) (g := recvCell c 0) (κ := K (c, 4)) (Es := Set.univ) (R := 1) (Set.mem_univ _) (fun h => h) (duties_later m _)) $$ [Pr0] with V3
  · isplitr; · iexact Ir0
    iexact Pr0
  imod (cell_close ER (Rd m) (g := recvCell c 1) (κ := K (c, 5)) (Es := Set.univ) (R := 1) (Set.mem_univ _) (fun h => h) (duties_later m _)) $$ [Pr1] with V4
  · isplitr; · iexact Ir1
    iexact Pr1
  imod (cell_close ER (Rd m) (g := recvCell c 2) (κ := K (c, 6)) (Es := Set.univ) (R := 1) (Set.mem_univ _) (fun h => h) (duties_later m _)) $$ [Pr2] with V5
  · isplitr; · iexact Ir2
    iexact Pr2
  imodintro
  iapply HK
  unfold bodyPost Φ₁
  isplitl [H0 T0 T1 T2 R1 R2 R3 V0 V1 V2 V3 V4 V5]
  · isplitl [H0 T0 T1 T2 R1 R2 R3]
    · iapply (scr_join c fullShare (comm m c))
      isplitl [H0 T0 T1 T2]
      · iapply (row0_join c (comm m c))
        isplitl [H0]; · iexact H0
        isplitl [T0]; · iexact T0
        isplitl [T1]; · iexact T1
        iexact T2
      isplitl [R1]; · iexact R1
      isplitl [R2]; · iexact R2
      iexact R3
    isplitl [V0]; · iexact V0
    isplitl [V1]; · iexact V1
    isplitl [V2]; · iexact V2
    isplitl [V3]; · iexact V3
    isplitl [V4]; · iexact V4
    iexact V5
  isplitl [HO]
  · iexists _
    isplitr; swap; · iexact HO
    ipureintro; exact Set.subset_union_of_subset_left (Set.subset_univ _) _
  isplitl [Hx]
  · iexists fx
    isplitr; · ipureintro; exact hfx.trans (before_x m ρ c dx)
    iexact Hx
  · iexists _
    isplitr; swap; · iexact Ho
    ipureintro
    rw [write_out, read_row0, read_row1, read_row3, read_row2]
    rfl

/-! ## The library's body obligation -/

omit [FloatOps F] in
private theorem bigSep_W (Φ : Fin cfg0.W → sProp 𝕄) : bigSep Finset.univ Φ = iprop(Φ (0 : Fin 2) ∗ Φ (1 : Fin 2)) := bigSep_W0 Φ

omit [FloatOps F] in
private theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- The obligation's precondition, named. -/
private def bodyPre' (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hc, Hl⟩, Hscr⟩, Ho, Hx, Hout⟩
  iapply (sound_body m ρ K c fun _ => bodyPost m ρ c)
  unfold bodyPre
  isplitr []
  · isplitl [Hg Hc Hl Hscr]
    · isplitl [Hg]; · iexact Hg
      isplitl [Hc]; · iexact Hc
      isplitl [Hl]; · iexact Hl
      iexact Hscr
    isplitl [Ho]; · iexact Ho
    isplitl [Hx] <;> iassumption
  · iintro H; iexact H

/-- info: 'Cert.Kernel.Coll.body_obligation' depends on axioms: [propext, Classical.choice, Quot.sound] -/
#guard_msgs in #print axioms body_obligation

end Cert.Kernel.Coll

end
-- ==== Proof.Bits.LaunchDefs.lean ====
/-
  What the launch deals. The protocol's cells are the seven cells of each of the four devices; the duty tokens minted
  are, per device, its barrier cell's three and the one of each send and receive cell. A device is dealt its own
  cells' round states, positions, marks and tokens; one global step then turns all devices' shares into the ghost
  state each body starts from, the tokens having moved to the devices that pay them.
-/
import proofs.«900926_g7700000000000927_dist_max_ax0_shard0_i_m512_n256_v7x_i4_bf16_1_alg».proof.Proof.Bits.Data

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def ringCells : Finset (GSem nD τ sig) := Finset.univ.map ⟨kcell, kcell_injective⟩

/-- A device's own cells' duty tokens as minted: the barrier's three, then each send cell's, then each receive cell's. -/
abbrev tokOf (cj : Dev nD × Fin 9) : GSem nD τ sig × ℕ × Fin 3 := match cj.2 with
  | 0 => (barCell cj.1, 0, 0) | 1 => (barCell cj.1, 0, 1) | 2 => (barCell cj.1, 0, 2)
  | 3 => (sendCell cj.1 0, 0, 0) | 4 => (sendCell cj.1 1, 0, 0) | 5 => (sendCell cj.1 2, 0, 0)
  | 6 => (recvCell cj.1 0, 0, 0) | 7 => (recvCell cj.1 1, 0, 0) | 8 => (recvCell cj.1 2, 0, 0)
theorem tokOf_injective : Function.Injective (tokOf : Dev nD × Fin 9 → GSem nD τ sig × ℕ × Fin 3) := by
  -- a token is its cell (one of the seven) and its duty; the nine pairs (cell, duty) are distinct
  have hk : ∀ cj : Dev nD × Fin 9, tokOf cj
      = (kcell (cj.1, (![0, 0, 0, 1, 2, 3, 4, 5, 6] : Fin 9 → Fin 7) cj.2), 0, (![0, 1, 2, 0, 0, 0, 0, 0, 0] : Fin 9 → Fin 3) cj.2) := by
    rintro ⟨c, j⟩; fin_cases j <;> rfl
  rintro ⟨c, j⟩ ⟨c', j'⟩ h
  rw [hk, hk] at h
  have h1 := kcell_injective (congrArg Prod.fst h)
  have h2 : (![0, 1, 2, 0, 0, 0, 0, 0, 0] : Fin 9 → Fin 3) j = (![0, 1, 2, 0, 0, 0, 0, 0, 0] : Fin 9 → Fin 3) j' :=
    congrArg (fun x : GSem nD τ sig × ℕ × Fin 3 => x.2.2) h
  have hc : c = c' := congrArg Prod.fst h1
  have h3 : (![0, 0, 0, 1, 2, 3, 4, 5, 6] : Fin 9 → Fin 7) j = (![0, 0, 0, 1, 2, 3, 4, 5, 6] : Fin 9 → Fin 7) j' := congrArg Prod.snd h1
  subst hc
  have key : ∀ a b : Fin 9, (![0, 1, 2, 0, 0, 0, 0, 0, 0] : Fin 9 → Fin 3) a = (![0, 1, 2, 0, 0, 0, 0, 0, 0] : Fin 9 → Fin 3) b
      → (![0, 0, 0, 1, 2, 3, 4, 5, 6] : Fin 9 → Fin 7) a = (![0, 0, 0, 1, 2, 3, 4, 5, 6] : Fin 9 → Fin 7) b → a = b := by decide
  have : j = j' := key j j' h2 h3
  subst this; rfl
def ringToks : Finset (GSem nD τ sig × ℕ × Fin 3) := Finset.univ.map ⟨tokOf, tokOf_injective⟩

/-- The initial element: the pipeline's own cells and tokens beside the protocol's. -/
def u₀ : UU :=
  (initOf (Pipeline.cells cfgs cellOf_inj) (Pipeline.launchToks cfgs cellOf_inj), initOf ringCells ringToks)

/-- The duty tokens of device `c`'s own cells, in `tokOf`'s order. -/
def toks (c : Dev nD) : sProp 𝕄 :=
  iprop(dutyTok ER (barCell c) 0 (0 : Fin 3) ∗ dutyTok ER (barCell c) 0 (1 : Fin 3) ∗ dutyTok ER (barCell c) 0 (2 : Fin 3)
    ∗ dutyTok ER (sendCell c 0) 0 (0 : Fin 3) ∗ dutyTok ER (sendCell c 1) 0 (0 : Fin 3) ∗ dutyTok ER (sendCell c 2) 0 (0 : Fin 3)
    ∗ dutyTok ER (recvCell c 0) 0 (0 : Fin 3) ∗ dutyTok ER (recvCell c 1) 0 (0 : Fin 3) ∗ dutyTok ER (recvCell c 2) 0 (0 : Fin 3))

/-- What the launch element deals device `c`. -/
def G (c : Dev nD) : sProp 𝕄 :=
  iprop((bigSep Finset.univ fun k : Fin 7 => roundState ER (Rd m) (kcell (c, k)) 0)
    ∗ (bigSep Finset.univ fun k : Fin 7 => iprop(atPos ER (kcell (c, k)) 0 ∅ 0 ∗ reached ER (kcell (c, k)) 0)) ∗ toks c)

/-- What the global step makes of it. -/
def G' (c : Dev nD) : sProp 𝕄 := iprop(∃ K, ghost m K c)

end Cert.Kernel.Coll

end
-- ==== Proof.Bits.Fund.lean ====
/-
  The ghost state is funded: the initial element deals every device its own cells' share, and one global step —
  every device's own and unscoped semaphore counters at zero with it — allocates the thirteen-invariant ghost state
  each body starts from, the duty tokens dealt to the devices that pay them.
-/
import proofs.«900926_g7700000000000927_dist_max_ax0_shard0_i_m512_n256_v7x_i4_bf16_1_alg».proof.Proof.Bits.LaunchDefs
import proofs.«900926_g7700000000000927_dist_max_ax0_shard0_i_m512_n256_v7x_i4_bf16_1_alg».proof.Proof.Bits.Tables

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Finite separating conjunctions, written out -/

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-! ## The ring's rotations as equivalences -/

/-- Going `k` places on is undone by going `3 * k` places on: `4 * k` places is all the way round. -/
def shEquiv (k : ℕ) : Dev nD ≃ Dev nD where
  toFun := sh k
  invFun := sh (3 * k)
  left_inv c := by
    rw [sh_sh]; apply Fin.ext; have hc : c.val < 4 := c.isLt
    show (c.val + (3 * k + k)) % 4 = c.val; omega
  right_inv c := by
    rw [sh_sh]; apply Fin.ext; have hc : c.val < 4 := c.isLt
    show (c.val + (k + 3 * k)) % 4 = c.val; omega

omit [FloatOps F] in
/-- A conjunction over all devices may be read off `k` places on. -/
theorem bigSep_sh (k : ℕ) (Φ : Dev nD → sProp 𝕄) : bigSep Finset.univ Φ = bigSep Finset.univ fun c : Dev nD => Φ (sh k c) :=
  bigSep_univ_equiv (shEquiv k) Φ

/-! ## Funding: what the initial element deals -/

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 7 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin9]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step -/

omit [FloatOps F] in
/-- The three send and the three receive semaphores are the kernel's own six; -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0
        ∗ semVal (recvCell c 0) 0 ∗ semVal (recvCell c 1) 0 ∗ semVal (recvCell c 2) 0) := by
  rw [Pipeline.ownSems0_eq_of_list c osem [0, 1, 2, 3, 4, 5] (by decide) (by decide)]; rfl
omit [FloatOps F] in
/-- the barrier semaphore is the one semaphore that is not scoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- Together they are the counters of a device's seven cells, each at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨⟨HS0, HS1, HS2, HV0, HV1, HV2⟩, HB⟩
  isplitl [HB]; · iexact HB
  isplitl [HS0]; · iexact HS0
  isplitl [HS1]; · iexact HS1
  isplitl [HS2]; · iexact HS2
  isplitl [HV0]; · iexact HV0
  isplitl [HV1]; · iexact HV1
  iexact HV2

/-- One device's counters and round states close into its seven cell invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant under the names `K`, and that round 0 of every cell is reached: what all devices share. -/
def records (K : Dev nD × Fin 7 → ℕ) : sProp 𝕄 :=
  iprop((bigSep Finset.univ fun ck : Dev nD × Fin 7 => cellInv ER (Rd m) (K ck) (kcell ck))
    ∗ bigSep Finset.univ fun ck : Dev nD × Fin 7 => reached ER (kcell ck) 0)

instance records_persistent (K : Dev nD × Fin 7 → ℕ) : BI.Persistent (records m K) := by unfold records; infer_instance

theorem inv_at (K : Dev nD × Fin 7 → ℕ) (ck : Dev nD × Fin 7) :
    (bigSep Finset.univ fun ck : Dev nD × Fin 7 => (cellInv ER (Rd m) (K ck) (kcell ck) : sProp 𝕄)) ⊢ cellInv ER (Rd m) (K ck) (kcell ck) :=
  bigSep_elim (Finset.mem_univ ck)
omit [FloatOps F] in
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- What stays with device `c` alone: its positions, and the tokens of the duties it pays. -/
def linear (c : Dev nD) : sProp 𝕄 := iprop(poss c ∗ payToks c)

theorem ghost_intro (K : Dev nD × Fin 7 → ℕ) (c : Dev nD) : iprop(records m K ∗ linear c) ⊢ G' m c := by
  unfold records linear G' ghost invs marks
  iintro ⟨⟨#HI, #HR⟩, Hpos, Htok⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (c, 5)); iexact HI
    isplitr; · iapply (inv_at m K (c, 6)); iexact HI
    isplitr; · iapply (inv_at m K (sh 1 c, 0)); iexact HI
    isplitr; · iapply (inv_at m K (sh 2 c, 0)); iexact HI
    isplitr; · iapply (inv_at m K (sh 3 c, 0)); iexact HI
    isplitr; · iapply (inv_at m K (sh 1 c, 4)); iexact HI
    isplitr; · iapply (inv_at m K (sh 2 c, 5)); iexact HI
    iapply (inv_at m K (sh 3 c, 6)); iexact HI
  isplitl [Hpos]; · iexact Hpos
  isplitr
  · isplitr; · iapply (reached_at (F := F) (sh 1 c, 0)); iexact HR
    isplitr; · iapply (reached_at (F := F) (sh 2 c, 0)); iexact HR
    isplitr; · iapply (reached_at (F := F) (sh 3 c, 0)); iexact HR
    isplitr; · iapply (reached_at (F := F) (sh 1 c, 4)); iexact HR
    isplitr; · iapply (reached_at (F := F) (sh 2 c, 5)); iexact HR
    isplitr; · iapply (reached_at (F := F) (sh 3 c, 6)); iexact HR
    isplitr; · iapply (reached_at (F := F) (c, 1)); iexact HR
    isplitr; · iapply (reached_at (F := F) (c, 2)); iexact HR
    isplitr; · iapply (reached_at (F := F) (c, 3)); iexact HR
    isplitr; · iapply (reached_at (F := F) (c, 4)); iexact HR
    isplitr; · iapply (reached_at (F := F) (c, 5)); iexact HR
    iapply (reached_at (F := F) (c, 6)); iexact HR
  iexact Htok

omit [FloatOps F] in
/-- The tokens dealt around the ring. Duty `e` of a barrier cell is paid by the device `e + 1` places after its owner,
    which sees that cell `3 - e` places on: the tokens of duties 2, 1, 0 go 1, 2, 3 places back. The token of the
    receive cell `j` goes to the device whose copy lands there, `j + 1` places before its owner. The send tokens stay. -/
theorem toks_around : (bigSep Finset.univ fun c : Dev nD => (toks c : sProp 𝕄)) ⊢ bigSep Finset.univ fun c : Dev nD => payToks c := by
  unfold toks payToks
  simp only [bigSep_sep']
  rw [bigSep_sh 1 (fun c : Dev nD => (dutyTok ER (barCell c) 0 (2 : Fin 3) : sProp 𝕄)),
    bigSep_sh 2 (fun c : Dev nD => (dutyTok ER (barCell c) 0 (1 : Fin 3) : sProp 𝕄)),
    bigSep_sh 3 (fun c : Dev nD => (dutyTok ER (barCell c) 0 (0 : Fin 3) : sProp 𝕄)),
    bigSep_sh 1 (fun c : Dev nD => (dutyTok ER (recvCell c 0) 0 (0 : Fin 3) : sProp 𝕄)),
    bigSep_sh 2 (fun c : Dev nD => (dutyTok ER (recvCell c 1) 0 (0 : Fin 3) : sProp 𝕄)),
    bigSep_sh 3 (fun c : Dev nD => (dutyTok ER (recvCell c 2) 0 (0 : Fin 3) : sProp 𝕄))]
  iintro ⟨B0, B1, B2, S0, S1, S2, V0, V1, V2⟩
  isplitl [B2]; · iexact B2
  isplitl [B1]; · iexact B1
  isplitl [B0]; · iexact B0
  isplitl [V0]; · iexact V0
  isplitl [V1]; · iexact V1
  isplitl [V2]; · iexact V2
  isplitl [S0]; · iexact S0
  isplitl [S1]; · iexact S1
  iexact S2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices' invariants, positions, marks and tokens regroup into each device's ghost state. -/
theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 7 => iprop(∃ κ : ℕ, cellInv ER (Rd m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from Entails.of_eq (by unfold linear poss; rw [bigSep_fin7])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- info: 'Cert.Kernel.Coll.fund_ring' depends on axioms: [propext, Classical.choice, Quot.sound] -/
#guard_msgs in
#print axioms fund_ring

/-- info: 'Cert.Kernel.Coll.glob' depends on axioms: [propext, Classical.choice, Quot.sound] -/
#guard_msgs in
#print axioms glob

end Cert.Kernel.Coll

end
-- ==== Proof.Bits.Launch.lean ====
/-
  The launch. Summed over the four devices, what is owed a device's cells is exactly the credit of its own waits;
  with it, the level facts and the ghost state the global step allocates, each device starts its body, and what the
  body leaves closes the region. Every fair run of the four devices then terminates with each device's result array
  at the maximum of the four rows and its block of the input as it was.
-/
import proofs.«900926_g7700000000000927_dist_max_ax0_shard0_i_m512_n256_v7x_i4_bf16_1_alg».proof.Proof.Bits.Fund

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The layout facts of the own semaphores and the arrays' shares -/

theorem ownSemFacts : Pipeline.OwnSemFacts cfg0.spec osem := by decide

theorem share_eq (c : Dev nD) (w : Fin cfg0.W) : (dats m ρ 0 c).share w = fullShare := by unfold Dat.share; split <;> rfl

/-! ## The launch credit -/

private theorem sh13 (c : Dev nD) : sh 1 (sh 3 c) = c := by revert c; decide
private theorem sh31 (c : Dev nD) : sh 3 (sh 1 c) = c := by revert c; decide
private theorem sh22 (c : Dev nD) : sh 2 (sh 2 c) = c := by revert c; decide

/-- Summed over the devices, what is owed device `c`'s cells is the credit of its own waits: each of the three other
    devices owes its barrier cell one unit, and the device `j + 1` places before it owes its receive cell `j` one row. -/
theorem creds_intro (c : Dev nD) : (Pipeline.launchCred O₀ c : sProp 𝕄) ⊢ creds c := by
  rw [show (O₀ : Dev nD → CellTallies nD τ sig Unit) = fun d => O₁ d + tallyAt (barCell (sh 1 d)) () 1 from rfl, Pipeline.launchCred_add,
    show (O₁ : Dev nD → CellTallies nD τ sig Unit) = fun d => O₂ d + tallyAt (barCell (sh 2 d)) () 1 from rfl, Pipeline.launchCred_add,
    show (O₂ : Dev nD → CellTallies nD τ sig Unit) = fun d => O₃ d + tallyAt (barCell (sh 3 d)) () 1 from rfl, Pipeline.launchCred_add,
    show (O₃ : Dev nD → CellTallies nD τ sig Unit) = fun d => (tallyAt (recvCell (sh 3 d) 2) () N + tallyAt (recvCell (sh 1 d) 0) () N) + tallyAt (recvCell (sh 2 d) 1) () N from rfl,
    Pipeline.launchCred_add, Pipeline.launchCred_add]
  unfold creds
  iintro ⟨⟨⟨⟨⟨Hr3, Hr1⟩, Hr2⟩, Hb3⟩, Hb2⟩, Hb1⟩
  ihave C1 := (Pipeline.launchCred_tallyAt (.reg barS) (sh 1) (sh 3) sh13 sh31 () 1 c) $$ Hb1
  ihave C2 := (Pipeline.launchCred_tallyAt (.reg barS) (sh 2) (sh 2) sh22 sh22 () 1 c) $$ Hb2
  ihave C3 := (Pipeline.launchCred_tallyAt (.reg barS) (sh 3) (sh 1) sh31 sh13 () 1 c) $$ Hb3
  ihave R0 := (Pipeline.launchCred_tallyAt (.dma (rS 0).sem) (sh 1) (sh 3) sh13 sh31 () N c) $$ Hr1
  ihave R1 := (Pipeline.launchCred_tallyAt (.dma (rS 1).sem) (sh 2) (sh 2) sh22 sh22 () N c) $$ Hr2
  ihave R2 := (Pipeline.launchCred_tallyAt (.dma (rS 2).sem) (sh 3) (sh 1) sh31 sh13 () N c) $$ Hr3
  isplitl [C1 C2 C3]
  · ihave C12 := (cred_add _ _).2 $$ [C1 C2]
    · isplitl [C1] <;> iassumption
    ihave C123 := (cred_add _ _).2 $$ [C12 C3]
    · isplitl [C12] <;> iassumption
    rw [tallyAt_add, tallyAt_add]
    iexact C123
  isplitl [R0]; · iexact R0
  isplitl [R1]; · iexact R1
  iexact R2

/-! ## The launch theorem's side conditions -/

/-- What the launch deals a device, sorted into what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

/-- With the scratch buffer, whole at some contents, that is the body's invariant before the one point. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨%f, Hr⟩⟩
  isplitl [Hs]; · iexact Hs
  iexists f; iexact Hr

/-- The kernel's own six semaphores at zero, in the launch's order. -/
theorem ownSems0_osem (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0
        ∗ semVal (recvCell c 0) 0 ∗ semVal (recvCell c 1) 0 ∗ semVal (recvCell c 2) 0) := by
  rw [Pipeline.ownSems0_eq_of_list c osem [0, 1, 2, 3, 4, 5] (by decide) (by decide)]; rfl

/-- After the point the body hands back the six own cells at zero and the scratch buffer whole. -/
theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m c from rfl, scopedRest0_eq, ownSems0_osem]
  unfold Φ₁
  iintro ⟨Hr, Hz⟩
  isplitr; · iempintro
  isplitl [Hz]; · iexact Hz
  iexists (comm m c); iexact Hr

/-- The pipeline's own waits are on the two staging semaphores: below everything a device may owe. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every counter at zero, every weakly fair run of the four devices terminates and ends with
    each window's array at its computed contents. -/
theorem run_main (hbody : ∀ c : Dev nD, BodyObligation (dats (F := F) m ρ 0 c) (defs₀ (F := F)) 𝒱₀ () Set.univ) :
    θ_run defs (onTc (τ := τ) (main (F := F))) (st0 m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.Kernel.Coll.run_main' depends on axioms: [propext, Classical.choice, Quot.sound] -/
#guard_msgs in #print axioms run_main

/-! ## The final arrays -/

/-- The input array is never written: it ends as it was. -/
theorem finalA_in (c : Dev nD) : finalA m ρ c (0 : Fin 2) = m ((c : Thread nD τ).loc main_arg0) :=
  (dats (F := F) m ρ 0 c).arrAt_in (0 : Fin 2) rfl _

/-- The result array's one block is the whole array: reading the array through it is reading the array. -/
theorem read_blk_out (c : Dev nD) (X : Buf (Elt F) ((c : Thread nD τ).loc main_v1)) :
    ((cfg0.win (1 : Fin 2)).blk t₀).view.read (Elt F) X = X :=
  Memref.read_access_unit_zero (Elt F) main_v1 (funext fun a => Nat.zero_mul _) _ X

/-- The result array is written back once, whole, at the one point: it ends as what the body left in its staging
    buffer, the maximum of the four rows. -/
theorem finalA_out (c : Dev nD) : finalA m ρ c (1 : Fin 2) = outVal m c := by
  unfold finalA
  rw [show cfg0.N = (t₀ : Fin cfg0.N).val + 1 from rfl, (dats m ρ 0 c).arrAt_succ (1 : Fin 2) t₀, flush0_1 t₀, if_pos rfl]
  exact (read_blk_out c _).symm.trans (View.read_write_univ _ _)

/-- From any memory with every counter at zero, every weakly fair run of the four devices terminates, and in every
    final state each device's result array holds the maximum of the four devices' rows of column maxima and its
    block of the input is unchanged. -/
theorem run (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outVal m c
      ∧ r.2.mem ((c.tc : Thread nD τ).loc main_arg0) = m ((c.tc : Thread nD τ).loc main_arg0)) :=
  (θ_run defs _ _).mono (fun _ h c => ⟨(h c (1 : Fin 2)).trans (finalA_out m ρ c), (h c (0 : Fin 2)).trans (finalA_in m ρ c)⟩)
    (run_main m ρ hbody)

/-- info: 'Cert.Kernel.Coll.run' depends on axioms: [propext, Classical.choice, Quot.sound] -/
#guard_msgs in #print axioms run

end Cert.Kernel.Coll

end
-- ==== Proof.Value.lean ====
/-
  The value: on every device the four-row maximum is the column maximum of the whole array.

  The array has 2048 rows and 256 columns, cut along the rows into four blocks of 512; device `d` holds block `d`.
  A device's own row is, at column `q`, the maximum (from minus infinity) of column `q` over its block's 512 rows; the
  result on device `c` is the maximum of the rows of the devices 0, 3, 1 and 2 places after `c`, which are all four
  devices whatever `c` is. Row `r` of block `d` is row `512 d + r` of the array and every row of the array is one of
  these, so a bound on the four block maxima is a bound on the whole column and conversely: the two maxima have the
  same upper bounds, hence are equal. No finiteness is needed.
-/
import proofs.«900926_g7700000000000927_dist_max_ax0_shard0_i_m512_n256_v7x_i4_bf16_1_alg».proof.Defs
import proofs.«900926_g7700000000000927_dist_max_ax0_shard0_i_m512_n256_v7x_i4_bf16_1_alg».proof.Proof.Ideal.Sched
import proofs.«900926_g7700000000000927_dist_max_ax0_shard0_i_m512_n256_v7x_i4_bf16_1_alg».proof.Proof.Gen.ReferenceIdeal
import proofs.«900926_g7700000000000927_dist_max_ax0_shard0_i_m512_n256_v7x_i4_bf16_1_alg».proof.Proof.Gen.ReferenceIdeal.Run
import proofs.«900926_g7700000000000927_dist_max_ax0_shard0_i_m512_n256_v7x_i4_bf16_1_alg».proof.Proof.Gen.ReferenceIdeal.Read
import proofs.«900926_g7700000000000927_dist_max_ax0_shard0_i_m512_n256_v7x_i4_bf16_1_alg».proof.Proof.Gen.Pre_finite_inputs_Kernel
import proofs.«900926_g7700000000000927_dist_max_ax0_shard0_i_m512_n256_v7x_i4_bf16_1_alg».proof.Proof.Gen.Pre_finite_inputs_ReferenceIdeal
import Idealize.ShloMosaic.Lib.Layout
import Idealize.ShloMosaic.Lib.ValueIdx
import Idealize.ShloMosaic.Lib.ValueLayout
import Idealize.ShloMosaic.Lib.Pipeline.Value
import Idealize.ShloMosaic.PureOps.Ideal.Laws

noncomputable section

namespace Cert.Val

open Idealize.ShloMosaic Idealize.ShloMosaic.TcCoe Idealize.SL.Sem
open Idealize.ShloMosaic.ValueIdx
open Cert.KernelIdeal Cert.KernelIdeal.Gen Cert.KernelIdeal.Coll

/-! ## The order: four block maxima against one column maximum -/

/-- The value every maximum starts from: the word of minus infinity. It is the same word on both sides and is never
    evaluated. -/
abbrev ninf : EReal := Ideal.ofBits .f32 0xFF800000#32

/-- Row `r` of block `d` is row `512 d + r` of the whole array; -/
def row (d : Dev nD) (r : Fin 512) : Fin 2048 :=
  ⟨d.val * 512 + r.val, by have hd : d.val < 4 := d.isLt; omega⟩

/-- and every row of the array is a row of some block. -/
theorem row_surj (k : Fin 2048) : ∃ (d : Dev nD) (r : Fin 512), row d r = k :=
  ⟨⟨k.val / 512, by show k.val / 512 < 4; omega⟩, ⟨k.val % 512, by omega⟩,
    Fin.ext (by show k.val / 512 * 512 + k.val % 512 = k.val; omega)⟩

/-- The devices 0, 3, 1 and 2 places after `c` are all four devices. -/
theorem ring_cover (c d : Dev nD) : d = c ∨ d = sh 3 c ∨ d = sh 1 c ∨ d = sh 2 c := by
  revert c d; decide

/-- Column `q`'s maximum over the rows of block `d`, -/
def blockMax (X : Vec Ideal Cert.ReferenceIdeal.S2048x256 .f32) (d : Dev nD) (q : Fin 256) : EReal :=
  (Finset.univ : Finset (Fin 512)).fold max ninf (fun r => X (ix2 (row d r) q))

/-- and over all the rows. -/
def colMax (X : Vec Ideal Cert.ReferenceIdeal.S2048x256 .f32) (q : Fin 256) : EReal :=
  (Finset.univ : Finset (Fin 2048)).fold max ninf (fun k => X (ix2 k q))

/-- The upper bounds of a block's maximum: those of minus infinity and of the block's entries in the column. -/
theorem blockMax_le_iff (X : Vec Ideal Cert.ReferenceIdeal.S2048x256 .f32) (d : Dev nD) (q : Fin 256) (z : EReal) :
    blockMax X d q ≤ z ↔ ninf ≤ z ∧ ∀ r : Fin 512, X (ix2 (row d r) q) ≤ z := by
  unfold blockMax
  rw [Finset.fold_max_le]
  exact and_congr_right fun _ => ⟨fun h r => h r (Finset.mem_univ _), fun h r _ => h r⟩

/-- The upper bounds of the column's maximum: those of minus infinity and of every entry in the column. -/
theorem colMax_le_iff (X : Vec Ideal Cert.ReferenceIdeal.S2048x256 .f32) (q : Fin 256) (z : EReal) :
    colMax X q ≤ z ↔ ninf ≤ z ∧ ∀ k : Fin 2048, X (ix2 k q) ≤ z := by
  unfold colMax
  rw [Finset.fold_max_le]
  exact and_congr_right fun _ => ⟨fun h k => h k (Finset.mem_univ _), fun h k _ => h k⟩

/-- The maximum of the four blocks' maxima, taken in the order 0, 3, 1, 2 places after `c`, is the column's maximum:
    the two have the same upper bounds. -/
theorem max_blocks_eq_colMax (X : Vec Ideal Cert.ReferenceIdeal.S2048x256 .f32) (c : Dev nD) (q : Fin 256) :
    max (max (max (blockMax X c q) (blockMax X (sh 3 c) q)) (blockMax X (sh 1 c) q)) (blockMax X (sh 2 c) q)
      = colMax X q := by
  refine eq_of_forall_ge_iff fun z => ?_
  rw [colMax_le_iff]
  simp only [max_le_iff, blockMax_le_iff]
  constructor
  · rintro ⟨⟨⟨⟨hn, h0⟩, ⟨_, h3⟩⟩, ⟨_, h1⟩⟩, ⟨_, h2⟩⟩
    refine ⟨hn, fun k => ?_⟩
    obtain ⟨d, r, rfl⟩ := row_surj k
    rcases ring_cover c d with rfl | rfl | rfl | rfl
    exacts [h0 r, h3 r, h1 r, h2 r]
  · rintro ⟨hn, h⟩
    exact ⟨⟨⟨⟨hn, fun r => h _⟩, ⟨hn, fun r => h _⟩⟩, ⟨hn, fun r => h _⟩⟩, ⟨hn, fun r => h _⟩⟩

/-! ## The kernel's terms at a column -/

/-- The row index over column `q` with `r` inserted on the reduced axis is `(r, q)`. -/
theorem lift_rows (h : S512x256.Reduces [0] S256) (q : Fin 256) (r : Fin 512) :
    h.lift (ix1 q) r = ix2 r q := by
  funext a
  apply Fin.ext
  match a with
  | ⟨0, _⟩ => rfl
  | ⟨1, _⟩ => rfl

/-- The reduction of a 512 × 256 block over its rows, cast to one row of a 1 × 1 × 256 array: at column `q`, the
    maximum from minus infinity of the block's column `q`. -/
theorem pay1_apply (v : Vec Ideal S512x256 .f32) (q : Fin 256) :
    k0_pay1 (F := Ideal) v (ix3 (0 : Fin 1) (0 : Fin 1) q)
      = (Finset.univ : Finset (Fin 512)).fold max ninf (fun r => v (ix2 r q)) := by
  unfold k0_pay1
  rw [shapeCast_ab_1ab_apply, shapeCast_a_1a_apply]
  refine (Ideal.multiReduction_maximumf_single _ _ _ _ _ _).trans ?_
  rw [shapeCast_self]
  refine congrArg (fun g => (Finset.univ : Finset (Fin 512)).fold max ninf g) ?_
  funext r
  exact congrArg v (lift_rows _ q r)

/-- The pointwise maximum of two rows, -/
theorem pay2_apply (a b : Vec Ideal S1x1x256 .f32) (q : Fin 256) :
    k0_pay2 (F := Ideal) a b (ix2 (0 : Fin 1) q)
      = max (a (ix3 (0 : Fin 1) (0 : Fin 1) q)) (b (ix3 (0 : Fin 1) (0 : Fin 1) q)) := by
  unfold k0_pay2
  rw [maximumf_apply, shapeCast_1ab_ab_apply, shapeCast_1ab_ab_apply]

/-- and of that with two more. -/
theorem pay3_apply (a : FVec Ideal S1x256 .f32) (b d : Vec Ideal S1x1x256 .f32) (q : Fin 256) :
    k0_pay3 (F := Ideal) a b d (ix2 (0 : Fin 1) q)
      = max (max (a (ix2 (0 : Fin 1) q)) (b (ix3 (0 : Fin 1) (0 : Fin 1) q))) (d (ix3 (0 : Fin 1) (0 : Fin 1) q)) := by
  unfold k0_pay3
  rw [maximumf_apply, maximumf_apply, shapeCast_1ab_ab_apply, shapeCast_1ab_ab_apply]

/-- A device's block as its staging buffer holds it is its argument buffer's contents: the window is the whole
    buffer. -/
theorem xblk_eq (m : (ℓ : Loc nD τ sig) → Buf (Elt Ideal) ℓ) (c : Dev nD) :
    xblk (F := Ideal) m c = m ((c.tc : Thread nD τ).loc main_arg0) := by
  unfold xblk
  exact Memref.read_access_unit_zero (Elt Ideal) main_arg0 (funext fun a => Nat.zero_mul _) _ _

/-- Block `d` of the array at `(r, q)` is the array at `(512 d + r, q)`. -/
theorem block_rows (X : Vec Ideal Cert.ReferenceIdeal.S2048x256 .f32) (d : Dev nD) (r : Fin 512) (q : Fin 256)
    (h : Layout.Tiles ⟨2, ![512, 256]⟩ ⟨2, ![2048, 256]⟩ 0 4) :
    Layout.block ⟨2, ![512, 256]⟩ ⟨2, ![2048, 256]⟩ 0 4 d X h (ix2 r q) = X (ix2 (row d r) q) := by
  refine congrArg X ?_
  funext a
  apply Fin.ext
  match a with
  | ⟨0, _⟩ => rfl
  | ⟨1, _⟩ => rfl

/-- Device `d`'s row of column maxima is, at column `q`, block `d`'s maximum of that column. -/
theorem lmax_apply (m : (ℓ : Loc nD τ sig) → Buf (Elt Ideal) ℓ) (X : Vec Ideal Cert.ReferenceIdeal.S2048x256 .f32)
    (hagree : ∀ c : Dev nD, m ((c.tc : Thread nD τ).loc main_arg0)
      = Layout.block ⟨2, ![512, 256]⟩ ⟨2, ![2048, 256]⟩ 0 4 c X)
    (d : Dev nD) (q : Fin 256) :
    lmax (F := Ideal) m d (ix3 (0 : Fin 1) (0 : Fin 1) q) = blockMax X d q := by
  unfold lmax blockMax
  refine (pay1_apply _ q).trans ?_
  refine congrArg (fun g => (Finset.univ : Finset (Fin 512)).fold max ninf g) ?_
  funext r
  rw [xblk_eq, hagree d]
  exact block_rows X d r q _

/-- The kernel's result on device `c` at column `q`: the column's maximum over the whole array. -/
theorem outVal_apply (m : (ℓ : Loc nD τ sig) → Buf (Elt Ideal) ℓ) (X : Vec Ideal Cert.ReferenceIdeal.S2048x256 .f32)
    (hagree : ∀ c : Dev nD, m ((c.tc : Thread nD τ).loc main_arg0)
      = Layout.block ⟨2, ![512, 256]⟩ ⟨2, ![2048, 256]⟩ 0 4 c X)
    (c : Dev nD) (q : Fin 256) :
    outVal (F := Ideal) m c (ix2 (0 : Fin 1) q) = colMax X q := by
  unfold outVal
  refine (pay3_apply _ _ _ q).trans ?_
  rw [pay2_apply, lmax_apply m X hagree, lmax_apply m X hagree, lmax_apply m X hagree, lmax_apply m X hagree]
  exact max_blocks_eq_colMax X c q

/-! ## The reference's term at a column -/

theorem reducesRef : Cert.ReferenceIdeal.S2048x256.Reduces [0] Cert.ReferenceIdeal.S256 := by decide

theorem lift_rows_ref (h : Cert.ReferenceIdeal.S2048x256.Reduces [0] Cert.ReferenceIdeal.S256) (q : Fin 256)
    (k : Fin 2048) : h.lift (ix1 q) k = ix2 k q := by
  funext a
  apply Fin.ext
  match a with
  | ⟨0, _⟩ => rfl
  | ⟨1, _⟩ => rfl

/-- The broadcast to one row reads the reduced vector at the column. -/
theorem idx_ref (q : Fin 256) : Cert.ReferenceIdeal.Read.idx_main_v1 (ix2 (0 : Fin 1) q) = ix1 q := by
  funext a
  match a with
  | ⟨0, _⟩ => rfl

/-- The reference at column `q`: the maximum, from minus infinity, of the whole column. -/
theorem ref_apply (X : Vec Ideal Cert.ReferenceIdeal.S2048x256 .f32) (q : Fin 256) :
    Cert.ReferenceIdeal.Read.val_main_v1 (F := Ideal) X (ix2 (0 : Fin 1) q) = colMax X q := by
  unfold colMax
  rw [Cert.ReferenceIdeal.Read.val_main_v1_apply, idx_ref]
  unfold Cert.ReferenceIdeal.Read.val_main_v0
  refine (Host.reduce_eq_fold_single (FloatOps.maximumf (F := Ideal) (φ := .f32)) X _ _ reducesRef _ (ix1 q)).trans ?_
  refine congrArg (fun g => (Finset.univ : Finset (Fin 2048)).fold max ninf g) ?_
  funext k
  exact congrArg X (lift_rows_ref _ q k)

/-! ## The two sides are one function -/

/-- On every device the kernel's result is the reference's. -/
theorem outVal_eq (m : (ℓ : Loc nD τ sig) → Buf (Elt Ideal) ℓ) (X : Vec Ideal Cert.ReferenceIdeal.S2048x256 .f32)
    (hagree : ∀ c : Dev nD, m ((c.tc : Thread nD τ).loc main_arg0)
      = Layout.block ⟨2, ![512, 256]⟩ ⟨2, ![2048, 256]⟩ 0 4 c X)
    (c : Dev nD) :
    outVal (F := Ideal) m c = Cert.ReferenceIdeal.Read.val_main_v1 (F := Ideal) X := by
  funext i
  obtain ⟨u, q, rfl⟩ : ∃ (u : Fin 1) (q : Fin 256), i = ix2 u q := ⟨i 0, i 1, eq_ix2 i⟩
  obtain rfl : u = 0 := Subsingleton.elim _ _
  exact (outVal_apply m X hagree c q).trans (ref_apply X q).symm

/-! ## The claims -/

/-- The reference runs and leaves its argument unchanged: its run with the result dropped. -/
theorem frame_ri : Cert.frame_ReferenceIdeal :=
  fun m ρ _ => (θ_run Cert.ReferenceIdeal.defs _ _).mono (fun _ h c => (h c).2)
    (Cert.ReferenceIdeal.Value.run (F := Ideal) m ρ)

/-- Given the kernel's run ending with every device's result at the four-row maximum and its argument unchanged, the
    kernel and the reference end with the same result from memories that agree block by block. -/
theorem algebraic_of_run
    (hrun : ∀ (m : (ℓ : Loc Cert.KernelIdeal.nD Cert.KernelIdeal.τ Cert.KernelIdeal.sig) → Buf (Elt Ideal) ℓ)
        (ρ : Dev Cert.KernelIdeal.nD → PrngReg),
      θ_run (Cert.KernelIdeal.defs (F := Ideal)) (onTc (τ := Cert.KernelIdeal.τ) (Cert.KernelIdeal.main (F := Ideal)))
        ⟨m, fun _ => 0, ρ⟩
        (fun r => ∀ c : Dev Cert.KernelIdeal.nD,
          r.2.mem ((c.tc : Thread Cert.KernelIdeal.nD Cert.KernelIdeal.τ).loc Cert.KernelIdeal.main_v1)
              = Cert.KernelIdeal.Coll.outVal (F := Ideal) m c
          ∧ r.2.mem ((c.tc : Thread Cert.KernelIdeal.nD Cert.KernelIdeal.τ).loc Cert.KernelIdeal.main_arg0)
              = m ((c.tc : Thread Cert.KernelIdeal.nD Cert.KernelIdeal.τ).loc Cert.KernelIdeal.main_arg0))) :
    Cert.algebraic_KernelIdeal_ReferenceIdeal :=
  fun m g m' g' _ hagree =>
    ⟨Cert.ReferenceIdeal.Read.val_main_v1 (F := Ideal)
        (m' (((0 : Dev Cert.ReferenceIdeal.nD).tc : Thread Cert.ReferenceIdeal.nD Cert.ReferenceIdeal.τ).loc
          Cert.ReferenceIdeal.main_arg0)),
      (θ_run (Cert.KernelIdeal.defs (F := Ideal)) _ _).mono
        (fun _ h c => ⟨(h c).1.trans (outVal_eq m _ hagree c), (h c).2⟩) (hrun m g),
      (θ_run Cert.ReferenceIdeal.defs _ _).mono
        (fun _ h => ⟨(h 0).1.trans (Cert.ReferenceIdeal.Read.val_main_v1_eq _), (h 0).2⟩)
        (Cert.ReferenceIdeal.Value.run (F := Ideal) m' g')⟩

/-- info: 'Cert.Val.algebraic_of_run' depends on axioms: [propext, Classical.choice, Quot.sound] -/
#guard_msgs in #print axioms algebraic_of_run

end Cert.Val

end
-- ==== Proof.lean ====
/-
  The five conjuncts, assembled.

  The kernel's run on the four devices (the protocol's launch over each device's body) ends with every device's
  result at the maximum of the four devices' column maxima and the argument blocks unchanged; that run, read at the
  word-level instance and at the extended reals, is the two kernel frames with the value dropped. The reference's
  frame is its run with the result dropped. The idealization rewrote nothing, so there is nothing to preserve. And at
  the extended reals the four-way maximum of the blocks' column maxima is the column maximum of the whole array.
-/
import proofs.«900926_g7700000000000927_dist_max_ax0_shard0_i_m512_n256_v7x_i4_bf16_1_alg».proof.Defs
import proofs.«900926_g7700000000000927_dist_max_ax0_shard0_i_m512_n256_v7x_i4_bf16_1_alg».proof.Proof.Gen.Kernel
import proofs.«900926_g7700000000000927_dist_max_ax0_shard0_i_m512_n256_v7x_i4_bf16_1_alg».proof.Proof.Gen.KernelIdeal
import proofs.«900926_g7700000000000927_dist_max_ax0_shard0_i_m512_n256_v7x_i4_bf16_1_alg».proof.Proof.Gen.ReferenceIdeal
import proofs.«900926_g7700000000000927_dist_max_ax0_shard0_i_m512_n256_v7x_i4_bf16_1_alg».proof.Proof.Gen.Pre_finite_inputs_Kernel
import proofs.«900926_g7700000000000927_dist_max_ax0_shard0_i_m512_n256_v7x_i4_bf16_1_alg».proof.Proof.Gen.Pre_finite_inputs_ReferenceIdeal
import proofs.«900926_g7700000000000927_dist_max_ax0_shard0_i_m512_n256_v7x_i4_bf16_1_alg».proof.Proof.Ideal.Body
import proofs.«900926_g7700000000000927_dist_max_ax0_shard0_i_m512_n256_v7x_i4_bf16_1_alg».proof.Proof.Ideal.Launch
import proofs.«900926_g7700000000000927_dist_max_ax0_shard0_i_m512_n256_v7x_i4_bf16_1_alg».proof.Proof.Bits.Body
import proofs.«900926_g7700000000000927_dist_max_ax0_shard0_i_m512_n256_v7x_i4_bf16_1_alg».proof.Proof.Bits.Launch
import proofs.«900926_g7700000000000927_dist_max_ax0_shard0_i_m512_n256_v7x_i4_bf16_1_alg».proof.Proof.Value

noncomputable section

namespace Cert.Proof

open Idealize.ShloMosaic Idealize.SL.Sem

theorem frame_k : Cert.frame_Kernel := fun m ρ _ =>
  (θ_run (Cert.Kernel.defs (F := Bits)) _ _).mono (fun _ h c => (h c).2)
    (Cert.Kernel.Coll.run (F := Bits) m ρ (Cert.Kernel.Coll.body_obligation (F := Bits) m ρ))

theorem frame_ki : Cert.frame_KernelIdeal := fun m ρ _ =>
  (θ_run (Cert.KernelIdeal.defs (F := Ideal)) _ _).mono (fun _ h c => (h c).2)
    (Cert.KernelIdeal.Coll.run (F := Ideal) m ρ (Cert.KernelIdeal.Coll.body_obligation (F := Ideal) m ρ))

theorem preserves : Cert.preserves_Kernel_KernelIdeal := trivial

theorem algebraic : Cert.algebraic_KernelIdeal_ReferenceIdeal :=
  Cert.Val.algebraic_of_run fun m ρ =>
    Cert.KernelIdeal.Coll.run (F := Ideal) m ρ (Cert.KernelIdeal.Coll.body_obligation (F := Ideal) m ρ)

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, Cert.Val.frame_ri, preserves, algebraic⟩

end Cert.Proof

end
